-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128x64x64 : Shape := ⟨4, ![1, 128, 64, 64]⟩
abbrev S1x64x64 : Shape := ⟨3, ![1, 64, 64]⟩
abbrev S_ : Shape := ⟨0, ![]⟩

class Facts : Prop where
  bcast_S_S1x128x64x64 : S_.BroadcastsInDim S1x128x64x64 (![] : Fin 0 → Fin S1x128x64x64.rank)
  reducesTo_S1x128x64x64_S_d0_1_2_3 : S1x128x64x64.ReducesTo [0, 1, 2, 3] S_
  h_S_ : 0 < S_.numel

variable [Facts]

def fn {F : FTy → Type} [FloatOps F] (main_arg0 : FVec F S1x128x64x64 .f32) (main_arg1 : FVec F S1x128x64x64 .f32) (main_arg2 : IVec S1x64x64 32) (main_arg3 : IVec S1x64x64 1) : IVec S_ 1 :=
  let main_v0 : FVec F S1x128x64x64 .f32 := Host.absf main_arg0
  let main_cst : FVec F S_ .f32 := constant S_ .f32 0x7F800000#32
  let main_v1 : FVec F S1x128x64x64 .f32 := broadcastInDim S1x128x64x64 ![] bcast_S_S1x128x64x64 main_cst
  let main_v2 : IVec S1x128x64x64 1 := cmpf .olt main_v0 main_v1
  let main_c : IVec S_ 1 := constantI S_ 1 1#1
  let main_v3 : IVec S_ 1 := (fun x v => Host.reduce IntOp.andi x v reducesTo_S1x128x64x64_S_d0_1_2_3 h_S_) main_v2 main_c
  let main_v4 : FVec F S1x128x64x64 .f32 := Host.absf main_arg1
  let main_cst_0 : FVec F S_ .f32 := constant S_ .f32 0x7F800000#32
  let main_v5 : FVec F S1x128x64x64 .f32 := broadcastInDim S1x128x64x64 ![] bcast_S_S1x128x64x64 main_cst_0
  let main_v6 : IVec S1x128x64x64 1 := cmpf .olt main_v4 main_v5
  let main_c_1 : IVec S_ 1 := constantI S_ 1 1#1
  let main_v7 : IVec S_ 1 := (fun x v => Host.reduce IntOp.andi x v reducesTo_S1x128x64x64_S_d0_1_2_3 h_S_) main_v6 main_c_1
  let main_v8 : IVec S_ 1 := andi main_v3 main_v7
  main_v8
-- ==== Kernel.lean ====
abbrev S1x128x64x64 : Shape := ⟨4, ![1, 128, 64, 64]⟩
abbrev S1x64x64 : Shape := ⟨3, ![1, 64, 64]⟩
abbrev S1x64x64x128 : Shape := ⟨4, ![1, 64, 64, 128]⟩
abbrev S4096x128 : Shape := ⟨2, ![4096, 128]⟩
abbrev S4096 : Shape := ⟨1, ![4096]⟩
abbrev S4095 : Shape := ⟨1, ![4095]⟩
abbrev S_ : Shape := ⟨0, ![]⟩
abbrev S1 : Shape := ⟨1, ![1]⟩
abbrev S16 : Shape := ⟨1, ![16]⟩
abbrev S4096x1 : Shape := ⟨2, ![4096, 1]⟩
abbrev S1x4096 : Shape := ⟨2, ![1, 4096]⟩
abbrev S512x128 : Shape := ⟨2, ![512, 128]⟩
abbrev S512x1 : Shape := ⟨2, ![512, 1]⟩
abbrev S1x512 : Shape := ⟨2, ![1, 512]⟩
abbrev S512 : Shape := ⟨1, ![512]⟩
abbrev S128x512 : Shape := ⟨2, ![128, 512]⟩
abbrev S512x512 : Shape := ⟨2, ![512, 512]⟩

abbrev nBuf : Space → Nat
  | .hbm => 70
  | .vmem => 15
  | .smem => 0
  | _ => 0

abbrev bufTy : (tb : Table) → Fin (tcTables nBuf tb) → BufTy
  | .hbm, ⟨0, _⟩ => ⟨S1x128x64x64, .f32⟩
  | .hbm, ⟨1, _⟩ => ⟨S1x128x64x64, .f32⟩
  | .hbm, ⟨2, _⟩ => ⟨S1x64x64, .i32⟩
  | .hbm, ⟨3, _⟩ => ⟨S1x64x64, .i1⟩
  | .hbm, ⟨4, _⟩ => ⟨S1x64x64x128, .f32⟩
  | .hbm, ⟨5, _⟩ => ⟨S4096x128, .f32⟩
  | .hbm, ⟨6, _⟩ => ⟨S1x64x64x128, .f32⟩
  | .hbm, ⟨7, _⟩ => ⟨S4096x128, .f32⟩
  | .hbm, ⟨8, _⟩ => ⟨S4096, .i32⟩
  | .hbm, ⟨9, _⟩ => ⟨S4095, .i32⟩
  | .hbm, ⟨10, _⟩ => ⟨S4095, .i32⟩
  | .hbm, ⟨11, _⟩ => ⟨S4095, .i1⟩
  | .hbm, ⟨12, _⟩ => ⟨S4095, .i32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S4095, .i32⟩
  | .hbm, ⟨18, _⟩ => ⟨S4096, .i32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S16, .f32⟩
  | .hbm, ⟨23, _⟩ => ⟨S4096x1, .i32⟩
  | .hbm, ⟨24, _⟩ => ⟨S16, .f32⟩
  | .hbm, ⟨25, _⟩ => ⟨S4096x1, .i32⟩
  | .hbm, ⟨26, _⟩ => ⟨S1x4096, .i32⟩
  | .hbm, ⟨27, _⟩ => ⟨S4096x1, .f32⟩
  | .hbm, ⟨28, _⟩ => ⟨S4096, .f32⟩
  | .hbm, ⟨29, _⟩ => ⟨S_, .f32⟩
  | .hbm, ⟨30, _⟩ => ⟨S16, .f32⟩
  | .hbm, ⟨31, _⟩ => ⟨S4096x1, .i32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .i1⟩
  | .hbm, ⟨43, _⟩ => ⟨S16, .f32⟩
  | .hbm, ⟨44, _⟩ => ⟨S_, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .i1⟩
  | .hbm, ⟨51, _⟩ => ⟨S_, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .i1⟩
  | .hbm, ⟨63, _⟩ => ⟨S16, .i32⟩
  | .hbm, ⟨64, _⟩ => ⟨S_, .i32⟩
  | .hbm, ⟨65, _⟩ => ⟨S_, .i32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1, .i32⟩
  | .local _ .vmem, ⟨9, _⟩ => ⟨S512x1, .i32⟩
  | .local _ .vmem, ⟨10, _⟩ => ⟨S1x512, .i32⟩
  | .local _ .vmem, ⟨11, _⟩ => ⟨S1x512, .i32⟩
  | .local _ .vmem, ⟨12, _⟩ => ⟨S512x1, .f32⟩
  | .local _ .vmem, ⟨13, _⟩ => ⟨S512x1, .f32⟩
  | .local _ .vmem, ⟨14, _⟩ => ⟨S512x1, .f32⟩
  | _, _ => ⟨S1x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_call0_call0_c : Ref sig .tc := ⟨.hbm, 15, rfl⟩
abbrev main_call0_call0_v0 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_call2_v0 : Ref sig .tc := ⟨.hbm, 52, rfl⟩
abbrev main_call2_v1 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_call3_v0 : Ref sig .tc := ⟨.hbm, 57, rfl⟩
abbrev main_call3_v1 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_cst_11 : Ref sig .tc := ⟨.hbm, 67, rfl⟩
abbrev main_v42 : Ref sig .tc := ⟨.hbm, 68, rfl⟩
abbrev main_v43 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v154 : BitVec 1 := Scalar.cmpi .eq arg1 c7_i32
  let v155 : BitVec 32 := Scalar.extui v154
  let c0_i32_52 : BitVec 32 := 0#32
  let v156 : BitVec 1 := Scalar.cmpi .ne v155 c0_i32_52
  v156

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S1x128x64x64_S1x64x64x128_0_2_3_1 : S1x128x64x64.Transposes [0, 2, 3, 1] S1x64x64x128
  shapeCasts_S1x64x64x128_S4096x128 : S1x64x64x128.ShapeCasts S4096x128
  shapeCasts_S1x64x64_S4096 : S1x64x64.ShapeCasts S4096
  slices_S4096_S4095_1 : S4096.Slices ![1] S4095
  slices_S4096_S4095_0 : S4096.Slices ![0] S4095
  natLt_1_32 : 1 < 32
  bcast_S_S1 : S_.BroadcastsInDim S1 (![] : Fin 0 → Fin S1.rank)
  bcast_S_S_ : S_.BroadcastsInDim S_ (![] : Fin 0 → Fin S_.rank)
  reduceWindows_S4095_S4095_w4095s1p4094_0 : S4095.ReduceWindows (![4095] : Fin 1 → Nat) ![1] ![4094] ![0] S4095
  h_S_ : 0 < S_.numel
  concatenates_S1_S4095_S4096_d0 : Shape.Concatenates [S1, S4095] S4096 0
  bcast_S_S4096 : S_.BroadcastsInDim S4096 (![] : Fin 0 → Fin S4096.rank)
  bcast_S_S16 : S_.BroadcastsInDim S16 (![] : Fin 0 → Fin S16.rank)
  bcast_S4096_S4096x1_0 : S4096.BroadcastsInDim S4096x1 (![0] : Fin 1 → Fin S4096x1.rank)
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S512x128_S512 : S512x128.Reduces [1] S512
  shapeCasts_S512_S512x1 : S512.ShapeCasts S512x1
  transposes_S512x1_p1_0_S1x512 : S512x1.Transposes [1, 0] S1x512
  bitsLt_bf16_f32 : FTy.bits .bf16 < FTy.bits .f32
  transposes_S512x128_p1_0_S128x512 : S512x128.Transposes [1, 0] S128x512
  broadcasts_S512x1_S512x512 : S512x1.Broadcasts S512x512
  broadcasts_S1x512_S512x512 : S1x512.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x512_S512 : S512x512.Reduces [1] S512
  shapeCasts_S4096x1_S4096 : S4096x1.ShapeCasts S4096
  reducesTo_S16_S_d0 : S16.ReducesTo [0] S_
  scatter_S16_S4096x1_S4096_n_0_0_1_wf : ScatterDims.WF S16 S4096x1 S4096 [] [0] [0] 1
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .i32 = 32 ∨ (Rect.block (s := S4096x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .i32 = 32 ∨ (Rect.block (s := S1x4096) S1x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)

variable [Facts₀]

def scatter_S16_S4096x1_S4096_n_0_0_1 : ScatterDims S16 S4096x1 S4096 where
  updateWindowDims := []
  insertedWindowDims := [0]
  scatterDimsToOperandDims := [0]
  indexVectorDim := 1
  wf := scatter_S16_S4096x1_S4096_n_0_0_1_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_v1) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1x128x64x64 : Shape := ⟨4, ![1, 128, 64, 64]⟩
abbrev S1x64x64 : Shape := ⟨3, ![1, 64, 64]⟩
abbrev S1x64x64x128 : Shape := ⟨4, ![1, 64, 64, 128]⟩
abbrev S4096x128 : Shape := ⟨2, ![4096, 128]⟩
abbrev S4096 : Shape := ⟨1, ![4096]⟩
abbrev S4095 : Shape := ⟨1, ![4095]⟩
abbrev S_ : Shape := ⟨0, ![]⟩
abbrev S1 : Shape := ⟨1, ![1]⟩
abbrev S16 : Shape := ⟨1, ![16]⟩
abbrev S4096x1 : Shape := ⟨2, ![4096, 1]⟩
abbrev S1x4096 : Shape := ⟨2, ![1, 4096]⟩
abbrev S4096x4096 : Shape := ⟨2, ![4096, 4096]⟩
abbrev S128x4096 : Shape := ⟨2, ![128, 4096]⟩

abbrev nBuf : Space → Nat
  | .hbm => 238
  | .vmem => 0
  | .smem => 0
  | _ => 0

abbrev hbmTy0_0 (i : Nat) : BufTy := match i % 128 with
  | 0 => ⟨S1x128x64x64, .f32⟩
  | 1 => ⟨S1x128x64x64, .f32⟩
  | 2 => ⟨S1x64x64, .i32⟩
  | 3 => ⟨S1x64x64, .i1⟩
  | 4 => ⟨S1x64x64x128, .f32⟩
  | 5 => ⟨S4096x128, .f32⟩
  | 6 => ⟨S1x64x64x128, .f32⟩
  | 7 => ⟨S4096x128, .f32⟩
  | 8 => ⟨S4096, .i32⟩
  | 9 => ⟨S4095, .i32⟩
  | 10 => ⟨S4095, .i32⟩
  | 11 => ⟨S4095, .i1⟩
  | 12 => ⟨S4095, .i32⟩
  | 13 => ⟨S_, .i32⟩
  | 14 => ⟨S1, .i32⟩
  | 15 => ⟨S_, .i32⟩
  | 16 => ⟨S_, .i32⟩
  | 17 => ⟨S4095, .i32⟩
  | 18 => ⟨S4096, .i32⟩
  | 19 => ⟨S_, .f32⟩
  | 20 => ⟨S4096, .f32⟩
  | 21 => ⟨S_, .f32⟩
  | 22 => ⟨S16, .f32⟩
  | 23 => ⟨S4096x1, .i32⟩
  | 24 => ⟨S16, .f32⟩
  | 25 => ⟨S4096x128, .f32⟩
  | 26 => ⟨S_, .f32⟩
  | 27 => ⟨S4096, .f32⟩
  | 28 => ⟨S4096x128, .f32⟩
  | 29 => ⟨S_, .f32⟩
  | 30 => ⟨S4096, .f32⟩
  | 31 => ⟨S4096x1, .f32⟩
  | 32 => ⟨S1x4096, .f32⟩
  | 33 => ⟨S4096x4096, .f32⟩
  | 34 => ⟨S4096x4096, .f32⟩
  | 35 => ⟨S4096x4096, .f32⟩
  | 36 => ⟨S128x4096, .f32⟩
  | 37 => ⟨S4096x4096, .f32⟩
  | 38 => ⟨S_, .f32⟩
  | 39 => ⟨S4096x4096, .f32⟩
  | 40 => ⟨S4096x4096, .f32⟩
  | 41 => ⟨S4096x4096, .f32⟩
  | 42 => ⟨S4096x128, .f32⟩
  | 43 => ⟨S_, .f32⟩
  | 44 => ⟨S4096, .f32⟩
  | 45 => ⟨S4096x128, .f32⟩
  | 46 => ⟨S_, .f32⟩
  | 47 => ⟨S4096, .f32⟩
  | 48 => ⟨S4096x1, .f32⟩
  | 49 => ⟨S1x4096, .f32⟩
  | 50 => ⟨S4096x4096, .f32⟩
  | 51 => ⟨S4096x4096, .f32⟩
  | 52 => ⟨S4096x4096, .f32⟩
  | 53 => ⟨S128x4096, .f32⟩
  | 54 => ⟨S4096x4096, .f32⟩
  | 55 => ⟨S_, .f32⟩
  | 56 => ⟨S4096x4096, .f32⟩
  | 57 => ⟨S4096x4096, .f32⟩
  | 58 => ⟨S4096x4096, .f32⟩
  | 59 => ⟨S4096x128, .f32⟩
  | 60 => ⟨S_, .f32⟩
  | 61 => ⟨S4096, .f32⟩
  | 62 => ⟨S4096x128, .f32⟩
  | 63 => ⟨S_, .f32⟩
  | 64 => ⟨S4096, .f32⟩
  | 65 => ⟨S4096x1, .f32⟩
  | 66 => ⟨S1x4096, .f32⟩
  | 67 => ⟨S4096x4096, .f32⟩
  | 68 => ⟨S4096x4096, .f32⟩
  | 69 => ⟨S4096x4096, .f32⟩
  | 70 => ⟨S128x4096, .f32⟩
  | 71 => ⟨S4096x4096, .f32⟩
  | 72 => ⟨S_, .f32⟩
  | 73 => ⟨S4096x4096, .f32⟩
  | 74 => ⟨S4096x4096, .f32⟩
  | 75 => ⟨S4096x4096, .f32⟩
  | 76 => ⟨S_, .f32⟩
  | 77 => ⟨S4096x4096, .f32⟩
  | 78 => ⟨S_, .f32⟩
  | 79 => ⟨S4096x4096, .f32⟩
  | 80 => ⟨S4096x4096, .f32⟩
  | 81 => ⟨S4096x4096, .f32⟩
  | 82 => ⟨S4096x4096, .f32⟩
  | 83 => ⟨S_, .f32⟩
  | 84 => ⟨S4096x4096, .f32⟩
  | 85 => ⟨S4096x4096, .f32⟩
  | 86 => ⟨S4096x4096, .f32⟩
  | 87 => ⟨S4096x4096, .f32⟩
  | 88 => ⟨S_, .f32⟩
  | 89 => ⟨S4096x4096, .f32⟩
  | 90 => ⟨S4096x4096, .f32⟩
  | 91 => ⟨S4096x4096, .f32⟩
  | 92 => ⟨S_, .f32⟩
  | 93 => ⟨S4096x4096, .f32⟩
  | 94 => ⟨S4096x4096, .f32⟩
  | 95 => ⟨S4096x4096, .f32⟩
  | 96 => ⟨S_, .f32⟩
  | 97 => ⟨S4096x4096, .f32⟩
  | 98 => ⟨S4096x4096, .f32⟩
  | 99 => ⟨S4096x4096, .f32⟩
  | 100 => ⟨S4096x4096, .f32⟩
  | 101 => ⟨S_, .f32⟩
  | 102 => ⟨S4096x4096, .f32⟩
  | 103 => ⟨S4096x4096, .f32⟩
  | 104 => ⟨S4096x4096, .f32⟩
  | 105 => ⟨S4096x4096, .f32⟩
  | 106 => ⟨S_, .f32⟩
  | 107 => ⟨S4096x4096, .f32⟩
  | 108 => ⟨S4096x4096, .f32⟩
  | 109 => ⟨S4096x4096, .f32⟩
  | 110 => ⟨S_, .f32⟩
  | 111 => ⟨S4096x4096, .f32⟩
  | 112 => ⟨S4096x4096, .f32⟩
  | 113 => ⟨S4096x4096, .f32⟩
  | 114 => ⟨S_, .f32⟩
  | 115 => ⟨S4096x4096, .f32⟩
  | 116 => ⟨S4096x4096, .f32⟩
  | 117 => ⟨S4096x4096, .f32⟩
  | 118 => ⟨S4096x4096, .f32⟩
  | 119 => ⟨S_, .f32⟩
  | 120 => ⟨S4096x4096, .f32⟩
  | 121 => ⟨S4096x4096, .f32⟩
  | 122 => ⟨S4096x4096, .f32⟩
  | 123 => ⟨S4096x4096, .f32⟩
  | 124 => ⟨S_, .f32⟩
  | 125 => ⟨S4096x4096, .f32⟩
  | 126 => ⟨S4096x4096, .f32⟩
  | 127 => ⟨S4096x4096, .f32⟩
  | _ => ⟨S1x128x64x64, .f32⟩

abbrev hbmTy0_1 (i : Nat) : BufTy := match i % 128 with
  | 0 => ⟨S_, .f32⟩
  | 1 => ⟨S4096x4096, .f32⟩
  | 2 => ⟨S4096x4096, .f32⟩
  | 3 => ⟨S4096x4096, .f32⟩
  | 4 => ⟨S_, .f32⟩
  | 5 => ⟨S4096x4096, .f32⟩
  | 6 => ⟨S4096x4096, .f32⟩
  | 7 => ⟨S4096x4096, .f32⟩
  | 8 => ⟨S4096x4096, .f32⟩
  | 9 => ⟨S_, .f32⟩
  | 10 => ⟨S4096x4096, .f32⟩
  | 11 => ⟨S4096x4096, .f32⟩
  | 12 => ⟨S4096x4096, .f32⟩
  | 13 => ⟨S4096x4096, .f32⟩
  | 14 => ⟨S_, .f32⟩
  | 15 => ⟨S4096x4096, .f32⟩
  | 16 => ⟨S4096x4096, .f32⟩
  | 17 => ⟨S4096x4096, .f32⟩
  | 18 => ⟨S_, .f32⟩
  | 19 => ⟨S4096x4096, .f32⟩
  | 20 => ⟨S4096x4096, .f32⟩
  | 21 => ⟨S4096x4096, .f32⟩
  | 22 => ⟨S_, .f32⟩
  | 23 => ⟨S4096x4096, .f32⟩
  | 24 => ⟨S4096x4096, .f32⟩
  | 25 => ⟨S4096x4096, .f32⟩
  | 26 => ⟨S4096x4096, .f32⟩
  | 27 => ⟨S_, .f32⟩
  | 28 => ⟨S4096x4096, .f32⟩
  | 29 => ⟨S4096x4096, .f32⟩
  | 30 => ⟨S4096x4096, .f32⟩
  | 31 => ⟨S4096x4096, .f32⟩
  | 32 => ⟨S_, .f32⟩
  | 33 => ⟨S4096x4096, .f32⟩
  | 34 => ⟨S4096x4096, .f32⟩
  | 35 => ⟨S4096x4096, .f32⟩
  | 36 => ⟨S_, .f32⟩
  | 37 => ⟨S4096x4096, .f32⟩
  | 38 => ⟨S4096x4096, .f32⟩
  | 39 => ⟨S4096x4096, .f32⟩
  | 40 => ⟨S_, .f32⟩
  | 41 => ⟨S4096x4096, .f32⟩
  | 42 => ⟨S4096x4096, .f32⟩
  | 43 => ⟨S4096x4096, .f32⟩
  | 44 => ⟨S4096x4096, .f32⟩
  | 45 => ⟨S_, .f32⟩
  | 46 => ⟨S4096x4096, .f32⟩
  | 47 => ⟨S4096x4096, .f32⟩
  | 48 => ⟨S4096x4096, .f32⟩
  | 49 => ⟨S4096x4096, .f32⟩
  | 50 => ⟨S_, .f32⟩
  | 51 => ⟨S4096x4096, .f32⟩
  | 52 => ⟨S4096x4096, .f32⟩
  | 53 => ⟨S4096x4096, .f32⟩
  | 54 => ⟨S_, .f32⟩
  | 55 => ⟨S4096x4096, .f32⟩
  | 56 => ⟨S4096x4096, .f32⟩
  | 57 => ⟨S4096x4096, .f32⟩
  | 58 => ⟨S4096x1, .i32⟩
  | 59 => ⟨S1x4096, .i32⟩
  | 60 => ⟨S4096x4096, .i32⟩
  | 61 => ⟨S4096x4096, .i32⟩
  | 62 => ⟨S4096x4096, .i1⟩
  | 63 => ⟨S_, .f32⟩
  | 64 => ⟨S_, .f32⟩
  | 65 => ⟨S4096x4096, .f32⟩
  | 66 => ⟨S4096x4096, .f32⟩
  | 67 => ⟨S_, .f32⟩
  | 68 => ⟨S4096, .f32⟩
  | 69 => ⟨S_, .f32⟩
  | 70 => ⟨S16, .f32⟩
  | 71 => ⟨S4096x1, .i32⟩
  | 72 => ⟨S16, .f32⟩
  | 73 => ⟨S_, .f32⟩
  | 74 => ⟨S16, .f32⟩
  | 75 => ⟨S16, .f32⟩
  | 76 => ⟨S16, .f32⟩
  | 77 => ⟨S_, .f32⟩
  | 78 => ⟨S16, .f32⟩
  | 79 => ⟨S16, .f32⟩
  | 80 => ⟨S_, .f32⟩
  | 81 => ⟨S16, .f32⟩
  | 82 => ⟨S16, .i1⟩
  | 83 => ⟨S16, .f32⟩
  | 84 => ⟨S_, .f32⟩
  | 85 => ⟨S_, .f32⟩
  | 86 => ⟨S16, .f32⟩
  | 87 => ⟨S16, .f32⟩
  | 88 => ⟨S_, .f32⟩
  | 89 => ⟨S16, .f32⟩
  | 90 => ⟨S16, .i1⟩
  | 91 => ⟨S_, .f32⟩
  | 92 => ⟨S_, .f32⟩
  | 93 => ⟨S16, .f32⟩
  | 94 => ⟨S16, .f32⟩
  | 95 => ⟨S16, .f32⟩
  | 96 => ⟨S_, .f32⟩
  | 97 => ⟨S_, .f32⟩
  | 98 => ⟨S16, .f32⟩
  | 99 => ⟨S16, .f32⟩
  | 100 => ⟨S_, .f32⟩
  | 101 => ⟨S16, .f32⟩
  | 102 => ⟨S16, .i1⟩
  | 103 => ⟨S16, .i32⟩
  | 104 => ⟨S_, .i32⟩
  | 105 => ⟨S_, .i32⟩
  | 106 => ⟨S_, .f32⟩
  | 107 => ⟨S_, .f32⟩
  | 108 => ⟨S_, .f32⟩
  | 109 => ⟨S_, .f32⟩
  | _ => ⟨S1x128x64x64, .f32⟩

abbrev hbmTy (i : Nat) : BufTy := match i / 128 with
  | 0 => hbmTy0_0 i
  | 1 => hbmTy0_1 i
  | _ => ⟨S1x128x64x64, .f32⟩

abbrev bufTy : (tb : Table) → Fin (tcTables nBuf tb) → BufTy
  | .hbm, ⟨i, _⟩ => hbmTy i
  | _, _ => ⟨S1x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_call0_call0_c : Ref sig .tc := ⟨.hbm, 15, rfl⟩
abbrev main_call0_call0_v0 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_14 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_15 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_16 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_17 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_18 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_19 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_20 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_21 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_22 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_23 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_24 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_25 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_26 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_27 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_28 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_29 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_30 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_31 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_32 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_cst_33 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_34 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_cst_35 : Ref sig .tc := ⟨.hbm, 191, rfl⟩
abbrev main_call1_v0 : Ref sig .tc := ⟨.hbm, 192, rfl⟩
abbrev main_call1_v1 : Ref sig .tc := ⟨.hbm, 193, rfl⟩
abbrev main_v148 : Ref sig .tc := ⟨.hbm, 194, rfl⟩
abbrev main_cst_36 : Ref sig .tc := ⟨.hbm, 195, rfl⟩
abbrev main_v149 : Ref sig .tc := ⟨.hbm, 196, rfl⟩
abbrev main_cst_37 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_cst_38 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_cst_39 : Ref sig .tc := ⟨.hbm, 205, rfl⟩
abbrev main_v156 : Ref sig .tc := ⟨.hbm, 206, rfl⟩
abbrev main_v157 : Ref sig .tc := ⟨.hbm, 207, rfl⟩
abbrev main_cst_40 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_cst_41 : Ref sig .tc := ⟨.hbm, 212, rfl⟩
abbrev main_call2_v0 : Ref sig .tc := ⟨.hbm, 213, rfl⟩
abbrev main_call2_v1 : Ref sig .tc := ⟨.hbm, 214, rfl⟩
abbrev main_v161 : Ref sig .tc := ⟨.hbm, 215, rfl⟩
abbrev main_cst_42 : Ref sig .tc := ⟨.hbm, 216, rfl⟩
abbrev main_v162 : Ref sig .tc := ⟨.hbm, 217, rfl⟩
abbrev main_v163 : Ref sig .tc := ⟨.hbm, 218, rfl⟩
abbrev main_cst_43 : Ref sig .tc := ⟨.hbm, 219, rfl⟩
abbrev main_call3_v0 : Ref sig .tc := ⟨.hbm, 220, rfl⟩
abbrev main_call3_v1 : Ref sig .tc := ⟨.hbm, 221, rfl⟩
abbrev main_v164 : Ref sig .tc := ⟨.hbm, 222, rfl⟩
abbrev main_v165 : Ref sig .tc := ⟨.hbm, 223, rfl⟩
abbrev main_cst_44 : Ref sig .tc := ⟨.hbm, 224, rfl⟩
abbrev main_call4_v0 : Ref sig .tc := ⟨.hbm, 225, rfl⟩
abbrev main_call4_v1 : Ref sig .tc := ⟨.hbm, 226, rfl⟩
abbrev main_v166 : Ref sig .tc := ⟨.hbm, 227, rfl⟩
abbrev main_cst_45 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_c_46 : Ref sig .tc := ⟨.hbm, 232, rfl⟩
abbrev main_v170 : Ref sig .tc := ⟨.hbm, 233, rfl⟩
abbrev main_v171 : Ref sig .tc := ⟨.hbm, 234, rfl⟩
abbrev main_cst_47 : Ref sig .tc := ⟨.hbm, 235, rfl⟩
abbrev main_v172 : Ref sig .tc := ⟨.hbm, 236, rfl⟩
abbrev main_v173 : Ref sig .tc := ⟨.hbm, 237, rfl⟩

abbrev nD : Nat := 1
abbrev τ : Topo := Topo.v7x

variable {F : FTy → Type} [FloatOps F]

class Facts₀ : Prop where
  transposes_S1x128x64x64_S1x64x64x128_0_2_3_1 : S1x128x64x64.Transposes [0, 2, 3, 1] S1x64x64x128
  shapeCasts_S1x64x64x128_S4096x128 : S1x64x64x128.ShapeCasts S4096x128
  shapeCasts_S1x64x64_S4096 : S1x64x64.ShapeCasts S4096
  slices_S4096_S4095_1 : S4096.Slices ![1] S4095
  slices_S4096_S4095_0 : S4096.Slices ![0] S4095
  natLt_1_32 : 1 < 32
  bcast_S_S1 : S_.BroadcastsInDim S1 (![] : Fin 0 → Fin S1.rank)
  bcast_S_S_ : S_.BroadcastsInDim S_ (![] : Fin 0 → Fin S_.rank)
  reduceWindows_S4095_S4095_w4095s1p4094_0 : S4095.ReduceWindows (![4095] : Fin 1 → Nat) ![1] ![4094] ![0] S4095
  h_S_ : 0 < S_.numel
  concatenates_S1_S4095_S4096_d0 : Shape.Concatenates [S1, S4095] S4096 0
  bcast_S_S4096 : S_.BroadcastsInDim S4096 (![] : Fin 0 → Fin S4096.rank)
  bcast_S_S16 : S_.BroadcastsInDim S16 (![] : Fin 0 → Fin S16.rank)
  bcast_S4096_S4096x1_0 : S4096.BroadcastsInDim S4096x1 (![0] : Fin 1 → Fin S4096x1.rank)
  reducesTo_S4096x128_S4096_d1 : S4096x128.ReducesTo [1] S4096
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x128_S128x4096_1_0 : S4096x128.Transposes [1, 0] S128x4096
  bcast_S_S4096x4096 : S_.BroadcastsInDim S4096x4096 (![] : Fin 0 → Fin S4096x4096.rank)
  reducesTo_S4096x4096_S4096_d1 : S4096x4096.ReducesTo [1] S4096
  reducesTo_S16_S_d0 : S16.ReducesTo [0] S_
  scatter_S16_S4096x1_S4096_n_0_0_1_wf : ScatterDims.WF S16 S4096x1 S4096 [] [0] [0] 1
  dot_S4096x128_S128x4096_S4096x4096_1_0_0_1_n_n_wf : DotDims.WF S4096x128 S128x4096 S4096x4096 [1] [0] [0] [1] [] []

variable [Facts₀]

def scatter_S16_S4096x1_S4096_n_0_0_1 : ScatterDims S16 S4096x1 S4096 where
  updateWindowDims := []
  insertedWindowDims := [0]
  scatterDimsToOperandDims := [0]
  indexVectorDim := 1
  wf := scatter_S16_S4096x1_S4096_n_0_0_1_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.K.Defs.lean ====
/-
  What the pairwise kernel's body computes at a grid point, and what its accumulator and output hold point by point.

  Grid point `t = 8 i + j` reads row tile `i` of both feature matrices (windows 0 and 2), column tile `j` of both
  (windows 1 and 3), the segment ids of the rows as a column (window 4) and of the columns as a row (window 5).
  `tile` is the body's arithmetic as one pure term: the masked `[512, 512]` block of the kernel matrix summed along
  its lanes and added to the accumulator it is handed. The accumulator is zero before `j = 0` and carried through
  `j = 1 … 7` (`accAt`); the output block is the accumulator after `j = 7`.
-/
import proofs.«178334_j34394098106946_1_alg».proof.Proof.Gen.Kernel.Skeleton
import proofs.«178334_j34394098106946_1_alg».proof.Proof.Gen.Kernel.Launch
import proofs.«178334_j34394098106946_1_alg».proof.Proof.Gen.Kernel.Points
import Idealize.ShloMosaic.Lib.Pipeline.Frame

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

/-- The TensorCore buffers' contents when the region is entered, per core. -/
abbrev EntryV : Type := (c : Dev nD) → (b : Ref sig .tc) → Buf (Elt F) ((c : Thread nD τ).loc b)

variable (V : EntryV (F := F))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## One point's arithmetic -/

/-- The accumulator after a point: from the row tiles `x0` (first matrix) and `x2` (second), the column tiles `x1`
    and `x3`, the rows' ids `si`, the columns' ids `sj` and the accumulator `acc` handed in — the three distance
    blocks, the six-bandwidth sum, the mask, the lane sum, added to `acc`. -/
def tile (x0 x1 x2 x3 : Vec F S512x128 .f32) (si : Vec F S512x1 .i32) (sj : Vec F S1x512 .i32) (acc : Vec F S512x1 .f32) :
    FVec F S512x1 .f32 :=
  k0_pay1 (k0_pay19 (k0_pay7 x0) (k0_pay9 x3) (k0_pay14 x0 x3))
    (k0_pay21 (k0_pay17 (k0_pay12 x0 x1) (k0_pay15 x0 x1) k0_pay16) (k0_pay18 (k0_pay8 x2) (k0_pay9 x3) (k0_pay13 x2 x3))
      (k0_pay19 (k0_pay7 x0) (k0_pay9 x3) (k0_pay14 x0 x3))
      (k0_pay20 (k0_pay7 x0) (k0_pay8 x2) (k0_pay9 x3) (k0_pay12 x0 x1) (k0_pay13 x2 x3) (k0_pay14 x0 x3) (k0_pay15 x0 x1) k0_pay16)
      (Scalar.ofBits .f32 0xBD4CCCCD#32))
    k0_pay22 si sj acc

/-- The accumulator as the body resets it at the first column tile. -/
def acc0 : FVec F S512x1 .f32 := k0_pay2

/-- `tile` at point `t`'s blocks. -/
def tileAt (c : Dev nD) (t : Fin cfg0.N) (acc : Vec F S512x1 .f32) : FVec F S512x1 .f32 :=
  tile (iblk V c 0 t) (iblk V c 1 t) (iblk V c 2 t) (iblk V c 3 t) (iblk V c 4 t) (iblk V c 5 t) acc

/-! ## The accumulator point by point -/

/-- What the scratch accumulator holds after the body at position `n`: at a first column tile (`n ≡ 0 mod 8`) the
    tile's sum over zero, else over what the point before left. -/
def accAt (c : Dev nD) : (n : ℕ) → n < cfg0.N → FVec F S512x1 .f32
  | 0, hn => tileAt V c ⟨0, hn⟩ acc0
  | n + 1, hn =>
    if (n + 1) % 8 = 0 then tileAt V c ⟨n + 1, hn⟩ acc0
    else tileAt V c ⟨n + 1, hn⟩ (accAt c n (Nat.lt_of_succ_lt hn))

theorem accAt_first (c : Dev nD) (t : Fin cfg0.N) (h : t.val % 8 = 0) : accAt V c t.val t.isLt = tileAt V c t acc0 := by
  obtain ⟨n, hn⟩ := t
  cases n with
  | zero => rfl
  | succ n => exact if_pos h

theorem accAt_next (c : Dev nD) (t : Fin cfg0.N) (h : ¬ t.val % 8 = 0) :
    accAt V c t.val t.isLt = tileAt V c t (accAt V c (t.val - 1) (Nat.lt_of_le_of_lt (Nat.sub_le _ _) t.isLt)) := by
  obtain ⟨n, hn⟩ := t
  cases n with
  | zero => exact absurd (Nat.zero_mod _) h
  | succ n => exact if_neg h

/-! ## The region invariant and the proof data -/

/-- The scratch operand: a whole scoped buffer of the kernel's own. -/
abbrev scM : Memref sig .tc .vmem S512x1 .f32 := Memref.whole cc0_scratch0

/-- The invariant before position `n`: before the first point the scoped rest at anything and the generator register;
    afterwards the scratch at what the point before left. -/
def PhiS (c : Dev nD) : (n : ℕ) → n ≤ cfg0.N → sProp 𝕄
  | 0, _ => Pipeline.ΦA spec0 c
  | n + 1, hn => iprop(iprop(owns (c : Thread nD τ) scM fullShare (accAt V c n hn)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn)) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega))) ∗ (∃ r, prngReg c r)) := by
  cases n with
  | zero => exact absurd rfl hz
  | succ n => rfl

/-- The proof data of the pipeline on core `c`: the arrays as the region finds them; after the body each input's buffer
    at its block and the output's at the accumulator; the invariant `PhiS`; the two matrices' arrays, each read by two
    windows, held half and half; nothing owed. -/
def dats (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => accAt V c t.val t.isLt
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats V c).A w = V c (Pipeline.arrRef spec0 w) := by
  dsimp only [dats]

theorem after6 (c : Dev nD) (t : Fin cfg0.N) : (dats V c).after 6 t = accAt V c t.val t.isLt := by dsimp only [dats]

theorem owed_eq (c : Dev nD) (t : Fin (cfg0.N + 1)) : (dats V c).owed t = 0 := rfl

theorem PhiS_castSucc (c : Dev nD) (t : Fin cfg0.N) :
    (dats V c).Φ t.castSucc = PhiS V c t.val (Nat.le_of_lt t.isLt) := by
  dsimp only [dats]; simp only [Fin.coe_castSucc]

end Cert.Kernel.Hand

end
-- ==== Proof.K.Body.lean ====
/-
  The body obligation of the pairwise kernel's pipeline.

  At grid point `t = 8 i + j` the body resets the scratch accumulator when `j = 0`, adds the point's masked lane
  sums to it, and copies it to the output's staging buffer when `j = 7`. Three triples say what one call of the
  body does to its eight buffers in the three cases of those two conditions; the conditions are decided over the
  grid in closed form (`t % 8 = 0`, `t % 8 = 7`); the obligation at a point follows from the triple of the point's
  case, each input's staging buffer holding its block there, and the accumulator's recursion `accAt`.
-/
import proofs.«178334_j34394098106946_1_alg».proof.Proof.K.Defs
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, in closed form -/

/-- The condition of the body's first `scf.if` (the accumulator's reset), from the grid coordinates. -/
abbrev condF (i : grid0.Coords) : Prop :=
  (Scalar.cmpi .ne (Scalar.extui (Scalar.cmpi .eq (BitVec.ofNat 32 (i 1).val) 0#32)) 0#32) = 1#1

/-- It holds at the points with `j = 0`. -/
theorem hcondF : ∀ t : Fin cfg0.N, condF (grid0.coords t) ↔ t.val % 8 = 0 :=
  (by decide +kernel : ∀ t : Fin grid0.N, condF (grid0.coords t) ↔ t.val % 8 = 0)

/-- The condition of the body's second `scf.if` (the copy to the output). -/
abbrev condL (i : grid0.Coords) : Prop := k0_cond2 i = 1#1

/-- It holds at the points with `j = 7`. -/
theorem hcondL : ∀ t : Fin cfg0.N, condL (grid0.coords t) ↔ t.val % 8 = 7 :=
  (by decide +kernel : ∀ t : Fin grid0.N, condL (grid0.coords t) ↔ t.val % 8 = 7)

/-! ## Where the windows are idle -/

theorem liveAt_0 : ∀ i : grid0.Coords, cfg0.idle 0 i = false := fun _ => rfl
theorem liveAt_1 : ∀ i : grid0.Coords, cfg0.idle 1 i = false := fun _ => rfl
theorem liveAt_2 : ∀ i : grid0.Coords, cfg0.idle 2 i = false := fun _ => rfl
theorem liveAt_3 : ∀ i : grid0.Coords, cfg0.idle 3 i = false := fun _ => rfl
theorem liveAt_4 : ∀ i : grid0.Coords, cfg0.idle 4 i = false := fun _ => rfl
theorem liveAt_5 : ∀ i : grid0.Coords, cfg0.idle 5 i = false := fun _ => rfl

/-- Away from `j = 7` the output window is idle, -/
theorem idleAt_6 : ∀ t : Fin cfg0.N, ¬condL (grid0.coords t) → cfg0.idle 6 (grid0.coords t) = true := by decide +kernel
/-- and not written back; -/
theorem noFlush_6 : ∀ t : Fin cfg0.N, ¬condL (grid0.coords t) → (cfg0.win 6).flush t = false := by decide +kernel
/-- at `j = 7` it is live. -/
theorem liveAt_6 : ∀ t : Fin cfg0.N, condL (grid0.coords t) → cfg0.idle 6 (grid0.coords t) = false := by decide +kernel

/-! ## The staging memrefs at a point -/

abbrev ms_0 (t : Fin cfg0.N) : Memref sig .tc .vmem S512x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S512x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S512x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S512x1 .i32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x512 .i32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S512x1 .f32 := win0_6.stage (cfg0.slots t 6)
abbrev hs_6 (t : Fin cfg0.N) : (ms_6 t).IsWhole := hstage0_6 ((cfg0.slots t 6).cast nbuf0_6)

/-- The invariant before the first point with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## Whole-buffer stores and loads -/

/-- The zero offsets of a rank-2 access, as the body spells them. -/
theorem hz2 : (![0, 0] : Fin 2 → ℕ) = fun _ => 0 := by funext a; fin_cases a <;> rfl

/-- A buffer after a store of the whole of it (the unit rectangle at zero offsets of the buffer's own sizes), whatever
    was stored before, reads what was stored. -/
theorem read_store_unit_zero {S : Shape} {e : EltTy} {κ : Kind} {sp : Space} (v : View sig κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero h inb y⟩)).trans
    (View.canon_cons_unit_zero h inb w L)

/-- A load of the whole of a whole memref reads its contents. -/
theorem readAt_unit_zero {S : Shape} {e : EltTy} {M : Memref sig .tc .vmem S e} (hM : M.IsWhole)
    {off : Fin S.rank → Nat} (h : off = fun _ => 0) (inb : ∀ a, off a + S.size a ≤ S.size a) (X : S.Idx → Elt F e) :
    View.readAt (Elt F) M.view (Rect.unit off S.size inb).toLoadRect (hM.unread X) = X := by
  rw [View.readAt_eq_ld, hM.read_unread, View.ld_unit_zero h]

/-! ## The body on any whole staging memrefs, case by case -/

set_option maxHeartbeats 1000000 in
/-- At a point with `j = 0` (and `j ≠ 7`): the accumulator, whatever it held, ends at the point's sum over zero; the
    output's buffer is not touched. -/
theorem run_first (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S512x1 .f32) (harg8 : arg8.IsWhole) (arg9 : Memref sig .tc .vmem S512x1 .f32) (harg9 : arg9.IsWhole)
    (hF : condF i) (hL : ¬condL i)
    (x0 x1 x2 x3 : Vec F S512x128 .f32) (x4 : Vec F S512x1 .i32) (x5 : Vec F S1x512 .i32) (xo : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xo ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xo ∗ owns (c : Thread nD τ) arg9 fullShare (tile x0 x1 x2 x3 x4 x5 acc0)) -∗ K ⟨⟩))
      ⊢ wp frame (wpE (defs₀ (F := F)) Variants.none c none) E (cc0__pairwise_kernel i arg2 harg2 arg3 harg3 arg4 harg4 arg5 harg5 arg6 harg6 arg7 harg7 arg8 harg8 arg9 harg9) K := by
  simp only [cc0__pairwise_kernel_eq_skeleton]; unfold cc0__pairwise_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, Ho⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfo
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [Ho]
  · iexists _; isplitr; · ipureintro; exact harg8.read_unread _
    iexact Ho
  iexists _; isplitr
  swap; · iexact HS
  ipureintro
  refine (read_store_unit_zero (S := S512x1) _ _ hz2 _ _ _).trans ?_
  sl_unfold_words
  simp only [readAt_unit_zero (S := S512x128) _ hz2, readAt_unit_zero (S := S512x1) _ hz2, readAt_unit_zero (S := S1x512) _ hz2, View.readCov_unit_zero (S := S512x1) _ hz2]
  rfl

set_option maxHeartbeats 1000000 in
/-- At a point with `0 < j < 7`: the accumulator ends at the point's sum over what it held; the output's buffer is
    not touched. -/
theorem run_middle (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S512x1 .f32) (harg8 : arg8.IsWhole) (arg9 : Memref sig .tc .vmem S512x1 .f32) (harg9 : arg9.IsWhole)
    (hF : ¬condF i) (hL : ¬condL i)
    (x0 x1 x2 x3 : Vec F S512x128 .f32) (x4 : Vec F S512x1 .i32) (x5 : Vec F S1x512 .i32) (s xo : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xo ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xo ∗ owns (c : Thread nD τ) arg9 fullShare (tile x0 x1 x2 x3 x4 x5 s)) -∗ K ⟨⟩))
      ⊢ wp frame (wpE (defs₀ (F := F)) Variants.none c none) E (cc0__pairwise_kernel i arg2 harg2 arg3 harg3 arg4 harg4 arg5 harg5 arg6 harg6 arg7 harg7 arg8 harg8 arg9 harg9) K := by
  simp only [cc0__pairwise_kernel_eq_skeleton]; unfold cc0__pairwise_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, Ho⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfo; obtain rfl := harg9.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [Ho]
  · iexists _; isplitr; · ipureintro; exact harg8.read_unread _
    iexact Ho
  iexists _; isplitr
  swap; · iexact HS
  ipureintro
  refine (read_store_unit_zero (S := S512x1) _ _ hz2 _ _ _).trans ?_
  sl_unfold_words
  simp only [readAt_unit_zero (S := S512x128) _ hz2, readAt_unit_zero (S := S512x1) _ hz2, readAt_unit_zero (S := S1x512) _ hz2]
  rfl

set_option maxHeartbeats 1000000 in
/-- At a point with `j = 7`: the accumulator ends at the point's sum over what it held, and the output's buffer,
    whatever it held, at the same value. -/
theorem run_last (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S512x1 .f32) (harg8 : arg8.IsWhole) (arg9 : Memref sig .tc .vmem S512x1 .f32) (harg9 : arg9.IsWhole)
    (hF : ¬condF i) (hL : condL i)
    (x0 x1 x2 x3 : Vec F S512x128 .f32) (x4 : Vec F S512x1 .i32) (x5 : Vec F S1x512 .i32) (s : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (tile x0 x1 x2 x3 x4 x5 s) ∗ owns (c : Thread nD τ) arg9 fullShare (tile x0 x1 x2 x3 x4 x5 s)) -∗ K ⟨⟩))
      ⊢ wp frame (wpE (defs₀ (F := F)) Variants.none c none) E (cc0__pairwise_kernel i arg2 harg2 arg3 harg3 arg4 harg4 arg5 harg5 arg6 harg6 arg7 harg7 arg8 harg8 arg9 harg9) K := by
  simp only [cc0__pairwise_kernel_eq_skeleton]; unfold cc0__pairwise_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dout, %fo, -, Ho⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [Ho]
  · iexists _; isplitr
    swap; · iexact Ho
    ipureintro
    refine (read_store_unit_zero (S := S512x1) _ _ hz2 _ _ _).trans ?_
    sl_unfold_words
    simp only [readAt_unit_zero (S := S512x128) _ hz2, readAt_unit_zero (S := S512x1) _ hz2, readAt_unit_zero (S := S1x512) _ hz2, View.readCov_unit_zero (S := S512x1) _ hz2]
    rfl
  iexists _; isplitr
  swap; · iexact HS
  ipureintro
  refine (read_store_unit_zero (S := S512x1) _ _ hz2 _ _ _).trans ?_
  sl_unfold_words
  simp only [readAt_unit_zero (S := S512x128) _ hz2, readAt_unit_zero (S := S512x1) _ hz2, readAt_unit_zero (S := S1x512) _ hz2, View.readCov_unit_zero (S := S512x1) _ hz2]
  rfl

/-! ## The inputs' staging buffers hold their blocks -/

theorem after_0 (V : EntryV (F := F)) (c : Dev nD) (t : Fin cfg0.N) : (dats V c).after 0 t = iblk V c 0 t := by dsimp only [dats]
theorem after_1 (V : EntryV (F := F)) (c : Dev nD) (t : Fin cfg0.N) : (dats V c).after 1 t = iblk V c 1 t := by dsimp only [dats]
theorem after_2 (V : EntryV (F := F)) (c : Dev nD) (t : Fin cfg0.N) : (dats V c).after 2 t = iblk V c 2 t := by dsimp only [dats]
theorem after_3 (V : EntryV (F := F)) (c : Dev nD) (t : Fin cfg0.N) : (dats V c).after 3 t = iblk V c 3 t := by dsimp only [dats]
theorem after_4 (V : EntryV (F := F)) (c : Dev nD) (t : Fin cfg0.N) : (dats V c).after 4 t = iblk V c 4 t := by dsimp only [dats]
theorem after_5 (V : EntryV (F := F)) (c : Dev nD) (t : Fin cfg0.N) : (dats V c).after 5 t = iblk V c 5 t := by dsimp only [dats]

/-- Each input's current staging buffer holds its block at every point, fetched there or not: unfetched, the block
    index has not moved, and the body leaves the block in place. -/
theorem before_0 (V : EntryV (F := F)) (c : Dev nD) (t : Fin cfg0.N) (d) : (dats V c).before 0 t d = iblk V c 0 t :=
  ((dats V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (V : EntryV (F := F)) (c : Dev nD) (t : Fin cfg0.N) (d) : (dats V c).before 1 t d = iblk V c 1 t :=
  ((dats V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (V : EntryV (F := F)) (c : Dev nD) (t : Fin cfg0.N) (d) : (dats V c).before 2 t d = iblk V c 2 t :=
  ((dats V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (V : EntryV (F := F)) (c : Dev nD) (t : Fin cfg0.N) (d) : (dats V c).before 3 t d = iblk V c 3 t :=
  ((dats V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (V : EntryV (F := F)) (c : Dev nD) (t : Fin cfg0.N) (d) : (dats V c).before 4 t d = iblk V c 4 t :=
  ((dats V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (V : EntryV (F := F)) (c : Dev nD) (t : Fin cfg0.N) (d) : (dats V c).before 5 t d = iblk V c 5 t :=
  ((dats V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body obligation at a point -/

/-- What the body is called with at point `t`, the windows one by one, -/
def bodyPre (V : EntryV (F := F)) (c : Dev nD) (t : Fin cfg0.N) : sProp 𝕄 :=
  iprop((dats V c).Φ t.castSucc ∗ (dats V c).owesAt () t.castSucc
    ∗ (∃ d, owns (c : Thread nD τ) (ms_0 t) fullShare ((dats V c).before 0 t d))
    ∗ (∃ d, owns (c : Thread nD τ) (ms_1 t) fullShare ((dats V c).before 1 t d))
    ∗ (∃ d, owns (c : Thread nD τ) (ms_2 t) fullShare ((dats V c).before 2 t d))
    ∗ (∃ d, owns (c : Thread nD τ) (ms_3 t) fullShare ((dats V c).before 3 t d))
    ∗ (∃ d, owns (c : Thread nD τ) (ms_4 t) fullShare ((dats V c).before 4 t d))
    ∗ (∃ d, owns (c : Thread nD τ) (ms_5 t) fullShare ((dats V c).before 5 t d))
    ∗ (∃ d, owns (c : Thread nD τ) (ms_6 t) fullShare ((dats V c).before 6 t d)))

/-- and what it returns. -/
def bodyPost (V : EntryV (F := F)) (c : Dev nD) (t : Fin cfg0.N) : sProp 𝕄 :=
  iprop((dats V c).Φ t.succ ∗ (dats V c).owesAt () t.succ
    ∗ (dats V c).leavesExact 0 t
    ∗ (dats V c).leavesExact 1 t
    ∗ (dats V c).leavesExact 2 t
    ∗ (dats V c).leavesExact 3 t
    ∗ (dats V c).leavesExact 4 t
    ∗ (dats V c).leavesExact 5 t
    ∗ (dats V c).leavesExact 6 t)

set_option maxHeartbeats 4000000 in
/-- The body at any point: each input's buffer holds its block; the closed forms select the point's case; the
    invariant hands the scratch at what the point before left (at anything before the first point) and takes it back
    at this point's sum; away from `j = 7` the output's buffer is handed back as found, at `j = 7` it holds the sum. -/
theorem sound_body (V : EntryV (F := F)) (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dats V c).owesAt () t.succ = (dats V c).owesAt () t.castSucc from rfl]
  rw [show (dats V c).Φ t.succ = PhiS V c (t.val + 1) t.isLt from rfl, PhiS_succ]
  have hN : t.val < 64 := lt_of_lt_of_eq t.isLt (show cfg0.N = 64 from N_0)
  rw [show (dats V c).leavesExact 0 t = owns (c : Thread nD τ) (ms_0 t) fullShare ((dats V c).after 0 t) from by
    unfold Dat.leavesExact; rw [liveAt_0], after_0]
  rw [show (dats V c).leavesExact 1 t = owns (c : Thread nD τ) (ms_1 t) fullShare ((dats V c).after 1 t) from by
    unfold Dat.leavesExact; rw [liveAt_1], after_1]
  rw [show (dats V c).leavesExact 2 t = owns (c : Thread nD τ) (ms_2 t) fullShare ((dats V c).after 2 t) from by
    unfold Dat.leavesExact; rw [liveAt_2], after_2]
  rw [show (dats V c).leavesExact 3 t = owns (c : Thread nD τ) (ms_3 t) fullShare ((dats V c).after 3 t) from by
    unfold Dat.leavesExact; rw [liveAt_3], after_3]
  rw [show (dats V c).leavesExact 4 t = owns (c : Thread nD τ) (ms_4 t) fullShare ((dats V c).after 4 t) from by
    unfold Dat.leavesExact; rw [liveAt_4], after_4]
  rw [show (dats V c).leavesExact 5 t = owns (c : Thread nD τ) (ms_5 t) fullShare ((dats V c).after 5 t) from by
    unfold Dat.leavesExact; rw [liveAt_5], after_5]
  by_cases h0 : t.val % 8 = 0
  · by_cases h7 : t.val % 8 = 7
    · exfalso; omega
    · rw [Dat.leavesExact_idle (dats V c) 6 t (idleAt_6 t (fun h => h7 ((hcondL t).mp h))) (noFlush_6 t (fun h => h7 ((hcondL t).mp h)))]
      rw [accAt_first V c t h0]
      unfold tileAt
      by_cases hz : t.val = 0
      · rw [PhiS_castSucc V c t, PhiS_zero V c _ _ hz, PhiA_eq]
        iintro ⟨⟨HS, Hg⟩, Hw, ⟨%d0, H0⟩, ⟨%d1, H1⟩, ⟨%d2, H2⟩, ⟨%d3, H3⟩, ⟨%d4, H4⟩, ⟨%d5, H5⟩, ⟨%d6, H6⟩⟩
        iapply (run_first c (grid0.coords t) _ _ _ _ _ _ _ _ _ _ _ _ _ _ _ _ ((hcondF t).mpr h0) (fun h => h7 ((hcondL t).mp h)) (iblk V c 0 t) (iblk V c 1 t) (iblk V c 2 t) (iblk V c 3 t) (iblk V c 4 t) (iblk V c 5 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, HS⟩
        isplitl [HS Hg]
        · isplitl [HS]; · iexact HS
          iexact Hg
        isplitl [Hw]; · iexact Hw
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc V c t, PhiS_pos V c _ _ hz]
        iintro ⟨⟨HS, Hg⟩, Hw, ⟨%d0, H0⟩, ⟨%d1, H1⟩, ⟨%d2, H2⟩, ⟨%d3, H3⟩, ⟨%d4, H4⟩, ⟨%d5, H5⟩, ⟨%d6, H6⟩⟩
        iapply (run_first c (grid0.coords t) _ _ _ _ _ _ _ _ _ _ _ _ _ _ _ _ ((hcondF t).mpr h0) (fun h => h7 ((hcondL t).mp h)) (iblk V c 0 t) (iblk V c 1 t) (iblk V c 2 t) (iblk V c 3 t) (iblk V c 4 t) (iblk V c 5 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, HS⟩
        isplitl [HS Hg]
        · isplitl [HS]; · iexact HS
          iexact Hg
        isplitl [Hw]; · iexact Hw
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun h => h0 (by rw [h])
    rw [accAt_next V c t h0]
    unfold tileAt
    rw [PhiS_castSucc V c t, PhiS_pos V c _ _ hz]
    by_cases h7 : t.val % 8 = 7
    · rw [show (dats V c).leavesExact 6 t = owns (c : Thread nD τ) (ms_6 t) fullShare ((dats V c).after 6 t) from by
        unfold Dat.leavesExact; rw [liveAt_6 t ((hcondL t).mpr h7)], after6, accAt_next V c t h0]
      unfold tileAt
      iintro ⟨⟨HS, Hg⟩, Hw, ⟨%d0, H0⟩, ⟨%d1, H1⟩, ⟨%d2, H2⟩, ⟨%d3, H3⟩, ⟨%d4, H4⟩, ⟨%d5, H5⟩, ⟨%d6, H6⟩⟩
      iapply (run_last c (grid0.coords t) _ _ _ _ _ _ _ _ _ _ _ _ _ _ _ _ (fun h => h0 ((hcondF t).mp h)) ((hcondL t).mpr h7) (iblk V c 0 t) (iblk V c 1 t) (iblk V c 2 t) (iblk V c 3 t) (iblk V c 4 t) (iblk V c 5 t) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hg]
      · isplitl [HS]; · iexact HS
        iexact Hg
      isplitl [Hw]; · iexact Hw
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats V c) 6 t (idleAt_6 t (fun h => h7 ((hcondL t).mp h))) (noFlush_6 t (fun h => h7 ((hcondL t).mp h)))]
      iintro ⟨⟨HS, Hg⟩, Hw, ⟨%d0, H0⟩, ⟨%d1, H1⟩, ⟨%d2, H2⟩, ⟨%d3, H3⟩, ⟨%d4, H4⟩, ⟨%d5, H5⟩, ⟨%d6, H6⟩⟩
      iapply (run_middle c (grid0.coords t) _ _ _ _ _ _ _ _ _ _ _ _ _ _ _ _ (fun h => h0 ((hcondF t).mp h)) (fun h => h7 ((hcondL t).mp h)) (iblk V c 0 t) (iblk V c 1 t) (iblk V c 2 t) (iblk V c 3 t) (iblk V c 4 t) (iblk V c 5 t) (accAt V c (t.val - 1) (Nat.lt_of_le_of_lt (Nat.sub_le _ _) t.isLt)) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg]
      · isplitl [HS]; · iexact HS
        iexact Hg
      isplitl [Hw]; · iexact Hw
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (V : EntryV (F := F)) (c : Dev nD) :
    Pipeline.BodyObligation (dats (F := F) V c) (defs₀ (F := F)) Variants.none () Set.univ := fun t => by
  rw [bigSep_W0, bigSep_W0]
  exact sound_body V c t

/-! ## The invariant at the two ends -/

/-- What the launch hands the region is the invariant before the first point. -/
theorem hin (V : EntryV (F := F)) (c : Dev nD) : (Pipeline.ΦA spec0 c : sProp 𝕄) ⊢ (dats V c).Φ 0 := by
  rw [show (dats V c).Φ 0 = PhiS V c 0 (Nat.zero_le _) from rfl, PhiS_zero V c 0 _ rfl]
  try exact Idealize.SL.BI.Entails.refl _

/-- After any point the invariant gives it back: the scratch's named contents are forgotten. -/
theorem Phi_out (V : EntryV (F := F)) (c : Dev nD) (t : Fin (cfg0.N + 1)) (ht : t.val ≠ 0) :
    (dats V c).Φ t ⊢ (Pipeline.ΦA spec0 c : sProp 𝕄) := by
  rw [show (dats V c).Φ t = PhiS V c t.val (Nat.le_of_lt_succ t.isLt) from rfl, PhiS_pos V c _ _ ht, PhiA_eq]
  iintro ⟨HS, Hg⟩
  isplitl [HS]
  · iexists _; iexact HS
  iexact Hg

/-- The same after the last point. -/
theorem hout (V : EntryV (F := F)) (c : Dev nD) : (dats V c).Φ (Fin.last cfg0.N) ⊢ (Pipeline.ΦA spec0 c : sProp 𝕄) :=
  Phi_out V c _ (by rw [Fin.val_last]; have : cfg0.N = 64 := N_0; omega)

end Cert.Kernel.Hand

end
-- ==== Proof.K.Launch.lean ====
import proofs.«178334_j34394098106946_1_alg».proof.Proof.Gen.Kernel.Launch
import proofs.«178334_j34394098106946_1_alg».proof.Proof.Gen.Kernel.Points
import Idealize.ShloMosaic.Lib.Pipeline.Frame
import Idealize.ShloMosaic.Lib.Pipeline.Regions

/-! # The launch of @main

@main is three stretches of host operations, one kernel region, and seven more stretches of host operations.
The buffer contents at each boundary are a fold from the launch memory; the region changes only the output
window's array. Two pairs of input windows read one array each, so at the region's entry each such array's full
share is split in two halves, one per window, and joined back at the exit. -/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents, per core and reference. -/
abbrev EntryVal : Type := (c : Dev nD) → (b : Ref sig .tc) → Buf (Elt F) ((c : Thread nD τ).loc b)

/-- The share each window holds of its array: the two windows on one array take its two halves. -/
def shares : Fin 7 → PosShare TreeShare
  | 0 => fullShare.left
  | 1 => fullShare.right
  | 2 => fullShare.left
  | 3 => fullShare.right
  | _ => fullShare

variable (m : (ℓ : Loc nD τ sig) → Buf (Elt F) ℓ) (ρ : Dev nD → PrngReg)
variable (dat : EntryVal (F := F) → (c : Dev nD) → Dat τ (Elt F) Unit ℕ (UR sig nD τ) ℕ cfg0 c)

/-! ## The buffer contents at each boundary -/

/-- Core c's buffers at launch. -/
abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
/-- The region's entry contents. -/
abbrev W3 : Dev nD → Valuation τ sig (Elt F) := fun c => StableHlo.after hostOps0_2 (W2 m c)
/-- The same read at the TensorCore's references. -/
abbrev V3 : EntryVal (F := F) := fun c b => W3 m c b
/-- At the region's exit: the output window's array at what the write-backs leave, every other buffer as entered. -/
def W4 (c : Dev nD) : Valuation τ sig (Elt F) :=
  Function.update (W3 m c) (Proc.devRef .tc main_v18) ((dat (V3 m) c).arrAt 6 cfg0.N)
abbrev W5 : Dev nD → Valuation τ sig (Elt F) := fun c => StableHlo.after hostOps1 (W4 m dat c)
abbrev W6 : Dev nD → Valuation τ sig (Elt F) := fun c => StableHlo.after hostOps1_1 (W5 m dat c)
abbrev W7 : Dev nD → Valuation τ sig (Elt F) := fun c => StableHlo.after hostOps1_2 (W6 m dat c)
abbrev W8 : Dev nD → Valuation τ sig (Elt F) := fun c => StableHlo.after hostOps1_3 (W7 m dat c)
abbrev W9 : Dev nD → Valuation τ sig (Elt F) := fun c => StableHlo.after hostOps1_4 (W8 m dat c)
abbrev W10 : Dev nD → Valuation τ sig (Elt F) := fun c => StableHlo.after hostOps1_5 (W9 m dat c)
abbrev W11 : Dev nD → Valuation τ sig (Elt F) := fun c => StableHlo.after hostOps1_6 (W10 m dat c)

theorem W4_main_v18 (c : Dev nD) :
    W4 m dat c (Proc.devRef .tc main_v18) = (dat (V3 m) c).arrAt 6 cfg0.N := by
  unfold W4; exact Function.update_self ..

theorem W4_of_ne (c : Dev nD) (b : Ref sig .tc) (hb : b ≠ main_v18) :
    W4 m dat c (Proc.devRef .tc b) = W3 m c (Proc.devRef .tc b) := by
  unfold W4; exact Function.update_of_ne (StableHlo.devRef_ne_of_ne hb) ..

/-- An unscoped TensorCore reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩
/-! ## What the host stretches write, and that none allocates -/

/-- No operation of the stretch allocates a buffer. -/
theorem hostOps0_fresh : (hostOps0 : List (HloOp τ sig (Elt F))).Forall fun op => op.fresh = ∅ := by
  simp only [List.Forall]; repeat' constructor
/-- The references the stretch's operations write. -/
abbrev hostOps0_W : List (Ref sig .tc) := [main_v0, main_v1, main_v2, main_v3, main_v4, main_v5, main_v6, main_v7, main_v8, main_c, main_v9]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of the stretch allocates a buffer. -/
theorem hostOps0_1_fresh : (hostOps0_1 : List (HloOp τ sig (Elt F))).Forall fun op => op.fresh = ∅ := by
  simp only [List.Forall]; repeat' constructor
/-- The references the stretch's operations write. -/
abbrev hostOps0_1_W : List (Ref sig .tc) := [main_call0_call0_c, main_call0_call0_v0, main_v10]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of the stretch allocates a buffer. -/
theorem hostOps0_2_fresh : (hostOps0_2 : List (HloOp τ sig (Elt F))).Forall fun op => op.fresh = ∅ := by
  simp only [List.Forall]; repeat' constructor
/-- The references the stretch's operations write. -/
abbrev hostOps0_2_W : List (Ref sig .tc) := [main_v11, main_cst, main_v12, main_cst_0, main_v13, main_v14, main_v15, main_v16, main_v17]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of the stretch allocates a buffer. -/
theorem hostOps1_fresh : (hostOps1 : List (HloOp τ sig (Elt F))).Forall fun op => op.fresh = ∅ := by
  simp only [List.Forall]; repeat' constructor
/-- The references the stretch's operations write. -/
abbrev hostOps1_W : List (Ref sig .tc) := [main_v19, main_cst_1, main_v20, main_v21, main_v22, main_cst_2, main_v23, main_v24, main_v25, main_cst_3, main_v26, main_v27, main_cst_4, main_v28, main_v29, main_v30, main_cst_5]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of the stretch allocates a buffer. -/
theorem hostOps1_1_fresh : (hostOps1_1 : List (HloOp τ sig (Elt F))).Forall fun op => op.fresh = ∅ := by
  simp only [List.Forall]; repeat' constructor
/-- The references the stretch's operations write. -/
abbrev hostOps1_1_W : List (Ref sig .tc) := [main_call1_v0, main_call1_v1, main_v31]
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of the stretch allocates a buffer. -/
theorem hostOps1_2_fresh : (hostOps1_2 : List (HloOp τ sig (Elt F))).Forall fun op => op.fresh = ∅ := by
  simp only [List.Forall]; repeat' constructor
/-- The references the stretch's operations write. -/
abbrev hostOps1_2_W : List (Ref sig .tc) := [main_cst_6, main_v32, main_v33, main_cst_7]
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of the stretch allocates a buffer. -/
theorem hostOps1_3_fresh : (hostOps1_3 : List (HloOp τ sig (Elt F))).Forall fun op => op.fresh = ∅ := by
  simp only [List.Forall]; repeat' constructor
/-- The references the stretch's operations write. -/
abbrev hostOps1_3_W : List (Ref sig .tc) := [main_call2_v0, main_call2_v1, main_v34]
theorem hostOps1_3_writes : (hostOps1_3 : List (HloOp τ sig (Elt F))).Forall fun op => op.writes ⊆ (hostOps1_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of the stretch allocates a buffer. -/
theorem hostOps1_4_fresh : (hostOps1_4 : List (HloOp τ sig (Elt F))).Forall fun op => op.fresh = ∅ := by
  simp only [List.Forall]; repeat' constructor
/-- The references the stretch's operations write. -/
abbrev hostOps1_4_W : List (Ref sig .tc) := [main_v35, main_cst_8]
theorem hostOps1_4_writes : (hostOps1_4 : List (HloOp τ sig (Elt F))).Forall fun op => op.writes ⊆ (hostOps1_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of the stretch allocates a buffer. -/
theorem hostOps1_5_fresh : (hostOps1_5 : List (HloOp τ sig (Elt F))).Forall fun op => op.fresh = ∅ := by
  simp only [List.Forall]; repeat' constructor
/-- The references the stretch's operations write. -/
abbrev hostOps1_5_W : List (Ref sig .tc) := [main_call3_v0, main_call3_v1, main_v36]
theorem hostOps1_5_writes : (hostOps1_5 : List (HloOp τ sig (Elt F))).Forall fun op => op.writes ⊆ (hostOps1_5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of the stretch allocates a buffer. -/
theorem hostOps1_6_fresh : (hostOps1_6 : List (HloOp τ sig (Elt F))).Forall fun op => op.fresh = ∅ := by
  simp only [List.Forall]; repeat' constructor
/-- The references the stretch's operations write. -/
abbrev hostOps1_6_W : List (Ref sig .tc) := [main_cst_9, main_v37, main_v38, main_v39, main_c_10, main_v40, main_v41, main_cst_11, main_v42, main_v43]
theorem hostOps1_6_writes : (hostOps1_6 : List (HloOp τ sig (Elt F))).Forall fun op => op.writes ⊆ (hostOps1_6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## What each item leaves unchanged -/

theorem W1_of (c : Dev nD) (r : Ref sig .tc) (h : r ∉ hostOps0_W) :
    W1 m c (Proc.devRef .tc r) = W0 m c (Proc.devRef .tc r) :=
  StableHlo.after_of_writes_sub hostOps0 _ hostOps0_writes h
theorem W2_of (c : Dev nD) (r : Ref sig .tc) (h : r ∉ hostOps0_1_W) :
    W2 m c (Proc.devRef .tc r) = W1 m c (Proc.devRef .tc r) :=
  StableHlo.after_of_writes_sub hostOps0_1 _ hostOps0_1_writes h
theorem W3_of (c : Dev nD) (r : Ref sig .tc) (h : r ∉ hostOps0_2_W) :
    W3 m c (Proc.devRef .tc r) = W2 m c (Proc.devRef .tc r) :=
  StableHlo.after_of_writes_sub hostOps0_2 _ hostOps0_2_writes h
theorem W5_of (c : Dev nD) (r : Ref sig .tc) (h : r ∉ hostOps1_W) :
    W5 m dat c (Proc.devRef .tc r) = W4 m dat c (Proc.devRef .tc r) :=
  StableHlo.after_of_writes_sub hostOps1 _ hostOps1_writes h
theorem W6_of (c : Dev nD) (r : Ref sig .tc) (h : r ∉ hostOps1_1_W) :
    W6 m dat c (Proc.devRef .tc r) = W5 m dat c (Proc.devRef .tc r) :=
  StableHlo.after_of_writes_sub hostOps1_1 _ hostOps1_1_writes h
theorem W7_of (c : Dev nD) (r : Ref sig .tc) (h : r ∉ hostOps1_2_W) :
    W7 m dat c (Proc.devRef .tc r) = W6 m dat c (Proc.devRef .tc r) :=
  StableHlo.after_of_writes_sub hostOps1_2 _ hostOps1_2_writes h
theorem W8_of (c : Dev nD) (r : Ref sig .tc) (h : r ∉ hostOps1_3_W) :
    W8 m dat c (Proc.devRef .tc r) = W7 m dat c (Proc.devRef .tc r) :=
  StableHlo.after_of_writes_sub hostOps1_3 _ hostOps1_3_writes h
theorem W9_of (c : Dev nD) (r : Ref sig .tc) (h : r ∉ hostOps1_4_W) :
    W9 m dat c (Proc.devRef .tc r) = W8 m dat c (Proc.devRef .tc r) :=
  StableHlo.after_of_writes_sub hostOps1_4 _ hostOps1_4_writes h
theorem W10_of (c : Dev nD) (r : Ref sig .tc) (h : r ∉ hostOps1_5_W) :
    W10 m dat c (Proc.devRef .tc r) = W9 m dat c (Proc.devRef .tc r) :=
  StableHlo.after_of_writes_sub hostOps1_5 _ hostOps1_5_writes h
theorem W11_of (c : Dev nD) (r : Ref sig .tc) (h : r ∉ hostOps1_6_W) :
    W11 m dat c (Proc.devRef .tc r) = W10 m dat c (Proc.devRef .tc r) :=
  StableHlo.after_of_writes_sub hostOps1_6 _ hostOps1_6_writes h

/-! ## No item writes an argument: the fold at an argument's buffer walks back to the launch memory -/

theorem W11_main_arg0 (c : Dev nD) : W11 m dat c (Proc.devRef .tc main_arg0) = m ((c : Thread nD τ).loc main_arg0) :=
  (W11_of m dat c main_arg0 (by decide)).trans <| (W10_of m dat c main_arg0 (by decide)).trans <| (W9_of m dat c main_arg0 (by decide)).trans <|
  (W8_of m dat c main_arg0 (by decide)).trans <| (W7_of m dat c main_arg0 (by decide)).trans <| (W6_of m dat c main_arg0 (by decide)).trans <|
  (W5_of m dat c main_arg0 (by decide)).trans <| (W4_of_ne m dat c main_arg0 (by decide)).trans <| (W3_of m c main_arg0 (by decide)).trans <|
  (W2_of m c main_arg0 (by decide)).trans <| (W1_of m c main_arg0 (by decide)).trans rfl
theorem W11_main_arg1 (c : Dev nD) : W11 m dat c (Proc.devRef .tc main_arg1) = m ((c : Thread nD τ).loc main_arg1) :=
  (W11_of m dat c main_arg1 (by decide)).trans <| (W10_of m dat c main_arg1 (by decide)).trans <| (W9_of m dat c main_arg1 (by decide)).trans <|
  (W8_of m dat c main_arg1 (by decide)).trans <| (W7_of m dat c main_arg1 (by decide)).trans <| (W6_of m dat c main_arg1 (by decide)).trans <|
  (W5_of m dat c main_arg1 (by decide)).trans <| (W4_of_ne m dat c main_arg1 (by decide)).trans <| (W3_of m c main_arg1 (by decide)).trans <|
  (W2_of m c main_arg1 (by decide)).trans <| (W1_of m c main_arg1 (by decide)).trans rfl
theorem W11_main_arg2 (c : Dev nD) : W11 m dat c (Proc.devRef .tc main_arg2) = m ((c : Thread nD τ).loc main_arg2) :=
  (W11_of m dat c main_arg2 (by decide)).trans <| (W10_of m dat c main_arg2 (by decide)).trans <| (W9_of m dat c main_arg2 (by decide)).trans <|
  (W8_of m dat c main_arg2 (by decide)).trans <| (W7_of m dat c main_arg2 (by decide)).trans <| (W6_of m dat c main_arg2 (by decide)).trans <|
  (W5_of m dat c main_arg2 (by decide)).trans <| (W4_of_ne m dat c main_arg2 (by decide)).trans <| (W3_of m c main_arg2 (by decide)).trans <|
  (W2_of m c main_arg2 (by decide)).trans <| (W1_of m c main_arg2 (by decide)).trans rfl
theorem W11_main_arg3 (c : Dev nD) : W11 m dat c (Proc.devRef .tc main_arg3) = m ((c : Thread nD τ).loc main_arg3) :=
  (W11_of m dat c main_arg3 (by decide)).trans <| (W10_of m dat c main_arg3 (by decide)).trans <| (W9_of m dat c main_arg3 (by decide)).trans <|
  (W8_of m dat c main_arg3 (by decide)).trans <| (W7_of m dat c main_arg3 (by decide)).trans <| (W6_of m dat c main_arg3 (by decide)).trans <|
  (W5_of m dat c main_arg3 (by decide)).trans <| (W4_of_ne m dat c main_arg3 (by decide)).trans <| (W3_of m c main_arg3 (by decide)).trans <|
  (W2_of m c main_arg3 (by decide)).trans <| (W1_of m c main_arg3 (by decide)).trans rfl

namespace Launch

/-! ## The region's arrays, two of them read by two windows each -/

/-- The distinct buffers behind the windows' arrays. -/
theorem arrImage : (Finset.univ.image (Pipeline.arrRef spec0) : Finset (Ref sig .tc))
    = ([main_v1, main_v3, main_v16, main_v17, main_v18] : List (Ref sig .tc)).toFinset := by decide

/-- Those buffers, each whole at the full share, one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v1) ↦{fullShare} V main_v1) ∗ (((c : Thread nD τ).loc main_v3) ↦{fullShare} V main_v3)
          ∗ (((c : Thread nD τ).loc main_v16) ↦{fullShare} V main_v16) ∗ (((c : Thread nD τ).loc main_v17) ↦{fullShare} V main_v17)
          ∗ (((c : Thread nD τ).loc main_v18) ↦{fullShare} V main_v18)) := by
  unfold Pipeline.arrBufs
  exact bigSep_eq_bigSepL_of_eq _ arrImage (by decide) _

section Shared

variable (c : Dev nD) (D : Dat τ (Elt F) Unit ℕ (UR sig nD τ) ℕ cfg0 c)

/-- Window 0's array is a whole buffer: its points-to is the buffer's. -/
theorem cell0 (q : PosShare TreeShare) (G : Buf (Elt F) ((cfg0.win 0).arr.view.loc (c : Thread nD τ))) :
    (((cfg0.win 0).arr.view.loc (c : Thread nD τ)) ↦[(cfg0.win 0).arr.view.set]{q} G : sProp 𝕄) = (((c : Thread nD τ).loc main_v1) ↦{q} G) := by
  rw [(arr_whole0 0).set_eq_univ]
theorem share0 (hq : D.q = shares) : D.share 0 = fullShare.left := by unfold Dat.share; rw [hq]; rfl
/-- Window 1's array is a whole buffer: its points-to is the buffer's. -/
theorem cell1 (q : PosShare TreeShare) (G : Buf (Elt F) ((cfg0.win 1).arr.view.loc (c : Thread nD τ))) :
    (((cfg0.win 1).arr.view.loc (c : Thread nD τ)) ↦[(cfg0.win 1).arr.view.set]{q} G : sProp 𝕄) = (((c : Thread nD τ).loc main_v1) ↦{q} G) := by
  rw [(arr_whole0 1).set_eq_univ]
theorem share1 (hq : D.q = shares) : D.share 1 = fullShare.right := by unfold Dat.share; rw [hq]; rfl
/-- Window 2's array is a whole buffer: its points-to is the buffer's. -/
theorem cell2 (q : PosShare TreeShare) (G : Buf (Elt F) ((cfg0.win 2).arr.view.loc (c : Thread nD τ))) :
    (((cfg0.win 2).arr.view.loc (c : Thread nD τ)) ↦[(cfg0.win 2).arr.view.set]{q} G : sProp 𝕄) = (((c : Thread nD τ).loc main_v3) ↦{q} G) := by
  rw [(arr_whole0 2).set_eq_univ]
theorem share2 (hq : D.q = shares) : D.share 2 = fullShare.left := by unfold Dat.share; rw [hq]; rfl
/-- Window 3's array is a whole buffer: its points-to is the buffer's. -/
theorem cell3 (q : PosShare TreeShare) (G : Buf (Elt F) ((cfg0.win 3).arr.view.loc (c : Thread nD τ))) :
    (((cfg0.win 3).arr.view.loc (c : Thread nD τ)) ↦[(cfg0.win 3).arr.view.set]{q} G : sProp 𝕄) = (((c : Thread nD τ).loc main_v3) ↦{q} G) := by
  rw [(arr_whole0 3).set_eq_univ]
theorem share3 (hq : D.q = shares) : D.share 3 = fullShare.right := by unfold Dat.share; rw [hq]; rfl
/-- Window 4's array is a whole buffer: its points-to is the buffer's. -/
theorem cell4 (q : PosShare TreeShare) (G : Buf (Elt F) ((cfg0.win 4).arr.view.loc (c : Thread nD τ))) :
    (((cfg0.win 4).arr.view.loc (c : Thread nD τ)) ↦[(cfg0.win 4).arr.view.set]{q} G : sProp 𝕄) = (((c : Thread nD τ).loc main_v16) ↦{q} G) := by
  rw [(arr_whole0 4).set_eq_univ]
theorem share4 (hq : D.q = shares) : D.share 4 = fullShare := by unfold Dat.share; rw [hq]; rfl
/-- Window 5's array is a whole buffer: its points-to is the buffer's. -/
theorem cell5 (q : PosShare TreeShare) (G : Buf (Elt F) ((cfg0.win 5).arr.view.loc (c : Thread nD τ))) :
    (((cfg0.win 5).arr.view.loc (c : Thread nD τ)) ↦[(cfg0.win 5).arr.view.set]{q} G : sProp 𝕄) = (((c : Thread nD τ).loc main_v17) ↦{q} G) := by
  rw [(arr_whole0 5).set_eq_univ]
theorem share5 (hq : D.q = shares) : D.share 5 = fullShare := by unfold Dat.share; rw [hq]; rfl
/-- Window 6's array is a whole buffer: its points-to is the buffer's. -/
theorem cell6 (q : PosShare TreeShare) (G : Buf (Elt F) ((cfg0.win 6).arr.view.loc (c : Thread nD τ))) :
    (((cfg0.win 6).arr.view.loc (c : Thread nD τ)) ↦[(cfg0.win 6).arr.view.set]{q} G : sProp 𝕄) = (((c : Thread nD τ).loc main_v18) ↦{q} G) := by
  rw [(arr_whole0 6).set_eq_univ]
theorem share6 : D.share 6 = fullShare := by unfold Dat.share; rfl

/-- The pipeline's arrays one by one: each input window at its share of its array, the output whole. -/
theorem arrays_eq' (hq : D.q = shares) (G : (w : Fin cfg0.W) → Buf (Elt F) ((cfg0.win w).arr.view.loc (c : Thread nD τ))) :
    (D.arrays G : sProp 𝕄)
      = iprop((((c : Thread nD τ).loc main_v1) ↦{fullShare.left} G 0) ∗ (((c : Thread nD τ).loc main_v1) ↦{fullShare.right} G 1)
          ∗ (((c : Thread nD τ).loc main_v3) ↦{fullShare.left} G 2) ∗ (((c : Thread nD τ).loc main_v3) ↦{fullShare.right} G 3)
          ∗ (((c : Thread nD τ).loc main_v16) ↦{fullShare} G 4) ∗ (((c : Thread nD τ).loc main_v17) ↦{fullShare} G 5)
          ∗ (((c : Thread nD τ).loc main_v18) ↦{fullShare} G 6)) := by
  unfold Dat.arrays
  rw [bigSep_W0]
  refine congrArg₂ _ ?_ (congrArg₂ _ ?_ (congrArg₂ _ ?_ (congrArg₂ _ ?_ (congrArg₂ _ ?_ (congrArg₂ _ ?_ ?_)))))
  · rw [share0 c D hq]; exact cell0 c _ _
  · rw [share1 c D hq]; exact cell1 c _ _
  · rw [share2 c D hq]; exact cell2 c _ _
  · rw [share3 c D hq]; exact cell3 c _ _
  · rw [share4 c D hq]; exact cell4 c _ _
  · rw [share5 c D hq]; exact cell5 c _ _
  · rw [share6 c D]; exact cell6 c _ _

/-- ENTRY: the buffers behind the arrays, whole, make the pipeline's arrays at the same contents: the two arrays
    two windows read are split along the share into their halves. -/
theorem arrBufs_arrays (hq : D.q = shares) (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (Pipeline.arrBufs (Ix := Unit) (Name := ℕ) (U := UR sig nD τ) (Lvl := ℕ) spec0 c V : sProp 𝕄) ⊢ D.arrays G := by
  have h0 : G 0 = V main_v1 := hG 0
  have h1 : G 1 = V main_v1 := hG 1
  have h2 : G 2 = V main_v3 := hG 2
  have h3 : G 3 = V main_v3 := hG 3
  have h4 : G 4 = V main_v16 := hG 4
  have h5 : G 5 = V main_v17 := hG 5
  have h6 : G 6 = V main_v18 := hG 6
  rw [arrBufs_eq, arrays_eq' c D hq, h0, h1, h2, h3, h4, h5, h6]
  iintro ⟨H1, H3, H16, H17, H18⟩
  ihave H1' := (pointsTo_share (PosShare.mem_left_op_right fullShare)).1 $$ H1
  icases H1' with ⟨H1l, H1r⟩
  ihave H3' := (pointsTo_share (PosShare.mem_left_op_right fullShare)).1 $$ H3
  icases H3' with ⟨H3l, H3r⟩
  isplitl [H1l]; · iexact H1l
  isplitl [H1r]; · iexact H1r
  isplitl [H3l]; · iexact H3l
  isplitl [H3r]; · iexact H3r
  isplitl [H16]; · iexact H16
  isplitl [H17]; · iexact H17
  iexact H18

/-- EXIT: the pipeline's arrays make the buffers behind them whole again: the two halves of an array two windows
    read hold the same contents and join along the share. -/
theorem arrays_arrBufs (hq : D.q = shares) (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    D.arrays G ⊢ (Pipeline.arrBufs (Ix := Unit) (Name := ℕ) (U := UR sig nD τ) (Lvl := ℕ) spec0 c V : sProp 𝕄) := by
  have h0 : G 0 = V main_v1 := hG 0
  have h1 : G 1 = V main_v1 := hG 1
  have h2 : G 2 = V main_v3 := hG 2
  have h3 : G 3 = V main_v3 := hG 3
  have h4 : G 4 = V main_v16 := hG 4
  have h5 : G 5 = V main_v17 := hG 5
  have h6 : G 6 = V main_v18 := hG 6
  rw [arrBufs_eq, arrays_eq' c D hq, h0, h1, h2, h3, h4, h5, h6]
  iintro ⟨H1l, H1r, H3l, H3r, H16, H17, H18⟩
  isplitl [H1l H1r]
  · iapply (pointsTo_share (PosShare.mem_left_op_right fullShare)).2
    isplitl [H1l]; · iexact H1l
    iexact H1r
  isplitl [H3l H3r]
  · iapply (pointsTo_share (PosShare.mem_left_op_right fullShare)).2
    isplitl [H3l]; · iexact H3l
    iexact H3r
  isplitl [H16]; · iexact H16
  isplitl [H17]; · iexact H17
  iexact H18

end Shared

section EntryExit

variable (c : Dev nD) (D : Dat τ (Elt F) Unit ℕ (UR sig nD τ) ℕ cfg0 c)

/-- ENTRY, the arrays' part: the core's unscoped buffers at the contents V are the pipeline's arrays at the proof
    data's entry contents (read off V) and the unscoped rest. -/
theorem entry_arrays (hq : D.q = shares) (V : (b : Ref sig .tc) → Buf (Elt F) ((c : Thread nD τ).loc b))
    (hA : ∀ w, D.A w = V (Pipeline.arrRef spec0 w)) :
    (unscopedBufs (Ix := Unit) (Name := ℕ) (U := UR sig nD τ) (Lvl := ℕ) c V : sProp 𝕄)
      ⊢ iprop(D.arrays (D.arrAt · 0) ∗ Pipeline.unscopedRest (Ix := Unit) (Name := ℕ) (U := UR sig nD τ) (Lvl := ℕ) spec0 c V) := by
  rw [Pipeline.unscopedBufs_split₀ cfgs 0 winFacts₀0.arr_unscoped c V]
  exact sep_mono (arrBufs_arrays c D hq V _ hA) .rfl

/-- EXIT, the arrays' part: the pipeline's arrays at their final contents and the unscoped rest as entered are the
    core's unscoped buffers at the contents V', which is V but at the output window's array. -/
theorem exit_arrays (hq : D.q = shares) (V V' : (b : Ref sig .tc) → Buf (Elt F) ((c : Thread nD τ).loc b))
    (hA : ∀ w, D.A w = V (Pipeline.arrRef spec0 w))
    (hout : V' main_v18 = D.arrAt 6 cfg0.N) (hrest : ∀ b, b ≠ main_v18 → V' b = V b) :
    iprop(D.arrays (D.arrAt · cfg0.N) ∗ Pipeline.unscopedRest (Ix := Unit) (Name := ℕ) (U := UR sig nD τ) (Lvl := ℕ) spec0 c V)
      ⊢ (unscopedBufs (Ix := Unit) (Name := ℕ) (U := UR sig nD τ) (Lvl := ℕ) c V' : sProp 𝕄) := by
  rw [Pipeline.unscopedBufs_split₀ cfgs 0 winFacts₀0.arr_unscoped c V']
  refine sep_mono (arrays_arrBufs c D hq V' _ fun w => ?_) (Entails.of_eq ?_)
  · match w with
    | 0 => exact (D.arrAt_in 0 rfl _).trans ((hA 0).trans (hrest main_v1 (by decide)).symm)
    | 1 => exact (D.arrAt_in 1 rfl _).trans ((hA 1).trans (hrest main_v1 (by decide)).symm)
    | 2 => exact (D.arrAt_in 2 rfl _).trans ((hA 2).trans (hrest main_v3 (by decide)).symm)
    | 3 => exact (D.arrAt_in 3 rfl _).trans ((hA 3).trans (hrest main_v3 (by decide)).symm)
    | 4 => exact (D.arrAt_in 4 rfl _).trans ((hA 4).trans (hrest main_v16 (by decide)).symm)
    | 5 => exact (D.arrAt_in 5 rfl _).trans ((hA 5).trans (hrest main_v17 (by decide)).symm)
    | 6 => exact hout.symm
  · unfold Pipeline.unscopedRest
    refine bigSep_congr fun b hb => ?_
    rw [hrest b fun e => (Finset.mem_sdiff.mp hb).2 (e ▸ Finset.mem_image.mpr ⟨6, Finset.mem_univ _, rfl⟩)]

end EntryExit

/-! ## The proof data family and the thread state -/

/-- The prefetched tables' admissible contents: the pipeline has no table. -/
abbrev adm : (p : Fin 1) → (pcfgs (F := F) p).Adm := fun p => (cfgs p).toPCfg_adm
/-- The pipeline's proof data, at the region's entry contents. -/
abbrev pdats : (p : Fin 1) → (c : Dev nD) → Dat τ (Elt F) Unit ℕ (UR sig nD τ) ℕ (Pipeline.pin (pcfgs (F := F)) adm p) c :=
  fun _ c => dat (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- The same before the region: the core's recorded pairs are still none, as the launch deals them. -/
abbrev R₀ (c : Dev nD) : sProp 𝕄 := iprop((∃ r, prngReg c r) ∗ owes (c : Thread nD τ) (0 : CellTallies nD τ sig Unit) ∅)
/-- A host stretch as a segment over the unscoped references from the contents W, R riding along. -/
abbrev hseg (R : Dev nD → sProp 𝕄) (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the owing part: every unscoped buffer at the last boundary's contents, the
    generator register at some state. -/
abbrev Tₙ (c : Dev nD) : sProp 𝕄 := iprop(StableHlo.held (c : Thread nD τ) (Pipeline.ucRefs τ sig) (W11 m dat c) ∗ ∃ r, prngReg c r)

/-! ## The region as a segment -/

section Region

variable (hA : ∀ V c w, (dat V c).A w = V c (Pipeline.arrRef spec0 w))
  (hq : ∀ V c, (dat V c).q = shares)
  (howed : ∀ V c t, (dat V c).owed t = 0)
  (hbody : ∀ V c, Pipeline.BodyObligation (dat V c) (defs₀ (F := F)) Variants.none () Set.univ)
  (hin : ∀ V c, (Pipeline.ΦA (Val := Elt F) (U := UR sig nD τ) spec0 c : sProp (MT nD τ sig Unit (Elt F) ℕ (UR sig nD τ) ℕ)) ⊢ (dat V c).Φ 0)
  (hout : ∀ V c, (dat V c).Φ (Fin.last cfg0.N) ⊢ (Pipeline.ΦA (Val := Elt F) (U := UR sig nD τ) spec0 c : sProp (MT nD τ sig Unit (Elt F) ℕ (UR sig nD τ) ℕ)))
include hA hq howed hbody hin hout

set_option backward.isDefEq.respectTransparency.types false in
/-- The region over the thread state: entered from every unscoped buffer at W3, left at W4. Its arrays are split out
    of the unscoped buffers, the twice-read ones halved, and put back at the exit contents; the generator register
    goes into the class invariant and comes out; nothing is owed; the kernel has no semaphore of its own. -/
def reg0 : Pipeline.RegionSeg (pcfgs (F := F)) adm (pdats m dat) () defs₀ 𝒱₀ L lv 0 where
  win := winFacts₀0
  block_pos := block_pos0
  stage_whole := stage_whole0
  K := PEmpty
  osem k := k.elim
  ho := Pipeline.OwnSemFacts.none _
  hbody c := (hbody (V3 m) c).loose
  hwaits := Pipeline.hwaits_of_owed_zero _ _ _ _ L lv 0 fun c t => howed (V3 m) c t
  pre c := iprop(StableHlo.held (c : Thread nD τ) (Pipeline.ucRefs τ sig) (W3 m c) ∗ R₀ c)
  post c := iprop(StableHlo.held (c : Thread nD τ) (Pipeline.ucRefs τ sig) (W4 m dat c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := entry_arrays c (dat (V3 m) c) (hq (V3 m) c) (V3 m c) (hA (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed (V3 m) c 0]
      iexists ∅; isplitr; · ipureintro; rw [Finset.coe_empty]; exact Set.empty_subset _
      iexact HO
    isplitl [Hp]; · iexact Hp
    iexact Hrest
  hin c := by
    refine BIBase.Entails.trans ?_ (hin (V3 m) c); unfold Pipeline.ΦA
    iintro ⟨Hp, -, Hr⟩
    isplitl [Hr]; · iexact Hr
    iexact Hp
  hout c := by
    rw [Pipeline.ownSems0_none]
    refine (hout (V3 m) c).trans ?_; unfold Pipeline.ΦA
    iintro ⟨Hr, Hp⟩
    isplitl [Hp]; · iexact Hp
    isplitr; · iempintro
    iexact Hr
  hexit c := by
    have hjoin := exit_arrays c (dat (V3 m) c) (hq (V3 m) c) (V3 m c) (fun b => W4 m dat c b) (hA (V3 m) c)
      (W4_main_v18 m dat c) (fun b hb => W4_of_ne m dat c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed (V3 m) c (Fin.last cfg0.N)]
    icases HO with ⟨%W, -, HO⟩; iexists W; iexact HO

/-! ## @main as segments, and the launch -/

/-- @main's 11 segments in order: a host segment per stretch from its boundary's contents, the region. -/
abbrev segs : List (Pipeline.Seg (pcfgs (F := F)) adm (pdats m dat) () defs₀ 𝒱₀ L lv) :=
  [ .host (hseg R₀ hostOps0 hostOps0_sub hostOps0_fresh (W0 m)),
    .host (hseg R₀ hostOps0_1 hostOps0_1_sub hostOps0_1_fresh (W1 m)),
    .host (hseg R₀ hostOps0_2 hostOps0_2_sub hostOps0_2_fresh (W2 m)),
    .region (reg0 m dat hA hq howed hbody hin hout),
    .host (hseg R hostOps1 hostOps1_sub hostOps1_fresh (W4 m dat)),
    .host (hseg R hostOps1_1 hostOps1_1_sub hostOps1_1_fresh (W5 m dat)),
    .host (hseg R hostOps1_2 hostOps1_2_sub hostOps1_2_fresh (W6 m dat)),
    .host (hseg R hostOps1_3 hostOps1_3_sub hostOps1_3_fresh (W7 m dat)),
    .host (hseg R hostOps1_4 hostOps1_4_sub hostOps1_4_fresh (W8 m dat)),
    .host (hseg R hostOps1_5 hostOps1_5_sub hostOps1_5_fresh (W9 m dat)),
    .host (hseg R hostOps1_6 hostOps1_6_sub hostOps1_6_fresh (W10 m dat)) ]

/-- @main is the run of the segments. -/
theorem main_run (c : Dev nD) : main (F := F) c = Pipeline.Seg.run (segs m dat hA hq howed hbody hin hout) :=
  (main_chain c).trans (by chain_rfl)

end Region

end Launch

set_option backward.isDefEq.respectTransparency.types false in
/-- THE LAUNCH: from any memory with zero counters, every weakly fair execution of @main on the TensorCores
    terminates, nothing faulting, and every final state holds each unscoped buffer at the last boundary's contents. -/
theorem run_main
    (hA : ∀ V c w, (dat V c).A w = V c (Pipeline.arrRef spec0 w))
    (hq : ∀ V c, (dat V c).q = shares)
    (howed : ∀ V c t, (dat V c).owed t = 0)
    (hbody : ∀ V c, Pipeline.BodyObligation (dat V c) (defs₀ (F := F)) Variants.none () Set.univ)
    (hin : ∀ V c, (Pipeline.ΦA (Val := Elt F) (U := UR sig nD τ) spec0 c : sProp 𝕄) ⊢ (dat V c).Φ 0)
    (hout : ∀ V c, (dat V c).Φ (Fin.last cfg0.N) ⊢ (Pipeline.ΦA (Val := Elt F) (U := UR sig nD τ) spec0 c : sProp 𝕄)) :
    θ_run defs (onTc (τ := τ) (main (F := F))) ⟨m, fun _ => 0, ρ⟩
      (fun r => ∀ c : Dev nD, ∀ b ∈ Pipeline.ucRefs τ sig, r.2.mem ((c : Thread nD τ).1, b) = W11 m dat c b) :=
  Pipeline.θ_run_regions_kit (pcfgs (F := F)) Launch.adm (Launch.pdats m dat) () cellOf_inj emb₁ defs₀ Launch.𝒱₀ Launch.L Launch.lv m ρ main
    (Launch.segs m dat hA hq howed hbody hin hout)
    (fun c Q => by rw [Launch.main_run m dat hA hq howed hbody hin hout c])
    (by simp only [Launch.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Launch.R₀ c)) (Tₙ := Launch.Tₙ m dat)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m dat c) ∗ Launch.R c)
          ⊢ iprop(Launch.Tₙ m dat c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach Launch.L Launch.lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = W11 m dat c b)
    (hfin := fun c s' => by
      iintro ⟨⟨Hh, -⟩, HSI⟩
      unfold StableHlo.held
      imodintro
      iapply (pointsTo_read_all (Pipeline.ucRefs τ sig) (fun b => (((c : Thread nD τ)).1, b)) (W11 m dat c) s')
      isplitl [Hh] <;> iassumption)
    (hQ := fun s h c => h c)

end Cert.Kernel.Hand

end
-- ==== Proof.K.Frame.lean ====
/-
  The kernel program's run with the pipeline's proof data in place, at any float instance: every weakly fair execution
  of @main terminates with each unscoped buffer at the last valuation of the fold through @main, and in particular the
  four argument arrays end as launched (no host line and no write-back of the region touches them).
-/
import proofs.«178334_j34394098106946_1_alg».proof.Proof.K.Body
import proofs.«178334_j34394098106946_1_alg».proof.Proof.K.Launch

noncomputable section

namespace Cert.Kernel.Hand

open Idealize.ShloMosaic Idealize.ShloMosaic.TcCoe
open Idealize.SL Idealize.SL.Sem
open Cert.Kernel

variable {F : FTy → Type} [FloatOps F]
variable (m : (ℓ : Loc nD τ sig) → Buf (Elt F) ℓ) (ρ : Dev nD → PrngReg)

/-- The proof data hold each of the two arrays that two windows read half and half, the others whole. -/
theorem dats_q (V : EntryV (F := F)) (c : Dev nD) : (dats V c).q = shares :=
  funext fun w => by
    match w with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl

/-- Every weakly fair execution of @main ends with each unscoped buffer at the fold's last valuation. -/
theorem run : θ_run (defs (F := F)) (onTc (τ := τ) (main (F := F))) ⟨m, fun _ => 0, ρ⟩
    (fun r => ∀ c : Dev nD, ∀ b ∈ Pipeline.ucRefs τ sig, r.2.mem ((c : Thread nD τ).1, b) = W11 m (fun V c => dats V c) c b) :=
  run_main m ρ (fun V c => dats V c) (fun V c w => A_eq V c w) (fun V c => dats_q V c) (fun V c t => owed_eq V c t)
    (fun V c => body_obligation V c) (fun V c => hin V c) (fun V c => hout V c)

/-- The four argument arrays end as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := F)) _ _).mono (fun r h c =>
    ⟨(h c _ (mem_uc main_arg0 (by decide))).trans (W11_main_arg0 m _ c),
     (h c _ (mem_uc main_arg1 (by decide))).trans (W11_main_arg1 m _ c),
     (h c _ (mem_uc main_arg2 (by decide))).trans (W11_main_arg2 m _ c),
     (h c _ (mem_uc main_arg3 (by decide))).trans (W11_main_arg3 m _ c)⟩) (run m ρ)

end Cert.Kernel.Hand

end
-- ==== Proof.KI.Defs.lean ====
/-
  What the pairwise kernel's body computes at a grid point, and what its accumulator and output hold point by point.

  Grid point `t = 8 i + j` reads row tile `i` of both feature matrices (windows 0 and 2), column tile `j` of both
  (windows 1 and 3), the segment ids of the rows as a column (window 4) and of the columns as a row (window 5).
  `tile` is the body's arithmetic as one pure term: the masked `[512, 512]` block of the kernel matrix summed along
  its lanes and added to the accumulator it is handed. The accumulator is zero before `j = 0` and carried through
  `j = 1 … 7` (`accAt`); the output block is the accumulator after `j = 7`.
-/
import proofs.«178334_j34394098106946_1_alg».proof.Proof.Gen.KernelIdeal.Skeleton
import proofs.«178334_j34394098106946_1_alg».proof.Proof.Gen.KernelIdeal.Launch
import proofs.«178334_j34394098106946_1_alg».proof.Proof.Gen.KernelIdeal.Points
import Idealize.ShloMosaic.Lib.Pipeline.Frame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

/-- The TensorCore buffers' contents when the region is entered, per core. -/
abbrev EntryV : Type := (c : Dev nD) → (b : Ref sig .tc) → Buf (Elt F) ((c : Thread nD τ).loc b)

variable (V : EntryV (F := F))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## One point's arithmetic -/

/-- The accumulator after a point: from the row tiles `x0` (first matrix) and `x2` (second), the column tiles `x1`
    and `x3`, the rows' ids `si`, the columns' ids `sj` and the accumulator `acc` handed in — the three distance
    blocks, the six-bandwidth sum, the mask, the lane sum, added to `acc`. -/
def tile (x0 x1 x2 x3 : Vec F S512x128 .f32) (si : Vec F S512x1 .i32) (sj : Vec F S1x512 .i32) (acc : Vec F S512x1 .f32) :
    FVec F S512x1 .f32 :=
  k0_pay1 (k0_pay19 (k0_pay7 x0) (k0_pay9 x3) (k0_pay14 x0 x3))
    (k0_pay21 (k0_pay17 (k0_pay12 x0 x1) (k0_pay15 x0 x1) k0_pay16) (k0_pay18 (k0_pay8 x2) (k0_pay9 x3) (k0_pay13 x2 x3))
      (k0_pay19 (k0_pay7 x0) (k0_pay9 x3) (k0_pay14 x0 x3))
      (k0_pay20 (k0_pay7 x0) (k0_pay8 x2) (k0_pay9 x3) (k0_pay12 x0 x1) (k0_pay13 x2 x3) (k0_pay14 x0 x3) (k0_pay15 x0 x1) k0_pay16)
      (Scalar.ofBits .f32 0xBD4CCCCD#32))
    k0_pay22 si sj acc

/-- The accumulator as the body resets it at the first column tile. -/
def acc0 : FVec F S512x1 .f32 := k0_pay2

/-- `tile` at point `t`'s blocks. -/
def tileAt (c : Dev nD) (t : Fin cfg0.N) (acc : Vec F S512x1 .f32) : FVec F S512x1 .f32 :=
  tile (iblk V c 0 t) (iblk V c 1 t) (iblk V c 2 t) (iblk V c 3 t) (iblk V c 4 t) (iblk V c 5 t) acc

/-! ## The accumulator point by point -/

/-- What the scratch accumulator holds after the body at position `n`: at a first column tile (`n ≡ 0 mod 8`) the
    tile's sum over zero, else over what the point before left. -/
def accAt (c : Dev nD) : (n : ℕ) → n < cfg0.N → FVec F S512x1 .f32
  | 0, hn => tileAt V c ⟨0, hn⟩ acc0
  | n + 1, hn =>
    if (n + 1) % 8 = 0 then tileAt V c ⟨n + 1, hn⟩ acc0
    else tileAt V c ⟨n + 1, hn⟩ (accAt c n (Nat.lt_of_succ_lt hn))

theorem accAt_first (c : Dev nD) (t : Fin cfg0.N) (h : t.val % 8 = 0) : accAt V c t.val t.isLt = tileAt V c t acc0 := by
  obtain ⟨n, hn⟩ := t
  cases n with
  | zero => rfl
  | succ n => exact if_pos h

theorem accAt_next (c : Dev nD) (t : Fin cfg0.N) (h : ¬ t.val % 8 = 0) :
    accAt V c t.val t.isLt = tileAt V c t (accAt V c (t.val - 1) (Nat.lt_of_le_of_lt (Nat.sub_le _ _) t.isLt)) := by
  obtain ⟨n, hn⟩ := t
  cases n with
  | zero => exact absurd (Nat.zero_mod _) h
  | succ n => exact if_neg h

/-! ## The region invariant and the proof data -/

/-- The scratch operand: a whole scoped buffer of the kernel's own. -/
abbrev scM : Memref sig .tc .vmem S512x1 .f32 := Memref.whole cc0_scratch0

/-- The invariant before position `n`: before the first point the scoped rest at anything and the generator register;
    afterwards the scratch at what the point before left. -/
def PhiS (c : Dev nD) : (n : ℕ) → n ≤ cfg0.N → sProp 𝕄
  | 0, _ => Pipeline.ΦA spec0 c
  | n + 1, hn => iprop(iprop(owns (c : Thread nD τ) scM fullShare (accAt V c n hn)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn)) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega))) ∗ (∃ r, prngReg c r)) := by
  cases n with
  | zero => exact absurd rfl hz
  | succ n => rfl

/-- The proof data of the pipeline on core `c`: the arrays as the region finds them; after the body each input's buffer
    at its block and the output's at the accumulator; the invariant `PhiS`; the two matrices' arrays, each read by two
    windows, held half and half; nothing owed. -/
def dats (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => accAt V c t.val t.isLt
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats V c).A w = V c (Pipeline.arrRef spec0 w) := by
  dsimp only [dats]

theorem after6 (c : Dev nD) (t : Fin cfg0.N) : (dats V c).after 6 t = accAt V c t.val t.isLt := by dsimp only [dats]

theorem owed_eq (c : Dev nD) (t : Fin (cfg0.N + 1)) : (dats V c).owed t = 0 := rfl

theorem PhiS_castSucc (c : Dev nD) (t : Fin cfg0.N) :
    (dats V c).Φ t.castSucc = PhiS V c t.val (Nat.le_of_lt t.isLt) := by
  dsimp only [dats]; simp only [Fin.coe_castSucc]

end Cert.KernelIdeal.Hand

end
-- ==== Proof.KI.Body.lean ====
/-
  The body obligation of the pairwise kernel's pipeline.

  At grid point `t = 8 i + j` the body resets the scratch accumulator when `j = 0`, adds the point's masked lane
  sums to it, and copies it to the output's staging buffer when `j = 7`. Three triples say what one call of the
  body does to its eight buffers in the three cases of those two conditions; the conditions are decided over the
  grid in closed form (`t % 8 = 0`, `t % 8 = 7`); the obligation at a point follows from the triple of the point's
  case, each input's staging buffer holding its block there, and the accumulator's recursion `accAt`.
-/
import proofs.«178334_j34394098106946_1_alg».proof.Proof.KI.Defs
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, in closed form -/

/-- The condition of the body's first `scf.if` (the accumulator's reset), from the grid coordinates. -/
abbrev condF (i : grid0.Coords) : Prop :=
  (Scalar.cmpi .ne (Scalar.extui (Scalar.cmpi .eq (BitVec.ofNat 32 (i 1).val) 0#32)) 0#32) = 1#1

/-- It holds at the points with `j = 0`. -/
theorem hcondF : ∀ t : Fin cfg0.N, condF (grid0.coords t) ↔ t.val % 8 = 0 :=
  (by decide +kernel : ∀ t : Fin grid0.N, condF (grid0.coords t) ↔ t.val % 8 = 0)

/-- The condition of the body's second `scf.if` (the copy to the output). -/
abbrev condL (i : grid0.Coords) : Prop := k0_cond2 i = 1#1

/-- It holds at the points with `j = 7`. -/
theorem hcondL : ∀ t : Fin cfg0.N, condL (grid0.coords t) ↔ t.val % 8 = 7 :=
  (by decide +kernel : ∀ t : Fin grid0.N, condL (grid0.coords t) ↔ t.val % 8 = 7)

/-! ## Where the windows are idle -/

theorem liveAt_0 : ∀ i : grid0.Coords, cfg0.idle 0 i = false := fun _ => rfl
theorem liveAt_1 : ∀ i : grid0.Coords, cfg0.idle 1 i = false := fun _ => rfl
theorem liveAt_2 : ∀ i : grid0.Coords, cfg0.idle 2 i = false := fun _ => rfl
theorem liveAt_3 : ∀ i : grid0.Coords, cfg0.idle 3 i = false := fun _ => rfl
theorem liveAt_4 : ∀ i : grid0.Coords, cfg0.idle 4 i = false := fun _ => rfl
theorem liveAt_5 : ∀ i : grid0.Coords, cfg0.idle 5 i = false := fun _ => rfl

/-- Away from `j = 7` the output window is idle, -/
theorem idleAt_6 : ∀ t : Fin cfg0.N, ¬condL (grid0.coords t) → cfg0.idle 6 (grid0.coords t) = true := by decide +kernel
/-- and not written back; -/
theorem noFlush_6 : ∀ t : Fin cfg0.N, ¬condL (grid0.coords t) → (cfg0.win 6).flush t = false := by decide +kernel
/-- at `j = 7` it is live. -/
theorem liveAt_6 : ∀ t : Fin cfg0.N, condL (grid0.coords t) → cfg0.idle 6 (grid0.coords t) = false := by decide +kernel

/-! ## The staging memrefs at a point -/

abbrev ms_0 (t : Fin cfg0.N) : Memref sig .tc .vmem S512x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S512x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S512x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S512x1 .i32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x512 .i32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S512x1 .f32 := win0_6.stage (cfg0.slots t 6)
abbrev hs_6 (t : Fin cfg0.N) : (ms_6 t).IsWhole := hstage0_6 ((cfg0.slots t 6).cast nbuf0_6)

/-- The invariant before the first point with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## Whole-buffer stores and loads -/

/-- The zero offsets of a rank-2 access, as the body spells them. -/
theorem hz2 : (![0, 0] : Fin 2 → ℕ) = fun _ => 0 := by funext a; fin_cases a <;> rfl

/-- A buffer after a store of the whole of it (the unit rectangle at zero offsets of the buffer's own sizes), whatever
    was stored before, reads what was stored. -/
theorem read_store_unit_zero {S : Shape} {e : EltTy} {κ : Kind} {sp : Space} (v : View sig κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero h inb y⟩)).trans
    (View.canon_cons_unit_zero h inb w L)

/-- A load of the whole of a whole memref reads its contents. -/
theorem readAt_unit_zero {S : Shape} {e : EltTy} {M : Memref sig .tc .vmem S e} (hM : M.IsWhole)
    {off : Fin S.rank → Nat} (h : off = fun _ => 0) (inb : ∀ a, off a + S.size a ≤ S.size a) (X : S.Idx → Elt F e) :
    View.readAt (Elt F) M.view (Rect.unit off S.size inb).toLoadRect (hM.unread X) = X := by
  rw [View.readAt_eq_ld, hM.read_unread, View.ld_unit_zero h]

/-! ## The body on any whole staging memrefs, case by case -/

set_option maxHeartbeats 1000000 in
/-- At a point with `j = 0` (and `j ≠ 7`): the accumulator, whatever it held, ends at the point's sum over zero; the
    output's buffer is not touched. -/
theorem run_first (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S512x1 .f32) (harg8 : arg8.IsWhole) (arg9 : Memref sig .tc .vmem S512x1 .f32) (harg9 : arg9.IsWhole)
    (hF : condF i) (hL : ¬condL i)
    (x0 x1 x2 x3 : Vec F S512x128 .f32) (x4 : Vec F S512x1 .i32) (x5 : Vec F S1x512 .i32) (xo : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xo ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xo ∗ owns (c : Thread nD τ) arg9 fullShare (tile x0 x1 x2 x3 x4 x5 acc0)) -∗ K ⟨⟩))
      ⊢ wp frame (wpE (defs₀ (F := F)) Variants.none c none) E (cc0__pairwise_kernel i arg2 harg2 arg3 harg3 arg4 harg4 arg5 harg5 arg6 harg6 arg7 harg7 arg8 harg8 arg9 harg9) K := by
  simp only [cc0__pairwise_kernel_eq_skeleton]; unfold cc0__pairwise_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, Ho⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfo
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [Ho]
  · iexists _; isplitr; · ipureintro; exact harg8.read_unread _
    iexact Ho
  iexists _; isplitr
  swap; · iexact HS
  ipureintro
  refine (read_store_unit_zero (S := S512x1) _ _ hz2 _ _ _).trans ?_
  sl_unfold_words
  simp only [readAt_unit_zero (S := S512x128) _ hz2, readAt_unit_zero (S := S512x1) _ hz2, readAt_unit_zero (S := S1x512) _ hz2, View.readCov_unit_zero (S := S512x1) _ hz2]
  rfl

set_option maxHeartbeats 1000000 in
/-- At a point with `0 < j < 7`: the accumulator ends at the point's sum over what it held; the output's buffer is
    not touched. -/
theorem run_middle (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S512x1 .f32) (harg8 : arg8.IsWhole) (arg9 : Memref sig .tc .vmem S512x1 .f32) (harg9 : arg9.IsWhole)
    (hF : ¬condF i) (hL : ¬condL i)
    (x0 x1 x2 x3 : Vec F S512x128 .f32) (x4 : Vec F S512x1 .i32) (x5 : Vec F S1x512 .i32) (s xo : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xo ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xo ∗ owns (c : Thread nD τ) arg9 fullShare (tile x0 x1 x2 x3 x4 x5 s)) -∗ K ⟨⟩))
      ⊢ wp frame (wpE (defs₀ (F := F)) Variants.none c none) E (cc0__pairwise_kernel i arg2 harg2 arg3 harg3 arg4 harg4 arg5 harg5 arg6 harg6 arg7 harg7 arg8 harg8 arg9 harg9) K := by
  simp only [cc0__pairwise_kernel_eq_skeleton]; unfold cc0__pairwise_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, Ho⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfo; obtain rfl := harg9.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [Ho]
  · iexists _; isplitr; · ipureintro; exact harg8.read_unread _
    iexact Ho
  iexists _; isplitr
  swap; · iexact HS
  ipureintro
  refine (read_store_unit_zero (S := S512x1) _ _ hz2 _ _ _).trans ?_
  sl_unfold_words
  simp only [readAt_unit_zero (S := S512x128) _ hz2, readAt_unit_zero (S := S512x1) _ hz2, readAt_unit_zero (S := S1x512) _ hz2]
  rfl

set_option maxHeartbeats 1000000 in
/-- At a point with `j = 7`: the accumulator ends at the point's sum over what it held, and the output's buffer,
    whatever it held, at the same value. -/
theorem run_last (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S512x1 .f32) (harg8 : arg8.IsWhole) (arg9 : Memref sig .tc .vmem S512x1 .f32) (harg9 : arg9.IsWhole)
    (hF : ¬condF i) (hL : condL i)
    (x0 x1 x2 x3 : Vec F S512x128 .f32) (x4 : Vec F S512x1 .i32) (x5 : Vec F S1x512 .i32) (s : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (tile x0 x1 x2 x3 x4 x5 s) ∗ owns (c : Thread nD τ) arg9 fullShare (tile x0 x1 x2 x3 x4 x5 s)) -∗ K ⟨⟩))
      ⊢ wp frame (wpE (defs₀ (F := F)) Variants.none c none) E (cc0__pairwise_kernel i arg2 harg2 arg3 harg3 arg4 harg4 arg5 harg5 arg6 harg6 arg7 harg7 arg8 harg8 arg9 harg9) K := by
  simp only [cc0__pairwise_kernel_eq_skeleton]; unfold cc0__pairwise_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dout, %fo, -, Ho⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [Ho]
  · iexists _; isplitr
    swap; · iexact Ho
    ipureintro
    refine (read_store_unit_zero (S := S512x1) _ _ hz2 _ _ _).trans ?_
    sl_unfold_words
    simp only [readAt_unit_zero (S := S512x128) _ hz2, readAt_unit_zero (S := S512x1) _ hz2, readAt_unit_zero (S := S1x512) _ hz2, View.readCov_unit_zero (S := S512x1) _ hz2]
    rfl
  iexists _; isplitr
  swap; · iexact HS
  ipureintro
  refine (read_store_unit_zero (S := S512x1) _ _ hz2 _ _ _).trans ?_
  sl_unfold_words
  simp only [readAt_unit_zero (S := S512x128) _ hz2, readAt_unit_zero (S := S512x1) _ hz2, readAt_unit_zero (S := S1x512) _ hz2, View.readCov_unit_zero (S := S512x1) _ hz2]
  rfl

/-! ## The inputs' staging buffers hold their blocks -/

theorem after_0 (V : EntryV (F := F)) (c : Dev nD) (t : Fin cfg0.N) : (dats V c).after 0 t = iblk V c 0 t := by dsimp only [dats]
theorem after_1 (V : EntryV (F := F)) (c : Dev nD) (t : Fin cfg0.N) : (dats V c).after 1 t = iblk V c 1 t := by dsimp only [dats]
theorem after_2 (V : EntryV (F := F)) (c : Dev nD) (t : Fin cfg0.N) : (dats V c).after 2 t = iblk V c 2 t := by dsimp only [dats]
theorem after_3 (V : EntryV (F := F)) (c : Dev nD) (t : Fin cfg0.N) : (dats V c).after 3 t = iblk V c 3 t := by dsimp only [dats]
theorem after_4 (V : EntryV (F := F)) (c : Dev nD) (t : Fin cfg0.N) : (dats V c).after 4 t = iblk V c 4 t := by dsimp only [dats]
theorem after_5 (V : EntryV (F := F)) (c : Dev nD) (t : Fin cfg0.N) : (dats V c).after 5 t = iblk V c 5 t := by dsimp only [dats]

/-- Each input's current staging buffer holds its block at every point, fetched there or not: unfetched, the block
    index has not moved, and the body leaves the block in place. -/
theorem before_0 (V : EntryV (F := F)) (c : Dev nD) (t : Fin cfg0.N) (d) : (dats V c).before 0 t d = iblk V c 0 t :=
  ((dats V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (V : EntryV (F := F)) (c : Dev nD) (t : Fin cfg0.N) (d) : (dats V c).before 1 t d = iblk V c 1 t :=
  ((dats V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (V : EntryV (F := F)) (c : Dev nD) (t : Fin cfg0.N) (d) : (dats V c).before 2 t d = iblk V c 2 t :=
  ((dats V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (V : EntryV (F := F)) (c : Dev nD) (t : Fin cfg0.N) (d) : (dats V c).before 3 t d = iblk V c 3 t :=
  ((dats V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (V : EntryV (F := F)) (c : Dev nD) (t : Fin cfg0.N) (d) : (dats V c).before 4 t d = iblk V c 4 t :=
  ((dats V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (V : EntryV (F := F)) (c : Dev nD) (t : Fin cfg0.N) (d) : (dats V c).before 5 t d = iblk V c 5 t :=
  ((dats V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body obligation at a point -/

/-- What the body is called with at point `t`, the windows one by one, -/
def bodyPre (V : EntryV (F := F)) (c : Dev nD) (t : Fin cfg0.N) : sProp 𝕄 :=
  iprop((dats V c).Φ t.castSucc ∗ (dats V c).owesAt () t.castSucc
    ∗ (∃ d, owns (c : Thread nD τ) (ms_0 t) fullShare ((dats V c).before 0 t d))
    ∗ (∃ d, owns (c : Thread nD τ) (ms_1 t) fullShare ((dats V c).before 1 t d))
    ∗ (∃ d, owns (c : Thread nD τ) (ms_2 t) fullShare ((dats V c).before 2 t d))
    ∗ (∃ d, owns (c : Thread nD τ) (ms_3 t) fullShare ((dats V c).before 3 t d))
    ∗ (∃ d, owns (c : Thread nD τ) (ms_4 t) fullShare ((dats V c).before 4 t d))
    ∗ (∃ d, owns (c : Thread nD τ) (ms_5 t) fullShare ((dats V c).before 5 t d))
    ∗ (∃ d, owns (c : Thread nD τ) (ms_6 t) fullShare ((dats V c).before 6 t d)))

/-- and what it returns. -/
def bodyPost (V : EntryV (F := F)) (c : Dev nD) (t : Fin cfg0.N) : sProp 𝕄 :=
  iprop((dats V c).Φ t.succ ∗ (dats V c).owesAt () t.succ
    ∗ (dats V c).leavesExact 0 t
    ∗ (dats V c).leavesExact 1 t
    ∗ (dats V c).leavesExact 2 t
    ∗ (dats V c).leavesExact 3 t
    ∗ (dats V c).leavesExact 4 t
    ∗ (dats V c).leavesExact 5 t
    ∗ (dats V c).leavesExact 6 t)

set_option maxHeartbeats 4000000 in
/-- The body at any point: each input's buffer holds its block; the closed forms select the point's case; the
    invariant hands the scratch at what the point before left (at anything before the first point) and takes it back
    at this point's sum; away from `j = 7` the output's buffer is handed back as found, at `j = 7` it holds the sum. -/
theorem sound_body (V : EntryV (F := F)) (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dats V c).owesAt () t.succ = (dats V c).owesAt () t.castSucc from rfl]
  rw [show (dats V c).Φ t.succ = PhiS V c (t.val + 1) t.isLt from rfl, PhiS_succ]
  have hN : t.val < 64 := lt_of_lt_of_eq t.isLt (show cfg0.N = 64 from N_0)
  rw [show (dats V c).leavesExact 0 t = owns (c : Thread nD τ) (ms_0 t) fullShare ((dats V c).after 0 t) from by
    unfold Dat.leavesExact; rw [liveAt_0], after_0]
  rw [show (dats V c).leavesExact 1 t = owns (c : Thread nD τ) (ms_1 t) fullShare ((dats V c).after 1 t) from by
    unfold Dat.leavesExact; rw [liveAt_1], after_1]
  rw [show (dats V c).leavesExact 2 t = owns (c : Thread nD τ) (ms_2 t) fullShare ((dats V c).after 2 t) from by
    unfold Dat.leavesExact; rw [liveAt_2], after_2]
  rw [show (dats V c).leavesExact 3 t = owns (c : Thread nD τ) (ms_3 t) fullShare ((dats V c).after 3 t) from by
    unfold Dat.leavesExact; rw [liveAt_3], after_3]
  rw [show (dats V c).leavesExact 4 t = owns (c : Thread nD τ) (ms_4 t) fullShare ((dats V c).after 4 t) from by
    unfold Dat.leavesExact; rw [liveAt_4], after_4]
  rw [show (dats V c).leavesExact 5 t = owns (c : Thread nD τ) (ms_5 t) fullShare ((dats V c).after 5 t) from by
    unfold Dat.leavesExact; rw [liveAt_5], after_5]
  by_cases h0 : t.val % 8 = 0
  · by_cases h7 : t.val % 8 = 7
    · exfalso; omega
    · rw [Dat.leavesExact_idle (dats V c) 6 t (idleAt_6 t (fun h => h7 ((hcondL t).mp h))) (noFlush_6 t (fun h => h7 ((hcondL t).mp h)))]
      rw [accAt_first V c t h0]
      unfold tileAt
      by_cases hz : t.val = 0
      · rw [PhiS_castSucc V c t, PhiS_zero V c _ _ hz, PhiA_eq]
        iintro ⟨⟨HS, Hg⟩, Hw, ⟨%d0, H0⟩, ⟨%d1, H1⟩, ⟨%d2, H2⟩, ⟨%d3, H3⟩, ⟨%d4, H4⟩, ⟨%d5, H5⟩, ⟨%d6, H6⟩⟩
        iapply (run_first c (grid0.coords t) _ _ _ _ _ _ _ _ _ _ _ _ _ _ _ _ ((hcondF t).mpr h0) (fun h => h7 ((hcondL t).mp h)) (iblk V c 0 t) (iblk V c 1 t) (iblk V c 2 t) (iblk V c 3 t) (iblk V c 4 t) (iblk V c 5 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, HS⟩
        isplitl [HS Hg]
        · isplitl [HS]; · iexact HS
          iexact Hg
        isplitl [Hw]; · iexact Hw
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc V c t, PhiS_pos V c _ _ hz]
        iintro ⟨⟨HS, Hg⟩, Hw, ⟨%d0, H0⟩, ⟨%d1, H1⟩, ⟨%d2, H2⟩, ⟨%d3, H3⟩, ⟨%d4, H4⟩, ⟨%d5, H5⟩, ⟨%d6, H6⟩⟩
        iapply (run_first c (grid0.coords t) _ _ _ _ _ _ _ _ _ _ _ _ _ _ _ _ ((hcondF t).mpr h0) (fun h => h7 ((hcondL t).mp h)) (iblk V c 0 t) (iblk V c 1 t) (iblk V c 2 t) (iblk V c 3 t) (iblk V c 4 t) (iblk V c 5 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, HS⟩
        isplitl [HS Hg]
        · isplitl [HS]; · iexact HS
          iexact Hg
        isplitl [Hw]; · iexact Hw
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun h => h0 (by rw [h])
    rw [accAt_next V c t h0]
    unfold tileAt
    rw [PhiS_castSucc V c t, PhiS_pos V c _ _ hz]
    by_cases h7 : t.val % 8 = 7
    · rw [show (dats V c).leavesExact 6 t = owns (c : Thread nD τ) (ms_6 t) fullShare ((dats V c).after 6 t) from by
        unfold Dat.leavesExact; rw [liveAt_6 t ((hcondL t).mpr h7)], after6, accAt_next V c t h0]
      unfold tileAt
      iintro ⟨⟨HS, Hg⟩, Hw, ⟨%d0, H0⟩, ⟨%d1, H1⟩, ⟨%d2, H2⟩, ⟨%d3, H3⟩, ⟨%d4, H4⟩, ⟨%d5, H5⟩, ⟨%d6, H6⟩⟩
      iapply (run_last c (grid0.coords t) _ _ _ _ _ _ _ _ _ _ _ _ _ _ _ _ (fun h => h0 ((hcondF t).mp h)) ((hcondL t).mpr h7) (iblk V c 0 t) (iblk V c 1 t) (iblk V c 2 t) (iblk V c 3 t) (iblk V c 4 t) (iblk V c 5 t) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hg]
      · isplitl [HS]; · iexact HS
        iexact Hg
      isplitl [Hw]; · iexact Hw
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats V c) 6 t (idleAt_6 t (fun h => h7 ((hcondL t).mp h))) (noFlush_6 t (fun h => h7 ((hcondL t).mp h)))]
      iintro ⟨⟨HS, Hg⟩, Hw, ⟨%d0, H0⟩, ⟨%d1, H1⟩, ⟨%d2, H2⟩, ⟨%d3, H3⟩, ⟨%d4, H4⟩, ⟨%d5, H5⟩, ⟨%d6, H6⟩⟩
      iapply (run_middle c (grid0.coords t) _ _ _ _ _ _ _ _ _ _ _ _ _ _ _ _ (fun h => h0 ((hcondF t).mp h)) (fun h => h7 ((hcondL t).mp h)) (iblk V c 0 t) (iblk V c 1 t) (iblk V c 2 t) (iblk V c 3 t) (iblk V c 4 t) (iblk V c 5 t) (accAt V c (t.val - 1) (Nat.lt_of_le_of_lt (Nat.sub_le _ _) t.isLt)) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg]
      · isplitl [HS]; · iexact HS
        iexact Hg
      isplitl [Hw]; · iexact Hw
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (V : EntryV (F := F)) (c : Dev nD) :
    Pipeline.BodyObligation (dats (F := F) V c) (defs₀ (F := F)) Variants.none () Set.univ := fun t => by
  rw [bigSep_W0, bigSep_W0]
  exact sound_body V c t

/-! ## The invariant at the two ends -/

/-- What the launch hands the region is the invariant before the first point. -/
theorem hin (V : EntryV (F := F)) (c : Dev nD) : (Pipeline.ΦA spec0 c : sProp 𝕄) ⊢ (dats V c).Φ 0 := by
  rw [show (dats V c).Φ 0 = PhiS V c 0 (Nat.zero_le _) from rfl, PhiS_zero V c 0 _ rfl]
  try exact Idealize.SL.BI.Entails.refl _

/-- After any point the invariant gives it back: the scratch's named contents are forgotten. -/
theorem Phi_out (V : EntryV (F := F)) (c : Dev nD) (t : Fin (cfg0.N + 1)) (ht : t.val ≠ 0) :
    (dats V c).Φ t ⊢ (Pipeline.ΦA spec0 c : sProp 𝕄) := by
  rw [show (dats V c).Φ t = PhiS V c t.val (Nat.le_of_lt_succ t.isLt) from rfl, PhiS_pos V c _ _ ht, PhiA_eq]
  iintro ⟨HS, Hg⟩
  isplitl [HS]
  · iexists _; iexact HS
  iexact Hg

/-- The same after the last point. -/
theorem hout (V : EntryV (F := F)) (c : Dev nD) : (dats V c).Φ (Fin.last cfg0.N) ⊢ (Pipeline.ΦA spec0 c : sProp 𝕄) :=
  Phi_out V c _ (by rw [Fin.val_last]; have : cfg0.N = 64 := N_0; omega)

end Cert.KernelIdeal.Hand

end
-- ==== Proof.KI.Launch.lean ====
import proofs.«178334_j34394098106946_1_alg».proof.Proof.Gen.KernelIdeal.Launch
import proofs.«178334_j34394098106946_1_alg».proof.Proof.Gen.KernelIdeal.Points
import Idealize.ShloMosaic.Lib.Pipeline.Frame
import Idealize.ShloMosaic.Lib.Pipeline.Regions

/-! # The launch of @main

@main is three stretches of host operations, one kernel region, and seven more stretches of host operations.
The buffer contents at each boundary are a fold from the launch memory; the region changes only the output
window's array. Two pairs of input windows read one array each, so at the region's entry each such array's full
share is split in two halves, one per window, and joined back at the exit. -/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents, per core and reference. -/
abbrev EntryVal : Type := (c : Dev nD) → (b : Ref sig .tc) → Buf (Elt F) ((c : Thread nD τ).loc b)

/-- The share each window holds of its array: the two windows on one array take its two halves. -/
def shares : Fin 7 → PosShare TreeShare
  | 0 => fullShare.left
  | 1 => fullShare.right
  | 2 => fullShare.left
  | 3 => fullShare.right
  | _ => fullShare

variable (m : (ℓ : Loc nD τ sig) → Buf (Elt F) ℓ) (ρ : Dev nD → PrngReg)
variable (dat : EntryVal (F := F) → (c : Dev nD) → Dat τ (Elt F) Unit ℕ (UR sig nD τ) ℕ cfg0 c)

/-! ## The buffer contents at each boundary -/

/-- Core c's buffers at launch. -/
abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
/-- The region's entry contents. -/
abbrev W3 : Dev nD → Valuation τ sig (Elt F) := fun c => StableHlo.after hostOps0_2 (W2 m c)
/-- The same read at the TensorCore's references. -/
abbrev V3 : EntryVal (F := F) := fun c b => W3 m c b
/-- At the region's exit: the output window's array at what the write-backs leave, every other buffer as entered. -/
def W4 (c : Dev nD) : Valuation τ sig (Elt F) :=
  Function.update (W3 m c) (Proc.devRef .tc main_v18) ((dat (V3 m) c).arrAt 6 cfg0.N)
abbrev W5 : Dev nD → Valuation τ sig (Elt F) := fun c => StableHlo.after hostOps1 (W4 m dat c)
abbrev W6 : Dev nD → Valuation τ sig (Elt F) := fun c => StableHlo.after hostOps1_1 (W5 m dat c)
abbrev W7 : Dev nD → Valuation τ sig (Elt F) := fun c => StableHlo.after hostOps1_2 (W6 m dat c)
abbrev W8 : Dev nD → Valuation τ sig (Elt F) := fun c => StableHlo.after hostOps1_3 (W7 m dat c)
abbrev W9 : Dev nD → Valuation τ sig (Elt F) := fun c => StableHlo.after hostOps1_4 (W8 m dat c)
abbrev W10 : Dev nD → Valuation τ sig (Elt F) := fun c => StableHlo.after hostOps1_5 (W9 m dat c)
abbrev W11 : Dev nD → Valuation τ sig (Elt F) := fun c => StableHlo.after hostOps1_6 (W10 m dat c)

theorem W4_main_v18 (c : Dev nD) :
    W4 m dat c (Proc.devRef .tc main_v18) = (dat (V3 m) c).arrAt 6 cfg0.N := by
  unfold W4; exact Function.update_self ..

theorem W4_of_ne (c : Dev nD) (b : Ref sig .tc) (hb : b ≠ main_v18) :
    W4 m dat c (Proc.devRef .tc b) = W3 m c (Proc.devRef .tc b) := by
  unfold W4; exact Function.update_of_ne (StableHlo.devRef_ne_of_ne hb) ..

/-- An unscoped TensorCore reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩
/-! ## What the host stretches write, and that none allocates -/

/-- No operation of the stretch allocates a buffer. -/
theorem hostOps0_fresh : (hostOps0 : List (HloOp τ sig (Elt F))).Forall fun op => op.fresh = ∅ := by
  simp only [List.Forall]; repeat' constructor
/-- The references the stretch's operations write. -/
abbrev hostOps0_W : List (Ref sig .tc) := [main_v0, main_v1, main_v2, main_v3, main_v4, main_v5, main_v6, main_v7, main_v8, main_c, main_v9]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of the stretch allocates a buffer. -/
theorem hostOps0_1_fresh : (hostOps0_1 : List (HloOp τ sig (Elt F))).Forall fun op => op.fresh = ∅ := by
  simp only [List.Forall]; repeat' constructor
/-- The references the stretch's operations write. -/
abbrev hostOps0_1_W : List (Ref sig .tc) := [main_call0_call0_c, main_call0_call0_v0, main_v10]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of the stretch allocates a buffer. -/
theorem hostOps0_2_fresh : (hostOps0_2 : List (HloOp τ sig (Elt F))).Forall fun op => op.fresh = ∅ := by
  simp only [List.Forall]; repeat' constructor
/-- The references the stretch's operations write. -/
abbrev hostOps0_2_W : List (Ref sig .tc) := [main_v11, main_cst, main_v12, main_cst_0, main_v13, main_v14, main_v15, main_v16, main_v17]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of the stretch allocates a buffer. -/
theorem hostOps1_fresh : (hostOps1 : List (HloOp τ sig (Elt F))).Forall fun op => op.fresh = ∅ := by
  simp only [List.Forall]; repeat' constructor
/-- The references the stretch's operations write. -/
abbrev hostOps1_W : List (Ref sig .tc) := [main_v19, main_cst_1, main_v20, main_v21, main_v22, main_cst_2, main_v23, main_v24, main_v25, main_cst_3, main_v26, main_v27, main_cst_4, main_v28, main_v29, main_v30, main_cst_5]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of the stretch allocates a buffer. -/
theorem hostOps1_1_fresh : (hostOps1_1 : List (HloOp τ sig (Elt F))).Forall fun op => op.fresh = ∅ := by
  simp only [List.Forall]; repeat' constructor
/-- The references the stretch's operations write. -/
abbrev hostOps1_1_W : List (Ref sig .tc) := [main_call1_v0, main_call1_v1, main_v31]
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of the stretch allocates a buffer. -/
theorem hostOps1_2_fresh : (hostOps1_2 : List (HloOp τ sig (Elt F))).Forall fun op => op.fresh = ∅ := by
  simp only [List.Forall]; repeat' constructor
/-- The references the stretch's operations write. -/
abbrev hostOps1_2_W : List (Ref sig .tc) := [main_cst_6, main_v32, main_v33, main_cst_7]
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of the stretch allocates a buffer. -/
theorem hostOps1_3_fresh : (hostOps1_3 : List (HloOp τ sig (Elt F))).Forall fun op => op.fresh = ∅ := by
  simp only [List.Forall]; repeat' constructor
/-- The references the stretch's operations write. -/
abbrev hostOps1_3_W : List (Ref sig .tc) := [main_call2_v0, main_call2_v1, main_v34]
theorem hostOps1_3_writes : (hostOps1_3 : List (HloOp τ sig (Elt F))).Forall fun op => op.writes ⊆ (hostOps1_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of the stretch allocates a buffer. -/
theorem hostOps1_4_fresh : (hostOps1_4 : List (HloOp τ sig (Elt F))).Forall fun op => op.fresh = ∅ := by
  simp only [List.Forall]; repeat' constructor
/-- The references the stretch's operations write. -/
abbrev hostOps1_4_W : List (Ref sig .tc) := [main_v35, main_cst_8]
theorem hostOps1_4_writes : (hostOps1_4 : List (HloOp τ sig (Elt F))).Forall fun op => op.writes ⊆ (hostOps1_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of the stretch allocates a buffer. -/
theorem hostOps1_5_fresh : (hostOps1_5 : List (HloOp τ sig (Elt F))).Forall fun op => op.fresh = ∅ := by
  simp only [List.Forall]; repeat' constructor
/-- The references the stretch's operations write. -/
abbrev hostOps1_5_W : List (Ref sig .tc) := [main_call3_v0, main_call3_v1, main_v36]
theorem hostOps1_5_writes : (hostOps1_5 : List (HloOp τ sig (Elt F))).Forall fun op => op.writes ⊆ (hostOps1_5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of the stretch allocates a buffer. -/
theorem hostOps1_6_fresh : (hostOps1_6 : List (HloOp τ sig (Elt F))).Forall fun op => op.fresh = ∅ := by
  simp only [List.Forall]; repeat' constructor
/-- The references the stretch's operations write. -/
abbrev hostOps1_6_W : List (Ref sig .tc) := [main_cst_9, main_v37, main_v38, main_v39, main_c_10, main_v40, main_v41, main_cst_11, main_v42, main_v43]
theorem hostOps1_6_writes : (hostOps1_6 : List (HloOp τ sig (Elt F))).Forall fun op => op.writes ⊆ (hostOps1_6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## What each item leaves unchanged -/

theorem W1_of (c : Dev nD) (r : Ref sig .tc) (h : r ∉ hostOps0_W) :
    W1 m c (Proc.devRef .tc r) = W0 m c (Proc.devRef .tc r) :=
  StableHlo.after_of_writes_sub hostOps0 _ hostOps0_writes h
theorem W2_of (c : Dev nD) (r : Ref sig .tc) (h : r ∉ hostOps0_1_W) :
    W2 m c (Proc.devRef .tc r) = W1 m c (Proc.devRef .tc r) :=
  StableHlo.after_of_writes_sub hostOps0_1 _ hostOps0_1_writes h
theorem W3_of (c : Dev nD) (r : Ref sig .tc) (h : r ∉ hostOps0_2_W) :
    W3 m c (Proc.devRef .tc r) = W2 m c (Proc.devRef .tc r) :=
  StableHlo.after_of_writes_sub hostOps0_2 _ hostOps0_2_writes h
theorem W5_of (c : Dev nD) (r : Ref sig .tc) (h : r ∉ hostOps1_W) :
    W5 m dat c (Proc.devRef .tc r) = W4 m dat c (Proc.devRef .tc r) :=
  StableHlo.after_of_writes_sub hostOps1 _ hostOps1_writes h
theorem W6_of (c : Dev nD) (r : Ref sig .tc) (h : r ∉ hostOps1_1_W) :
    W6 m dat c (Proc.devRef .tc r) = W5 m dat c (Proc.devRef .tc r) :=
  StableHlo.after_of_writes_sub hostOps1_1 _ hostOps1_1_writes h
theorem W7_of (c : Dev nD) (r : Ref sig .tc) (h : r ∉ hostOps1_2_W) :
    W7 m dat c (Proc.devRef .tc r) = W6 m dat c (Proc.devRef .tc r) :=
  StableHlo.after_of_writes_sub hostOps1_2 _ hostOps1_2_writes h
theorem W8_of (c : Dev nD) (r : Ref sig .tc) (h : r ∉ hostOps1_3_W) :
    W8 m dat c (Proc.devRef .tc r) = W7 m dat c (Proc.devRef .tc r) :=
  StableHlo.after_of_writes_sub hostOps1_3 _ hostOps1_3_writes h
theorem W9_of (c : Dev nD) (r : Ref sig .tc) (h : r ∉ hostOps1_4_W) :
    W9 m dat c (Proc.devRef .tc r) = W8 m dat c (Proc.devRef .tc r) :=
  StableHlo.after_of_writes_sub hostOps1_4 _ hostOps1_4_writes h
theorem W10_of (c : Dev nD) (r : Ref sig .tc) (h : r ∉ hostOps1_5_W) :
    W10 m dat c (Proc.devRef .tc r) = W9 m dat c (Proc.devRef .tc r) :=
  StableHlo.after_of_writes_sub hostOps1_5 _ hostOps1_5_writes h
theorem W11_of (c : Dev nD) (r : Ref sig .tc) (h : r ∉ hostOps1_6_W) :
    W11 m dat c (Proc.devRef .tc r) = W10 m dat c (Proc.devRef .tc r) :=
  StableHlo.after_of_writes_sub hostOps1_6 _ hostOps1_6_writes h

/-! ## No item writes an argument: the fold at an argument's buffer walks back to the launch memory -/

theorem W11_main_arg0 (c : Dev nD) : W11 m dat c (Proc.devRef .tc main_arg0) = m ((c : Thread nD τ).loc main_arg0) :=
  (W11_of m dat c main_arg0 (by decide)).trans <| (W10_of m dat c main_arg0 (by decide)).trans <| (W9_of m dat c main_arg0 (by decide)).trans <|
  (W8_of m dat c main_arg0 (by decide)).trans <| (W7_of m dat c main_arg0 (by decide)).trans <| (W6_of m dat c main_arg0 (by decide)).trans <|
  (W5_of m dat c main_arg0 (by decide)).trans <| (W4_of_ne m dat c main_arg0 (by decide)).trans <| (W3_of m c main_arg0 (by decide)).trans <|
  (W2_of m c main_arg0 (by decide)).trans <| (W1_of m c main_arg0 (by decide)).trans rfl
theorem W11_main_arg1 (c : Dev nD) : W11 m dat c (Proc.devRef .tc main_arg1) = m ((c : Thread nD τ).loc main_arg1) :=
  (W11_of m dat c main_arg1 (by decide)).trans <| (W10_of m dat c main_arg1 (by decide)).trans <| (W9_of m dat c main_arg1 (by decide)).trans <|
  (W8_of m dat c main_arg1 (by decide)).trans <| (W7_of m dat c main_arg1 (by decide)).trans <| (W6_of m dat c main_arg1 (by decide)).trans <|
  (W5_of m dat c main_arg1 (by decide)).trans <| (W4_of_ne m dat c main_arg1 (by decide)).trans <| (W3_of m c main_arg1 (by decide)).trans <|
  (W2_of m c main_arg1 (by decide)).trans <| (W1_of m c main_arg1 (by decide)).trans rfl
theorem W11_main_arg2 (c : Dev nD) : W11 m dat c (Proc.devRef .tc main_arg2) = m ((c : Thread nD τ).loc main_arg2) :=
  (W11_of m dat c main_arg2 (by decide)).trans <| (W10_of m dat c main_arg2 (by decide)).trans <| (W9_of m dat c main_arg2 (by decide)).trans <|
  (W8_of m dat c main_arg2 (by decide)).trans <| (W7_of m dat c main_arg2 (by decide)).trans <| (W6_of m dat c main_arg2 (by decide)).trans <|
  (W5_of m dat c main_arg2 (by decide)).trans <| (W4_of_ne m dat c main_arg2 (by decide)).trans <| (W3_of m c main_arg2 (by decide)).trans <|
  (W2_of m c main_arg2 (by decide)).trans <| (W1_of m c main_arg2 (by decide)).trans rfl
theorem W11_main_arg3 (c : Dev nD) : W11 m dat c (Proc.devRef .tc main_arg3) = m ((c : Thread nD τ).loc main_arg3) :=
  (W11_of m dat c main_arg3 (by decide)).trans <| (W10_of m dat c main_arg3 (by decide)).trans <| (W9_of m dat c main_arg3 (by decide)).trans <|
  (W8_of m dat c main_arg3 (by decide)).trans <| (W7_of m dat c main_arg3 (by decide)).trans <| (W6_of m dat c main_arg3 (by decide)).trans <|
  (W5_of m dat c main_arg3 (by decide)).trans <| (W4_of_ne m dat c main_arg3 (by decide)).trans <| (W3_of m c main_arg3 (by decide)).trans <|
  (W2_of m c main_arg3 (by decide)).trans <| (W1_of m c main_arg3 (by decide)).trans rfl

namespace Launch

/-! ## The region's arrays, two of them read by two windows each -/

/-- The distinct buffers behind the windows' arrays. -/
theorem arrImage : (Finset.univ.image (Pipeline.arrRef spec0) : Finset (Ref sig .tc))
    = ([main_v1, main_v3, main_v16, main_v17, main_v18] : List (Ref sig .tc)).toFinset := by decide

/-- Those buffers, each whole at the full share, one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v1) ↦{fullShare} V main_v1) ∗ (((c : Thread nD τ).loc main_v3) ↦{fullShare} V main_v3)
          ∗ (((c : Thread nD τ).loc main_v16) ↦{fullShare} V main_v16) ∗ (((c : Thread nD τ).loc main_v17) ↦{fullShare} V main_v17)
          ∗ (((c : Thread nD τ).loc main_v18) ↦{fullShare} V main_v18)) := by
  unfold Pipeline.arrBufs
  exact bigSep_eq_bigSepL_of_eq _ arrImage (by decide) _

section Shared

variable (c : Dev nD) (D : Dat τ (Elt F) Unit ℕ (UR sig nD τ) ℕ cfg0 c)

/-- Window 0's array is a whole buffer: its points-to is the buffer's. -/
theorem cell0 (q : PosShare TreeShare) (G : Buf (Elt F) ((cfg0.win 0).arr.view.loc (c : Thread nD τ))) :
    (((cfg0.win 0).arr.view.loc (c : Thread nD τ)) ↦[(cfg0.win 0).arr.view.set]{q} G : sProp 𝕄) = (((c : Thread nD τ).loc main_v1) ↦{q} G) := by
  rw [(arr_whole0 0).set_eq_univ]
theorem share0 (hq : D.q = shares) : D.share 0 = fullShare.left := by unfold Dat.share; rw [hq]; rfl
/-- Window 1's array is a whole buffer: its points-to is the buffer's. -/
theorem cell1 (q : PosShare TreeShare) (G : Buf (Elt F) ((cfg0.win 1).arr.view.loc (c : Thread nD τ))) :
    (((cfg0.win 1).arr.view.loc (c : Thread nD τ)) ↦[(cfg0.win 1).arr.view.set]{q} G : sProp 𝕄) = (((c : Thread nD τ).loc main_v1) ↦{q} G) := by
  rw [(arr_whole0 1).set_eq_univ]
theorem share1 (hq : D.q = shares) : D.share 1 = fullShare.right := by unfold Dat.share; rw [hq]; rfl
/-- Window 2's array is a whole buffer: its points-to is the buffer's. -/
theorem cell2 (q : PosShare TreeShare) (G : Buf (Elt F) ((cfg0.win 2).arr.view.loc (c : Thread nD τ))) :
    (((cfg0.win 2).arr.view.loc (c : Thread nD τ)) ↦[(cfg0.win 2).arr.view.set]{q} G : sProp 𝕄) = (((c : Thread nD τ).loc main_v3) ↦{q} G) := by
  rw [(arr_whole0 2).set_eq_univ]
theorem share2 (hq : D.q = shares) : D.share 2 = fullShare.left := by unfold Dat.share; rw [hq]; rfl
/-- Window 3's array is a whole buffer: its points-to is the buffer's. -/
theorem cell3 (q : PosShare TreeShare) (G : Buf (Elt F) ((cfg0.win 3).arr.view.loc (c : Thread nD τ))) :
    (((cfg0.win 3).arr.view.loc (c : Thread nD τ)) ↦[(cfg0.win 3).arr.view.set]{q} G : sProp 𝕄) = (((c : Thread nD τ).loc main_v3) ↦{q} G) := by
  rw [(arr_whole0 3).set_eq_univ]
theorem share3 (hq : D.q = shares) : D.share 3 = fullShare.right := by unfold Dat.share; rw [hq]; rfl
/-- Window 4's array is a whole buffer: its points-to is the buffer's. -/
theorem cell4 (q : PosShare TreeShare) (G : Buf (Elt F) ((cfg0.win 4).arr.view.loc (c : Thread nD τ))) :
    (((cfg0.win 4).arr.view.loc (c : Thread nD τ)) ↦[(cfg0.win 4).arr.view.set]{q} G : sProp 𝕄) = (((c : Thread nD τ).loc main_v16) ↦{q} G) := by
  rw [(arr_whole0 4).set_eq_univ]
theorem share4 (hq : D.q = shares) : D.share 4 = fullShare := by unfold Dat.share; rw [hq]; rfl
/-- Window 5's array is a whole buffer: its points-to is the buffer's. -/
theorem cell5 (q : PosShare TreeShare) (G : Buf (Elt F) ((cfg0.win 5).arr.view.loc (c : Thread nD τ))) :
    (((cfg0.win 5).arr.view.loc (c : Thread nD τ)) ↦[(cfg0.win 5).arr.view.set]{q} G : sProp 𝕄) = (((c : Thread nD τ).loc main_v17) ↦{q} G) := by
  rw [(arr_whole0 5).set_eq_univ]
theorem share5 (hq : D.q = shares) : D.share 5 = fullShare := by unfold Dat.share; rw [hq]; rfl
/-- Window 6's array is a whole buffer: its points-to is the buffer's. -/
theorem cell6 (q : PosShare TreeShare) (G : Buf (Elt F) ((cfg0.win 6).arr.view.loc (c : Thread nD τ))) :
    (((cfg0.win 6).arr.view.loc (c : Thread nD τ)) ↦[(cfg0.win 6).arr.view.set]{q} G : sProp 𝕄) = (((c : Thread nD τ).loc main_v18) ↦{q} G) := by
  rw [(arr_whole0 6).set_eq_univ]
theorem share6 : D.share 6 = fullShare := by unfold Dat.share; rfl

/-- The pipeline's arrays one by one: each input window at its share of its array, the output whole. -/
theorem arrays_eq' (hq : D.q = shares) (G : (w : Fin cfg0.W) → Buf (Elt F) ((cfg0.win w).arr.view.loc (c : Thread nD τ))) :
    (D.arrays G : sProp 𝕄)
      = iprop((((c : Thread nD τ).loc main_v1) ↦{fullShare.left} G 0) ∗ (((c : Thread nD τ).loc main_v1) ↦{fullShare.right} G 1)
          ∗ (((c : Thread nD τ).loc main_v3) ↦{fullShare.left} G 2) ∗ (((c : Thread nD τ).loc main_v3) ↦{fullShare.right} G 3)
          ∗ (((c : Thread nD τ).loc main_v16) ↦{fullShare} G 4) ∗ (((c : Thread nD τ).loc main_v17) ↦{fullShare} G 5)
          ∗ (((c : Thread nD τ).loc main_v18) ↦{fullShare} G 6)) := by
  unfold Dat.arrays
  rw [bigSep_W0]
  refine congrArg₂ _ ?_ (congrArg₂ _ ?_ (congrArg₂ _ ?_ (congrArg₂ _ ?_ (congrArg₂ _ ?_ (congrArg₂ _ ?_ ?_)))))
  · rw [share0 c D hq]; exact cell0 c _ _
  · rw [share1 c D hq]; exact cell1 c _ _
  · rw [share2 c D hq]; exact cell2 c _ _
  · rw [share3 c D hq]; exact cell3 c _ _
  · rw [share4 c D hq]; exact cell4 c _ _
  · rw [share5 c D hq]; exact cell5 c _ _
  · rw [share6 c D]; exact cell6 c _ _

/-- ENTRY: the buffers behind the arrays, whole, make the pipeline's arrays at the same contents: the two arrays
    two windows read are split along the share into their halves. -/
theorem arrBufs_arrays (hq : D.q = shares) (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (Pipeline.arrBufs (Ix := Unit) (Name := ℕ) (U := UR sig nD τ) (Lvl := ℕ) spec0 c V : sProp 𝕄) ⊢ D.arrays G := by
  have h0 : G 0 = V main_v1 := hG 0
  have h1 : G 1 = V main_v1 := hG 1
  have h2 : G 2 = V main_v3 := hG 2
  have h3 : G 3 = V main_v3 := hG 3
  have h4 : G 4 = V main_v16 := hG 4
  have h5 : G 5 = V main_v17 := hG 5
  have h6 : G 6 = V main_v18 := hG 6
  rw [arrBufs_eq, arrays_eq' c D hq, h0, h1, h2, h3, h4, h5, h6]
  iintro ⟨H1, H3, H16, H17, H18⟩
  ihave H1' := (pointsTo_share (PosShare.mem_left_op_right fullShare)).1 $$ H1
  icases H1' with ⟨H1l, H1r⟩
  ihave H3' := (pointsTo_share (PosShare.mem_left_op_right fullShare)).1 $$ H3
  icases H3' with ⟨H3l, H3r⟩
  isplitl [H1l]; · iexact H1l
  isplitl [H1r]; · iexact H1r
  isplitl [H3l]; · iexact H3l
  isplitl [H3r]; · iexact H3r
  isplitl [H16]; · iexact H16
  isplitl [H17]; · iexact H17
  iexact H18

/-- EXIT: the pipeline's arrays make the buffers behind them whole again: the two halves of an array two windows
    read hold the same contents and join along the share. -/
theorem arrays_arrBufs (hq : D.q = shares) (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    D.arrays G ⊢ (Pipeline.arrBufs (Ix := Unit) (Name := ℕ) (U := UR sig nD τ) (Lvl := ℕ) spec0 c V : sProp 𝕄) := by
  have h0 : G 0 = V main_v1 := hG 0
  have h1 : G 1 = V main_v1 := hG 1
  have h2 : G 2 = V main_v3 := hG 2
  have h3 : G 3 = V main_v3 := hG 3
  have h4 : G 4 = V main_v16 := hG 4
  have h5 : G 5 = V main_v17 := hG 5
  have h6 : G 6 = V main_v18 := hG 6
  rw [arrBufs_eq, arrays_eq' c D hq, h0, h1, h2, h3, h4, h5, h6]
  iintro ⟨H1l, H1r, H3l, H3r, H16, H17, H18⟩
  isplitl [H1l H1r]
  · iapply (pointsTo_share (PosShare.mem_left_op_right fullShare)).2
    isplitl [H1l]; · iexact H1l
    iexact H1r
  isplitl [H3l H3r]
  · iapply (pointsTo_share (PosShare.mem_left_op_right fullShare)).2
    isplitl [H3l]; · iexact H3l
    iexact H3r
  isplitl [H16]; · iexact H16
  isplitl [H17]; · iexact H17
  iexact H18

end Shared

section EntryExit

variable (c : Dev nD) (D : Dat τ (Elt F) Unit ℕ (UR sig nD τ) ℕ cfg0 c)

/-- ENTRY, the arrays' part: the core's unscoped buffers at the contents V are the pipeline's arrays at the proof
    data's entry contents (read off V) and the unscoped rest. -/
theorem entry_arrays (hq : D.q = shares) (V : (b : Ref sig .tc) → Buf (Elt F) ((c : Thread nD τ).loc b))
    (hA : ∀ w, D.A w = V (Pipeline.arrRef spec0 w)) :
    (unscopedBufs (Ix := Unit) (Name := ℕ) (U := UR sig nD τ) (Lvl := ℕ) c V : sProp 𝕄)
      ⊢ iprop(D.arrays (D.arrAt · 0) ∗ Pipeline.unscopedRest (Ix := Unit) (Name := ℕ) (U := UR sig nD τ) (Lvl := ℕ) spec0 c V) := by
  rw [Pipeline.unscopedBufs_split₀ cfgs 0 winFacts₀0.arr_unscoped c V]
  exact sep_mono (arrBufs_arrays c D hq V _ hA) .rfl

/-- EXIT, the arrays' part: the pipeline's arrays at their final contents and the unscoped rest as entered are the
    core's unscoped buffers at the contents V', which is V but at the output window's array. -/
theorem exit_arrays (hq : D.q = shares) (V V' : (b : Ref sig .tc) → Buf (Elt F) ((c : Thread nD τ).loc b))
    (hA : ∀ w, D.A w = V (Pipeline.arrRef spec0 w))
    (hout : V' main_v18 = D.arrAt 6 cfg0.N) (hrest : ∀ b, b ≠ main_v18 → V' b = V b) :
    iprop(D.arrays (D.arrAt · cfg0.N) ∗ Pipeline.unscopedRest (Ix := Unit) (Name := ℕ) (U := UR sig nD τ) (Lvl := ℕ) spec0 c V)
      ⊢ (unscopedBufs (Ix := Unit) (Name := ℕ) (U := UR sig nD τ) (Lvl := ℕ) c V' : sProp 𝕄) := by
  rw [Pipeline.unscopedBufs_split₀ cfgs 0 winFacts₀0.arr_unscoped c V']
  refine sep_mono (arrays_arrBufs c D hq V' _ fun w => ?_) (Entails.of_eq ?_)
  · match w with
    | 0 => exact (D.arrAt_in 0 rfl _).trans ((hA 0).trans (hrest main_v1 (by decide)).symm)
    | 1 => exact (D.arrAt_in 1 rfl _).trans ((hA 1).trans (hrest main_v1 (by decide)).symm)
    | 2 => exact (D.arrAt_in 2 rfl _).trans ((hA 2).trans (hrest main_v3 (by decide)).symm)
    | 3 => exact (D.arrAt_in 3 rfl _).trans ((hA 3).trans (hrest main_v3 (by decide)).symm)
    | 4 => exact (D.arrAt_in 4 rfl _).trans ((hA 4).trans (hrest main_v16 (by decide)).symm)
    | 5 => exact (D.arrAt_in 5 rfl _).trans ((hA 5).trans (hrest main_v17 (by decide)).symm)
    | 6 => exact hout.symm
  · unfold Pipeline.unscopedRest
    refine bigSep_congr fun b hb => ?_
    rw [hrest b fun e => (Finset.mem_sdiff.mp hb).2 (e ▸ Finset.mem_image.mpr ⟨6, Finset.mem_univ _, rfl⟩)]

end EntryExit

/-! ## The proof data family and the thread state -/

/-- The prefetched tables' admissible contents: the pipeline has no table. -/
abbrev adm : (p : Fin 1) → (pcfgs (F := F) p).Adm := fun p => (cfgs p).toPCfg_adm
/-- The pipeline's proof data, at the region's entry contents. -/
abbrev pdats : (p : Fin 1) → (c : Dev nD) → Dat τ (Elt F) Unit ℕ (UR sig nD τ) ℕ (Pipeline.pin (pcfgs (F := F)) adm p) c :=
  fun _ c => dat (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- The same before the region: the core's recorded pairs are still none, as the launch deals them. -/
abbrev R₀ (c : Dev nD) : sProp 𝕄 := iprop((∃ r, prngReg c r) ∗ owes (c : Thread nD τ) (0 : CellTallies nD τ sig Unit) ∅)
/-- A host stretch as a segment over the unscoped references from the contents W, R riding along. -/
abbrev hseg (R : Dev nD → sProp 𝕄) (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the owing part: every unscoped buffer at the last boundary's contents, the
    generator register at some state. -/
abbrev Tₙ (c : Dev nD) : sProp 𝕄 := iprop(StableHlo.held (c : Thread nD τ) (Pipeline.ucRefs τ sig) (W11 m dat c) ∗ ∃ r, prngReg c r)

/-! ## The region as a segment -/

section Region

variable (hA : ∀ V c w, (dat V c).A w = V c (Pipeline.arrRef spec0 w))
  (hq : ∀ V c, (dat V c).q = shares)
  (howed : ∀ V c t, (dat V c).owed t = 0)
  (hbody : ∀ V c, Pipeline.BodyObligation (dat V c) (defs₀ (F := F)) Variants.none () Set.univ)
  (hin : ∀ V c, (Pipeline.ΦA (Val := Elt F) (U := UR sig nD τ) spec0 c : sProp (MT nD τ sig Unit (Elt F) ℕ (UR sig nD τ) ℕ)) ⊢ (dat V c).Φ 0)
  (hout : ∀ V c, (dat V c).Φ (Fin.last cfg0.N) ⊢ (Pipeline.ΦA (Val := Elt F) (U := UR sig nD τ) spec0 c : sProp (MT nD τ sig Unit (Elt F) ℕ (UR sig nD τ) ℕ)))
include hA hq howed hbody hin hout

set_option backward.isDefEq.respectTransparency.types false in
/-- The region over the thread state: entered from every unscoped buffer at W3, left at W4. Its arrays are split out
    of the unscoped buffers, the twice-read ones halved, and put back at the exit contents; the generator register
    goes into the class invariant and comes out; nothing is owed; the kernel has no semaphore of its own. -/
def reg0 : Pipeline.RegionSeg (pcfgs (F := F)) adm (pdats m dat) () defs₀ 𝒱₀ L lv 0 where
  win := winFacts₀0
  block_pos := block_pos0
  stage_whole := stage_whole0
  K := PEmpty
  osem k := k.elim
  ho := Pipeline.OwnSemFacts.none _
  hbody c := (hbody (V3 m) c).loose
  hwaits := Pipeline.hwaits_of_owed_zero _ _ _ _ L lv 0 fun c t => howed (V3 m) c t
  pre c := iprop(StableHlo.held (c : Thread nD τ) (Pipeline.ucRefs τ sig) (W3 m c) ∗ R₀ c)
  post c := iprop(StableHlo.held (c : Thread nD τ) (Pipeline.ucRefs τ sig) (W4 m dat c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := entry_arrays c (dat (V3 m) c) (hq (V3 m) c) (V3 m c) (hA (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed (V3 m) c 0]
      iexists ∅; isplitr; · ipureintro; rw [Finset.coe_empty]; exact Set.empty_subset _
      iexact HO
    isplitl [Hp]; · iexact Hp
    iexact Hrest
  hin c := by
    refine BIBase.Entails.trans ?_ (hin (V3 m) c); unfold Pipeline.ΦA
    iintro ⟨Hp, -, Hr⟩
    isplitl [Hr]; · iexact Hr
    iexact Hp
  hout c := by
    rw [Pipeline.ownSems0_none]
    refine (hout (V3 m) c).trans ?_; unfold Pipeline.ΦA
    iintro ⟨Hr, Hp⟩
    isplitl [Hp]; · iexact Hp
    isplitr; · iempintro
    iexact Hr
  hexit c := by
    have hjoin := exit_arrays c (dat (V3 m) c) (hq (V3 m) c) (V3 m c) (fun b => W4 m dat c b) (hA (V3 m) c)
      (W4_main_v18 m dat c) (fun b hb => W4_of_ne m dat c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed (V3 m) c (Fin.last cfg0.N)]
    icases HO with ⟨%W, -, HO⟩; iexists W; iexact HO

/-! ## @main as segments, and the launch -/

/-- @main's 11 segments in order: a host segment per stretch from its boundary's contents, the region. -/
abbrev segs : List (Pipeline.Seg (pcfgs (F := F)) adm (pdats m dat) () defs₀ 𝒱₀ L lv) :=
  [ .host (hseg R₀ hostOps0 hostOps0_sub hostOps0_fresh (W0 m)),
    .host (hseg R₀ hostOps0_1 hostOps0_1_sub hostOps0_1_fresh (W1 m)),
    .host (hseg R₀ hostOps0_2 hostOps0_2_sub hostOps0_2_fresh (W2 m)),
    .region (reg0 m dat hA hq howed hbody hin hout),
    .host (hseg R hostOps1 hostOps1_sub hostOps1_fresh (W4 m dat)),
    .host (hseg R hostOps1_1 hostOps1_1_sub hostOps1_1_fresh (W5 m dat)),
    .host (hseg R hostOps1_2 hostOps1_2_sub hostOps1_2_fresh (W6 m dat)),
    .host (hseg R hostOps1_3 hostOps1_3_sub hostOps1_3_fresh (W7 m dat)),
    .host (hseg R hostOps1_4 hostOps1_4_sub hostOps1_4_fresh (W8 m dat)),
    .host (hseg R hostOps1_5 hostOps1_5_sub hostOps1_5_fresh (W9 m dat)),
    .host (hseg R hostOps1_6 hostOps1_6_sub hostOps1_6_fresh (W10 m dat)) ]

/-- @main is the run of the segments. -/
theorem main_run (c : Dev nD) : main (F := F) c = Pipeline.Seg.run (segs m dat hA hq howed hbody hin hout) :=
  (main_chain c).trans (by chain_rfl)

end Region

end Launch

set_option backward.isDefEq.respectTransparency.types false in
/-- THE LAUNCH: from any memory with zero counters, every weakly fair execution of @main on the TensorCores
    terminates, nothing faulting, and every final state holds each unscoped buffer at the last boundary's contents. -/
theorem run_main
    (hA : ∀ V c w, (dat V c).A w = V c (Pipeline.arrRef spec0 w))
    (hq : ∀ V c, (dat V c).q = shares)
    (howed : ∀ V c t, (dat V c).owed t = 0)
    (hbody : ∀ V c, Pipeline.BodyObligation (dat V c) (defs₀ (F := F)) Variants.none () Set.univ)
    (hin : ∀ V c, (Pipeline.ΦA (Val := Elt F) (U := UR sig nD τ) spec0 c : sProp 𝕄) ⊢ (dat V c).Φ 0)
    (hout : ∀ V c, (dat V c).Φ (Fin.last cfg0.N) ⊢ (Pipeline.ΦA (Val := Elt F) (U := UR sig nD τ) spec0 c : sProp 𝕄)) :
    θ_run defs (onTc (τ := τ) (main (F := F))) ⟨m, fun _ => 0, ρ⟩
      (fun r => ∀ c : Dev nD, ∀ b ∈ Pipeline.ucRefs τ sig, r.2.mem ((c : Thread nD τ).1, b) = W11 m dat c b) :=
  Pipeline.θ_run_regions_kit (pcfgs (F := F)) Launch.adm (Launch.pdats m dat) () cellOf_inj emb₁ defs₀ Launch.𝒱₀ Launch.L Launch.lv m ρ main
    (Launch.segs m dat hA hq howed hbody hin hout)
    (fun c Q => by rw [Launch.main_run m dat hA hq howed hbody hin hout c])
    (by simp only [Launch.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Launch.R₀ c)) (Tₙ := Launch.Tₙ m dat)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m dat c) ∗ Launch.R c)
          ⊢ iprop(Launch.Tₙ m dat c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach Launch.L Launch.lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = W11 m dat c b)
    (hfin := fun c s' => by
      iintro ⟨⟨Hh, -⟩, HSI⟩
      unfold StableHlo.held
      imodintro
      iapply (pointsTo_read_all (Pipeline.ucRefs τ sig) (fun b => (((c : Thread nD τ)).1, b)) (W11 m dat c) s')
      isplitl [Hh] <;> iassumption)
    (hQ := fun s h c => h c)

end Cert.KernelIdeal.Hand

end
-- ==== Proof.KI.Frame.lean ====
/-
  The kernel program's run with the pipeline's proof data in place, at any float instance: every weakly fair execution
  of @main terminates with each unscoped buffer at the last valuation of the fold through @main, and in particular the
  four argument arrays end as launched (no host line and no write-back of the region touches them).
-/
import proofs.«178334_j34394098106946_1_alg».proof.Proof.KI.Body
import proofs.«178334_j34394098106946_1_alg».proof.Proof.KI.Launch

noncomputable section

namespace Cert.KernelIdeal.Hand

open Idealize.ShloMosaic Idealize.ShloMosaic.TcCoe
open Idealize.SL Idealize.SL.Sem
open Cert.KernelIdeal

variable {F : FTy → Type} [FloatOps F]
variable (m : (ℓ : Loc nD τ sig) → Buf (Elt F) ℓ) (ρ : Dev nD → PrngReg)

/-- The proof data hold each of the two arrays that two windows read half and half, the others whole. -/
theorem dats_q (V : EntryV (F := F)) (c : Dev nD) : (dats V c).q = shares :=
  funext fun w => by
    match w with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl

/-- Every weakly fair execution of @main ends with each unscoped buffer at the fold's last valuation. -/
theorem run : θ_run (defs (F := F)) (onTc (τ := τ) (main (F := F))) ⟨m, fun _ => 0, ρ⟩
    (fun r => ∀ c : Dev nD, ∀ b ∈ Pipeline.ucRefs τ sig, r.2.mem ((c : Thread nD τ).1, b) = W11 m (fun V c => dats V c) c b) :=
  run_main m ρ (fun V c => dats V c) (fun V c w => A_eq V c w) (fun V c => dats_q V c) (fun V c t => owed_eq V c t)
    (fun V c => body_obligation V c) (fun V c => hin V c) (fun V c => hout V c)

/-- The four argument arrays end as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := F)) _ _).mono (fun r h c =>
    ⟨(h c _ (mem_uc main_arg0 (by decide))).trans (W11_main_arg0 m _ c),
     (h c _ (mem_uc main_arg1 (by decide))).trans (W11_main_arg1 m _ c),
     (h c _ (mem_uc main_arg2 (by decide))).trans (W11_main_arg2 m _ c),
     (h c _ (mem_uc main_arg3 (by decide))).trans (W11_main_arg3 m _ c)⟩) (run m ρ)

end Cert.KernelIdeal.Hand

end
-- ==== Proof.Mmd.Spec.lean ====
/-
  The masked pairwise kernel matrix and its row sums, as one function on the extended reals.

  For two feature matrices `P, T : [4096, 128]` and segment ids `s : [4096]`, entry `(i, k)` of the matrix is
  `kern (dist P P i k) (dist T T i k) (dist P T i k)` when `s i = s k` and `0` otherwise, where
  `dist X Y i k = |X i|² + |Y k|² − 2 ⟨X i, Y k⟩` and `kern` adds, bandwidth by bandwidth,
  `exp (w·x) + exp (w·y) − 2 exp (w·z)` for the six factors `w` the programs spell as binary32 words. Row `i` sums to
  `rowSum P T s i = ∑ₖ entry i k`. A sum over the 4096 columns is the sum over 8 tiles of 512 columns of the tile's sum:
  the extended reals are a commutative monoid under addition, so this needs no finiteness.
-/
import Idealize.ShloMosaic.PureOps.Ideal.Laws
import Idealize.ShloMosaic.Lib.ValueIdx

noncomputable section

namespace Cert.Mmd

open Idealize.ShloMosaic Idealize.ShloMosaic.ValueIdx

/-- A feature matrix: 4096 rows of 128 features. -/
abbrev Mat : Type := (⟨2, ![4096, 128]⟩ : Shape).Idx → EReal
/-- Segment ids, one word per row. -/
abbrev Ids : Type := (⟨1, ![4096]⟩ : Shape).Idx → BitVec 32

/-- The factor 2 of the cross term, as the programs spell it. -/
def two : EReal := Ideal.ofBits .f32 0x40000000#32
/-- The six factors `−1/(2σ)`, σ = 2, 5, 10, 20, 40, 60, each the exact value of its binary32 word. -/
def w1 : EReal := Ideal.ofBits .f32 0xBE800000#32
def w2 : EReal := Ideal.ofBits .f32 0xBDCCCCCD#32
def w3 : EReal := Ideal.ofBits .f32 0xBD4CCCCD#32
def w4 : EReal := Ideal.ofBits .f32 0xBCCCCCCD#32
def w5 : EReal := Ideal.ofBits .f32 0xBC4CCCCD#32
def w6 : EReal := Ideal.ofBits .f32 0xBC088889#32

/-- The squared norm of row `i`. -/
def sq (X : Mat) (i : Fin 4096) : EReal := ∑ d : Fin 128, X (ix2 i d) * X (ix2 i d)
/-- The inner product of row `i` of `X` with row `k` of `Y`. -/
def gram (X Y : Mat) (i k : Fin 4096) : EReal := ∑ d : Fin 128, X (ix2 i d) * Y (ix2 k d)
/-- The squared distance of row `i` of `X` from row `k` of `Y`, expanded. -/
def dist (X Y : Mat) (i k : Fin 4096) : EReal := sq X i + sq Y k - two * gram X Y i k

/-- One bandwidth's three exponentials added to a running value `a`. -/
def band (w a x y z : EReal) : EReal := a + Ideal.exp (w * x) + Ideal.exp (w * y) - two * Ideal.exp (w * z)
/-- The six bandwidths in order, from zero. -/
def kern (x y z : EReal) : EReal :=
  band w6 (band w5 (band w4 (band w3 (band w2 (band w1 0 x y z) x y z) x y z) x y z) x y z) x y z

/-- Entry `(i, k)` of the masked matrix. -/
def entry (P T : Mat) (s : Ids) (i k : Fin 4096) : EReal :=
  Scalar.select (IntOp.cmpi .eq (s (ix1 i)) (s (ix1 k))) (kern (dist P P i k) (dist T T i k) (dist P T i k)) 0

/-- The sum of row `i`. -/
def rowSum (P T : Mat) (s : Ids) (i : Fin 4096) : EReal := ∑ k : Fin 4096, entry P T s i k

/-- Column `l` of tile `j`. -/
def col (j : Fin 8) (l : Fin 512) : Fin 4096 := ⟨512 * j.val + l.val, by omega⟩

/-- A sum over the columns is the sum over the tiles of each tile's sum. -/
theorem sum_tiles {M : Type} [AddCommMonoid M] (f : Fin 4096 → M) : ∑ k : Fin 4096, f k = ∑ j : Fin 8, ∑ l : Fin 512, f (col j l) := by
  rw [← Fintype.sum_prod_type']
  refine (Fintype.sum_equiv (finProdFinEquiv (m := 8) (n := 512)) (fun x : Fin 8 × Fin 512 => f (col x.1 x.2))
    (fun k : Fin (8 * 512) => f k) fun x => ?_).symm
  exact congrArg f (Fin.ext (by simp only [col, finProdFinEquiv_apply_val]; omega))

/-- The row sum tile by tile. -/
theorem rowSum_tiles (P T : Mat) (s : Ids) (i : Fin 4096) :
    rowSum P T s i = ∑ j : Fin 8, ∑ l : Fin 512, entry P T s i (col j l) := sum_tiles _

end Cert.Mmd

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.KI.ValueTile.lean ====
/-
  The pairwise body's arithmetic read at an index, over the extended reals.

  For row tiles `x0, x2`, column tiles `x1, x3`, the rows' ids `si`, the columns' ids `sj` and an accumulator `acc`,
  entry `(p, 0)` of `tile` is `acc (p, 0)` plus the sum over the 512 lanes `l` of the masked kernel value
  `kern (D x0 x1 p l) (D x2 x3 p l) (D x0 x3 p l)`, where `D a b p l = |a p|² + |b l|² − 2 ⟨a p, b l⟩`.
-/
import proofs.«178334_j34394098106946_1_alg».proof.Proof.KI.Defs
import proofs.«178334_j34394098106946_1_alg».proof.Proof.Mmd.Spec
import proofs.«178334_j34394098106946_1_alg».proof.Proof.LibRowwise
import Idealize.ShloMosaic.Lib.ValueLayout

noncomputable section

namespace Cert.KernelIdeal.Hand

open Idealize.ShloMosaic Idealize.ShloMosaic.ValueIdx
open Cert.KernelIdeal Cert.KernelIdeal.Gen

/-- The squared distance of row `p` of the tile `a` from row `l` of the tile `b`, expanded. -/
def dst (a b : FVec Ideal S512x128 .f32) (p l : Fin 512) : EReal :=
  (∑ d : Fin 128, a (ix2 p d) * a (ix2 p d)) + (∑ d : Fin 128, b (ix2 l d) * b (ix2 l d))
    - Cert.Mmd.two * ∑ d : Fin 128, a (ix2 p d) * b (ix2 l d)

/-! ## Layout operations at an index -/

/-- The transpose of a rank-2 vector reads, at `(i, j)`, the operand at `(j, i)`. -/
theorem transpose2_apply {A B : Nat} {α : Type} (v : (⟨2, ![A, B]⟩ : Shape).Idx → α)
    (h : (⟨2, ![A, B]⟩ : Shape).Transposes [1, 0] ⟨2, ![B, A]⟩) (i : Fin B) (j : Fin A) :
    transpose ⟨2, ![B, A]⟩ [1, 0] v h (ix2 i j) = v (ix2 j i) :=
  transpose_apply [1, 0] v h (ix2 i j) (ix2 j i) fun b => by
    match b with
    | ⟨0, _⟩ => rfl
    | ⟨1, _⟩ => rfl

/-- A product `[M, K] × [K, N]` with no batch axes into the zero word, at `(p, q)`. -/
theorem matmul_zero_apply {M K N : Nat} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (a : FVec Ideal ⟨2, ![M, K]⟩ φ₁) (b : FVec Ideal ⟨2, ![K, N]⟩ φ₂) (p : Fin M) (q : Fin N) :
    matmul D prec a b (constant (F := Ideal) ⟨2, ![M, N]⟩ .f32 0x00000000#32) (ix2 p q) = ∑ k : Fin K, a (ix2 p k) * b (ix2 k q) := by
  have e := Cert.Lib.Rowwise.eq_plain D h1 h2 h3 h4 h5 h6
  subst e
  exact Cert.Lib.Rowwise.plain_matmul_zero_apply prec a b p q

/-! ## The norms and the products -/

/-- The squared norm of row `p`, as a column. -/
theorem rowNorm_apply (x : FVec Ideal S512x128 .f32) (p : Fin 512) (u : Fin 1) :
    shapeCast S512x1 (multiReduction (F := Ideal) .add [1] S512 (mulf x x) 0x00000000#32 reduces_S512x128_S512 (.inl rfl) rfl)
      shapeCasts_S512_S512x1 (ix2 p u) = ∑ d : Fin 128, x (ix2 p d) * x (ix2 p d) := by
  refine (Cert.Lib.Rowwise.column_apply _ _ p u).trans ?_
  exact Cert.Lib.Rowwise.laneSum_apply (mulf x x) 0x00000000#32 reduces_S512x128_S512 (.inl rfl) rfl p

theorem pay3_eq (x : FVec Ideal S512x128 .f32) : k0_pay3 (F := Ideal) x = x := shapeCast_self _ _
theorem pay4_eq (x : FVec Ideal S512x128 .f32) : k0_pay4 (F := Ideal) x = x := shapeCast_self _ _
theorem pay5_eq (x : FVec Ideal S512x128 .f32) : k0_pay5 (F := Ideal) x = x := shapeCast_self _ _
theorem pay6_eq (x : FVec Ideal S512x128 .f32) : k0_pay6 (F := Ideal) x = x := shapeCast_self _ _

theorem pay7_apply (x : FVec Ideal S512x128 .f32) (p : Fin 512) (u : Fin 1) :
    k0_pay7 (F := Ideal) x (ix2 p u) = ∑ d : Fin 128, x (ix2 p d) * x (ix2 p d) := by
  unfold k0_pay7
  rw [pay3_eq]
  exact rowNorm_apply x p u

theorem pay8_apply (x : FVec Ideal S512x128 .f32) (p : Fin 512) (u : Fin 1) :
    k0_pay8 (F := Ideal) x (ix2 p u) = ∑ d : Fin 128, x (ix2 p d) * x (ix2 p d) := by
  unfold k0_pay8
  rw [pay5_eq]
  exact rowNorm_apply x p u

theorem pay9_apply (x : FVec Ideal S512x128 .f32) (u : Fin 1) (l : Fin 512) :
    k0_pay9 (F := Ideal) x (ix2 u l) = ∑ d : Fin 128, x (ix2 l d) * x (ix2 l d) := by
  unfold k0_pay9
  rw [pay6_eq]
  refine (transpose2_apply _ _ u l).trans ?_
  exact rowNorm_apply x l u

/-- A product of a row tile with the transpose of a column tile, the roundings to the narrower format exact. -/
theorem gram_apply (a b : FVec Ideal S512x128 .f32) (p l : Fin 512) :
    matmul dot_S512x128_S128x512_S512x512_1_0_0_1_n_n none (truncf .bf16 a bitsLt_bf16_f32)
        (transpose S128x512 [1, 0] (truncf .bf16 b bitsLt_bf16_f32) transposes_S512x128_p1_0_S128x512)
        (constant (F := Ideal) S512x512 .f32 0x00000000#32) (ix2 p l)
      = ∑ d : Fin 128, a (ix2 p d) * b (ix2 l d) := by
  refine (matmul_zero_apply dot_S512x128_S128x512_S512x512_1_0_0_1_n_n rfl rfl rfl rfl rfl rfl none _ _ p l).trans ?_
  refine Finset.sum_congr rfl fun d _ => ?_
  exact congrArg (fun z => a (ix2 p d) * z) (transpose2_apply _ _ d l)

theorem pay12_apply (x0 x1 : FVec Ideal S512x128 .f32) (p l : Fin 512) :
    k0_pay12 (F := Ideal) x0 x1 (ix2 p l) = ∑ d : Fin 128, x0 (ix2 p d) * x1 (ix2 l d) := by
  unfold k0_pay12 k0_pay10
  rw [pay3_eq, pay4_eq]
  exact gram_apply x0 x1 p l

theorem pay13_apply (x2 x3 : FVec Ideal S512x128 .f32) (p l : Fin 512) :
    k0_pay13 (F := Ideal) x2 x3 (ix2 p l) = ∑ d : Fin 128, x2 (ix2 p d) * x3 (ix2 l d) := by
  unfold k0_pay13 k0_pay11
  rw [pay5_eq, pay6_eq]
  exact gram_apply x2 x3 p l

theorem pay14_apply (x0 x3 : FVec Ideal S512x128 .f32) (p l : Fin 512) :
    k0_pay14 (F := Ideal) x0 x3 (ix2 p l) = ∑ d : Fin 128, x0 (ix2 p d) * x3 (ix2 l d) := by
  unfold k0_pay14 k0_pay10 k0_pay11
  rw [pay3_eq, pay6_eq]
  exact gram_apply x0 x3 p l

/-! ## The three distance blocks -/

/-- A column plus a row, both broadcast to the block, at `(p, l)`. -/
theorem colPlusRow_apply (cv : FVec Ideal S512x1 .f32) (rv : FVec Ideal S1x512 .f32) (p l : Fin 512) :
    addf (broadcastTo S512x512 cv broadcasts_S512x1_S512x512) (broadcastTo S512x512 rv broadcasts_S1x512_S512x512) (ix2 p l)
      = cv (ix2 p 0) + rv (ix2 0 l) := by
  show broadcastTo S512x512 cv broadcasts_S512x1_S512x512 (ix2 p l) + broadcastTo S512x512 rv broadcasts_S1x512_S512x512 (ix2 p l) = _
  rw [Cert.Lib.Rowwise.columnBroadcast_apply cv _ (by decide) p l, broadcastTo_1b_ab_apply rv _ p l]

theorem pay15_apply (x0 x1 : FVec Ideal S512x128 .f32) (p l : Fin 512) :
    k0_pay15 (F := Ideal) x0 x1 (ix2 p l)
      = (∑ d : Fin 128, x0 (ix2 p d) * x0 (ix2 p d)) + ∑ d : Fin 128, x1 (ix2 l d) * x1 (ix2 l d) := by
  unfold k0_pay15
  rw [pay4_eq]
  refine (colPlusRow_apply _ _ p l).trans ?_
  rw [pay7_apply, transpose2_apply, rowNorm_apply]

theorem pay17_apply (x0 x1 : FVec Ideal S512x128 .f32) (p l : Fin 512) :
    k0_pay17 (F := Ideal) (k0_pay12 x0 x1) (k0_pay15 x0 x1) k0_pay16 (ix2 p l) = dst x0 x1 p l := by
  show k0_pay15 (F := Ideal) x0 x1 (ix2 p l) - k0_pay16 (F := Ideal) (ix2 p l) * k0_pay12 (F := Ideal) x0 x1 (ix2 p l) = _
  rw [pay15_apply, pay12_apply]
  rfl

theorem pay18_apply (x2 x3 : FVec Ideal S512x128 .f32) (p l : Fin 512) :
    k0_pay18 (F := Ideal) (k0_pay8 x2) (k0_pay9 x3) (k0_pay13 x2 x3) (ix2 p l) = dst x2 x3 p l := by
  unfold k0_pay18
  show addf (broadcastTo S512x512 (k0_pay8 (F := Ideal) x2) broadcasts_S512x1_S512x512)
      (broadcastTo S512x512 (k0_pay9 (F := Ideal) x3) broadcasts_S1x512_S512x512) (ix2 p l)
      - Cert.Mmd.two * k0_pay13 (F := Ideal) x2 x3 (ix2 p l) = _
  rw [colPlusRow_apply, pay8_apply, pay9_apply, pay13_apply]
  rfl

theorem pay19_apply (x0 x3 : FVec Ideal S512x128 .f32) (p l : Fin 512) :
    k0_pay19 (F := Ideal) (k0_pay7 x0) (k0_pay9 x3) (k0_pay14 x0 x3) (ix2 p l) = dst x0 x3 p l := by
  unfold k0_pay19
  show addf (broadcastTo S512x512 (k0_pay7 (F := Ideal) x0) broadcasts_S512x1_S512x512)
      (broadcastTo S512x512 (k0_pay9 (F := Ideal) x3) broadcasts_S1x512_S512x512) (ix2 p l)
      - Cert.Mmd.two * k0_pay14 (F := Ideal) x0 x3 (ix2 p l) = _
  rw [colPlusRow_apply, pay7_apply, pay9_apply, pay14_apply]
  rfl

/-! ## The six bandwidths, the mask and the lane sum -/

/-- The six bandwidths in order from a starting value. -/
def kernFrom (z0 x y z : EReal) : EReal :=
  Cert.Mmd.band Cert.Mmd.w6 (Cert.Mmd.band Cert.Mmd.w5 (Cert.Mmd.band Cert.Mmd.w4 (Cert.Mmd.band Cert.Mmd.w3
    (Cert.Mmd.band Cert.Mmd.w2 (Cert.Mmd.band Cert.Mmd.w1 z0 x y z) x y z) x y z) x y z) x y z) x y z

theorem kernFrom_zero (x y z : EReal) : kernFrom 0 x y z = Cert.Mmd.kern x y z := rfl

/-- The pointwise part of the body: the six bandwidths over the three distance blocks, element by element. -/
theorem chain_apply (v13 v20 : FVec Ideal S512x1 .f32) (v24 : FVec Ideal S1x512 .f32)
    (v30 v32 v34 v37 v38 : FVec Ideal S512x512 .f32) (j : S512x512.Idx) :
    k0_pay21 (F := Ideal) (k0_pay17 v30 v37 v38) (k0_pay18 v20 v24 v32) (k0_pay19 v13 v24 v34)
        (k0_pay20 v13 v20 v24 v30 v32 v34 v37 v38) (Scalar.ofBits .f32 0xBD4CCCCD#32) j
      - Cert.Mmd.two * Ideal.exp (k0_pay22 (F := Ideal) j * k0_pay19 (F := Ideal) v13 v24 v34 j)
    = kernFrom (Ideal.ofBits .f32 0x00000000#32) (k0_pay17 (F := Ideal) v30 v37 v38 j) (k0_pay18 (F := Ideal) v20 v24 v32 j)
        (k0_pay19 (F := Ideal) v13 v24 v34 j) := by
  unfold k0_pay21 k0_pay20 k0_pay22 kernFrom Cert.Mmd.band Cert.Mmd.w1 Cert.Mmd.w2 Cert.Mmd.w3 Cert.Mmd.w4 Cert.Mmd.w5 Cert.Mmd.w6 Cert.Mmd.two
  rfl

/-- The mask at `(p, l)`: the row's id against the column's. -/
theorem mask_apply (si : IVec S512x1 32) (sj : IVec S1x512 32) (p l : Fin 512) :
    cmpi .eq (broadcastTo S512x512 (shapeCast S512x1 si shapeCasts_S512x1_S512x1) broadcasts_S512x1_S512x512)
        (broadcastTo S512x512 (shapeCast S1x512 sj shapeCasts_S1x512_S1x512) broadcasts_S1x512_S512x512) (ix2 p l)
      = IntOp.cmpi .eq (si (ix2 p 0)) (sj (ix2 0 l)) := by
  show IntOp.cmpi .eq (broadcastTo S512x512 (shapeCast S512x1 si shapeCasts_S512x1_S512x1) broadcasts_S512x1_S512x512 (ix2 p l))
      (broadcastTo S512x512 (shapeCast S1x512 sj shapeCasts_S1x512_S1x512) broadcasts_S1x512_S512x512 (ix2 p l)) = _
  rw [shapeCast_self, shapeCast_self, Cert.Lib.Rowwise.columnBroadcast_apply si _ (by decide) p l, broadcastTo_1b_ab_apply sj _ p l]

/-- The last bandwidth's cross term, the mask, the lane sum and the add, at row `p`. -/
theorem pay1_apply (v52 v131 v132 : FVec Ideal S512x512 .f32) (si : IVec S512x1 32) (sj : IVec S1x512 32)
    (acc : FVec Ideal S512x1 .f32) (p : Fin 512) (u : Fin 1) :
    k0_pay1 (F := Ideal) v52 v131 v132 si sj acc (ix2 p u)
      = acc (ix2 p u) + ∑ l : Fin 512, Scalar.select (IntOp.cmpi .eq (si (ix2 p 0)) (sj (ix2 0 l)))
          (v131 (ix2 p l) - Cert.Mmd.two * Ideal.exp (v132 (ix2 p l) * v52 (ix2 p l))) (Ideal.ofBits .f32 0x00000000#32) := by
  unfold k0_pay1
  refine (congrFun (shapeCast_self _ _) (ix2 p u)).trans ?_
  refine congrArg (fun z => acc (ix2 p u) + z) ?_
  refine (Cert.Lib.Rowwise.column_apply _ _ p u).trans ?_
  refine (Cert.Lib.Rowwise.laneSum_apply _ 0x00000000#32 reduces_S512x512_S512 (.inl rfl) rfl p).trans ?_
  refine Finset.sum_congr rfl fun l _ => ?_
  exact congrArg (fun m => Scalar.select m (v131 (ix2 p l) - Cert.Mmd.two * Ideal.exp (v132 (ix2 p l) * v52 (ix2 p l)))
    (Ideal.ofBits .f32 0x00000000#32)) (mask_apply si sj p l)

/-- The reset accumulator is zero everywhere. -/
theorem acc0_apply (p : Fin 512) (u : Fin 1) : (acc0 (F := Ideal)) (ix2 p u) = 0 := by
  unfold acc0 k0_pay2
  refine (congrFun (shapeCast_self _ _) (ix2 p u)).trans ?_
  exact Ideal.ofBits_zero_f32

/-- One point's arithmetic at row `p`: the accumulator plus the masked lane sum of the kernel values. -/
theorem tile_apply (x0 x1 x2 x3 : FVec Ideal S512x128 .f32) (si : IVec S512x1 32) (sj : IVec S1x512 32)
    (acc : FVec Ideal S512x1 .f32) (p : Fin 512) (u : Fin 1) :
    tile (F := Ideal) x0 x1 x2 x3 si sj acc (ix2 p u)
      = acc (ix2 p u) + ∑ l : Fin 512, Scalar.select (IntOp.cmpi .eq (si (ix2 p 0)) (sj (ix2 0 l)))
          (Cert.Mmd.kern (dst x0 x1 p l) (dst x2 x3 p l) (dst x0 x3 p l)) 0 := by
  unfold tile
  refine (pay1_apply _ _ _ si sj acc p u).trans ?_
  refine congrArg (fun z => acc (ix2 p u) + z) (Finset.sum_congr rfl fun l _ => ?_)
  rw [Ideal.ofBits_zero_f32]
  refine congrArg (fun z => Scalar.select (IntOp.cmpi .eq (si (ix2 p 0)) (sj (ix2 0 l))) z 0) ?_
  refine (chain_apply (k0_pay7 x0) (k0_pay8 x2) (k0_pay9 x3) (k0_pay12 x0 x1) (k0_pay13 x2 x3) (k0_pay14 x0 x3)
    (k0_pay15 x0 x1) k0_pay16 (ix2 p l)).trans ?_
  rw [pay17_apply, pay18_apply, pay19_apply, Ideal.ofBits_zero_f32]
  rfl

end Cert.KernelIdeal.Hand

end
-- ==== Proof.KI.ValueAcc.lean ====
/-
  The accumulator of the pairwise body along a row tile, as sums of the specification's entries.

  Point `t = 8 i + j` reads rows `512 i + a` of both matrices (windows 0, 2), rows `512 j + a` of both (windows 1, 3),
  the ids of rows `512 i + a` (window 4) and of columns `512 j + b` (window 5). So one point adds to the accumulator, at
  row `p`, the entries `(512 i + p, 512 j + l)` over the 512 lanes `l`; the accumulator after point `t` holds the sum of
  the row's entries over the column tiles `0 … j`, and after `j = 7` the whole row sum.
-/
import proofs.«178334_j34394098106946_1_alg».proof.Proof.KI.ValueTile
import Idealize.ShloMosaic.Lib.Pipeline.Value

noncomputable section

namespace Cert.KernelIdeal.Hand

open Idealize.ShloMosaic Idealize.ShloMosaic.ValueIdx Idealize.ShloMosaic.TcCoe
open Idealize.ShloMosaic.Pipeline (Dat Cfg Window)
open Cert.KernelIdeal Cert.KernelIdeal.Gen

variable (V : EntryV (F := Ideal))

/-- A point of the grid is below 64. -/
theorem lt64 (t : Fin cfg0.N) : t.val < 64 := by
  have h : cfg0.N = 64 := N_0
  have := t.isLt
  omega

/-- Row `a` of the row tile of point `t` (tile `t / 8`), in the matrices. -/
def rowAt (t : Fin cfg0.N) (a : Fin 512) : Fin 4096 := ⟨512 * (t.val / 8) + a.val, by have := lt64 t; omega⟩

/-- The column tile of point `t`: `t % 8`. -/
def tj (t : Fin cfg0.N) : Fin 8 := ⟨t.val % 8, Nat.mod_lt _ (by decide)⟩

/-- The first matrix, the second, the ids as a column and as a row, as the region finds them. -/
abbrev matP (c : Dev nD) : Cert.Mmd.Mat := V c main_v1
abbrev matT (c : Dev nD) : Cert.Mmd.Mat := V c main_v3
abbrev idsC (c : Dev nD) : IVec S4096x1 32 := V c main_v16
abbrev idsR (c : Dev nD) : IVec S1x4096 32 := V c main_v17

/-- The sum of row `r`'s entries over column tile `j` (zero past the eight tiles). -/
def tsum (P T : Cert.Mmd.Mat) (s : Cert.Mmd.Ids) (r : Fin 4096) (j : ℕ) : EReal :=
  if h : j < 8 then ∑ l : Fin 512, Cert.Mmd.entry P T s r (Cert.Mmd.col ⟨j, h⟩ l) else 0

/-! ## The block index of each window at a point -/

theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem idx3 : ∀ t : Fin cfg0.N, win0_3.index t (0 : Fin 2) = t.val % 8 ∧ win0_3.index t (1 : Fin 2) = 0 :=
  (by decide +kernel : ∀ t : Fin grid0.N, win0_3.index t (0 : Fin 2) = t.val % 8 ∧ win0_3.index t (1 : Fin 2) = 0)
theorem idx4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)
theorem idx5 : ∀ t : Fin cfg0.N, win0_5.index t (0 : Fin 2) = 0 ∧ win0_5.index t (1 : Fin 2) = t.val % 8 :=
  (by decide +kernel : ∀ t : Fin grid0.N, win0_5.index t (0 : Fin 2) = 0 ∧ win0_5.index t (1 : Fin 2) = t.val % 8)
theorem idx6 : ∀ t : Fin cfg0.N, win0_6.index t (0 : Fin 2) = t.val / 8 ∧ win0_6.index t (1 : Fin 2) = 0 :=
  (by decide +kernel : ∀ t : Fin grid0.N, win0_6.index t (0 : Fin 2) = t.val / 8 ∧ win0_6.index t (1 : Fin 2) = 0)

/-! ## The blocks read where the arrays say -/

theorem iblk0_apply (c : Dev nD) (t : Fin cfg0.N) (a : Fin 512) (b : Fin 128) :
    (iblk V c 0 t : FVec Ideal S512x128 .f32) (ix2 a b) = matP V c (ix2 (rowAt t a) b) := by
  unfold iblk
  show V c main_v1 (((cfg0.win 0).blk t).view.emb (ix2 a b)) = V c main_v1 (ix2 (rowAt t a) b)
  refine congrArg (V c main_v1) (funext fun ax => Fin.ext ?_)
  match ax with
  | ⟨0, _⟩ => show win0_0.index t 0 * 512 + 1 * a.val = 512 * (t.val / 8) + a.val; rw [(idx0 t).1]; omega
  | ⟨1, _⟩ => show win0_0.index t 1 * 128 + 1 * b.val = b.val; rw [(idx0 t).2]; omega

theorem iblk1_apply (c : Dev nD) (t : Fin cfg0.N) (a : Fin 512) (b : Fin 128) :
    (iblk V c 1 t : FVec Ideal S512x128 .f32) (ix2 a b) = matP V c (ix2 (Cert.Mmd.col (tj t) a) b) := by
  unfold iblk
  show V c main_v1 (((cfg0.win 1).blk t).view.emb (ix2 a b)) = V c main_v1 (ix2 (Cert.Mmd.col (tj t) a) b)
  refine congrArg (V c main_v1) (funext fun ax => Fin.ext ?_)
  match ax with
  | ⟨0, _⟩ => show win0_1.index t 0 * 512 + 1 * a.val = 512 * (t.val % 8) + a.val; rw [(idx1 t).1]; omega
  | ⟨1, _⟩ => show win0_1.index t 1 * 128 + 1 * b.val = b.val; rw [(idx1 t).2]; omega

theorem iblk2_apply (c : Dev nD) (t : Fin cfg0.N) (a : Fin 512) (b : Fin 128) :
    (iblk V c 2 t : FVec Ideal S512x128 .f32) (ix2 a b) = matT V c (ix2 (rowAt t a) b) := by
  unfold iblk
  show V c main_v3 (((cfg0.win 2).blk t).view.emb (ix2 a b)) = V c main_v3 (ix2 (rowAt t a) b)
  refine congrArg (V c main_v3) (funext fun ax => Fin.ext ?_)
  match ax with
  | ⟨0, _⟩ => show win0_2.index t 0 * 512 + 1 * a.val = 512 * (t.val / 8) + a.val; rw [(idx2 t).1]; omega
  | ⟨1, _⟩ => show win0_2.index t 1 * 128 + 1 * b.val = b.val; rw [(idx2 t).2]; omega

theorem iblk3_apply (c : Dev nD) (t : Fin cfg0.N) (a : Fin 512) (b : Fin 128) :
    (iblk V c 3 t : FVec Ideal S512x128 .f32) (ix2 a b) = matT V c (ix2 (Cert.Mmd.col (tj t) a) b) := by
  unfold iblk
  show V c main_v3 (((cfg0.win 3).blk t).view.emb (ix2 a b)) = V c main_v3 (ix2 (Cert.Mmd.col (tj t) a) b)
  refine congrArg (V c main_v3) (funext fun ax => Fin.ext ?_)
  match ax with
  | ⟨0, _⟩ => show win0_3.index t 0 * 512 + 1 * a.val = 512 * (t.val % 8) + a.val; rw [(idx3 t).1]; omega
  | ⟨1, _⟩ => show win0_3.index t 1 * 128 + 1 * b.val = b.val; rw [(idx3 t).2]; omega

theorem iblk4_apply (c : Dev nD) (t : Fin cfg0.N) (a : Fin 512) :
    (iblk V c 4 t : IVec S512x1 32) (ix2 a 0) = idsC V c (ix2 (rowAt t a) 0) := by
  unfold iblk
  show V c main_v16 (((cfg0.win 4).blk t).view.emb (ix2 a (0 : Fin 1))) = V c main_v16 (ix2 (rowAt t a) (0 : Fin 1))
  refine congrArg (V c main_v16) (funext fun ax => Fin.ext ?_)
  match ax with
  | ⟨0, _⟩ => show win0_4.index t 0 * 512 + 1 * a.val = 512 * (t.val / 8) + a.val; rw [(idx4 t).1]; omega
  | ⟨1, _⟩ => show win0_4.index t 1 * 1 + 1 * 0 = 0; rw [(idx4 t).2]

theorem iblk5_apply (c : Dev nD) (t : Fin cfg0.N) (b : Fin 512) :
    (iblk V c 5 t : IVec S1x512 32) (ix2 0 b) = idsR V c (ix2 0 (Cert.Mmd.col (tj t) b)) := by
  unfold iblk
  show V c main_v17 (((cfg0.win 5).blk t).view.emb (ix2 (0 : Fin 1) b)) = V c main_v17 (ix2 (0 : Fin 1) (Cert.Mmd.col (tj t) b))
  refine congrArg (V c main_v17) (funext fun ax => Fin.ext ?_)
  match ax with
  | ⟨0, _⟩ => show win0_5.index t 0 * 1 + 1 * 0 = 0; rw [(idx5 t).1]
  | ⟨1, _⟩ => show win0_5.index t 1 * 512 + 1 * b.val = 512 * (t.val % 8) + b.val; rw [(idx5 t).2]; omega

/-! ## One point, and the accumulator along a row tile -/

/-- A distance between two tiles' rows is the distance between the matrices' rows they were read from. -/
theorem dst_eq (a b : FVec Ideal S512x128 .f32) (A B : Cert.Mmd.Mat) (r k : Fin 4096) (p l : Fin 512)
    (ha : ∀ d : Fin 128, a (ix2 p d) = A (ix2 r d)) (hb : ∀ d : Fin 128, b (ix2 l d) = B (ix2 k d)) :
    dst a b p l = Cert.Mmd.dist A B r k := by
  unfold dst Cert.Mmd.dist Cert.Mmd.sq Cert.Mmd.gram
  simp only [ha, hb]

/-- One point adds, at row `p`, the entries of that row over the point's column tile. -/
theorem tileAt_apply (c : Dev nD) (s : Cert.Mmd.Ids) (hsc : ∀ r : Fin 4096, idsC V c (ix2 r 0) = s (ix1 r))
    (hsr : ∀ k : Fin 4096, idsR V c (ix2 0 k) = s (ix1 k)) (t : Fin cfg0.N) (acc : FVec Ideal S512x1 .f32)
    (p : Fin 512) (u : Fin 1) :
    tileAt V c t acc (ix2 p u)
      = acc (ix2 p u) + ∑ l : Fin 512, Cert.Mmd.entry (matP V c) (matT V c) s (rowAt t p) (Cert.Mmd.col (tj t) l) := by
  unfold tileAt
  refine (tile_apply (iblk V c 0 t) (iblk V c 1 t) (iblk V c 2 t) (iblk V c 3 t) (iblk V c 4 t) (iblk V c 5 t) acc p u).trans ?_
  refine congrArg (fun z => acc (ix2 p u) + z) (Finset.sum_congr rfl fun l _ => ?_)
  unfold Cert.Mmd.entry
  rw [iblk4_apply V c t p, iblk5_apply V c t l, hsc, hsr,
    dst_eq (iblk V c 0 t) (iblk V c 1 t) (matP V c) (matP V c) (rowAt t p) (Cert.Mmd.col (tj t) l) p l
      (fun d => iblk0_apply V c t p d) (fun d => iblk1_apply V c t l d),
    dst_eq (iblk V c 2 t) (iblk V c 3 t) (matT V c) (matT V c) (rowAt t p) (Cert.Mmd.col (tj t) l) p l
      (fun d => iblk2_apply V c t p d) (fun d => iblk3_apply V c t l d),
    dst_eq (iblk V c 0 t) (iblk V c 3 t) (matP V c) (matT V c) (rowAt t p) (Cert.Mmd.col (tj t) l) p l
      (fun d => iblk0_apply V c t p d) (fun d => iblk3_apply V c t l d)]

/-- The sum over the column tile of a point. -/
theorem tsum_tj (P T : Cert.Mmd.Mat) (s : Cert.Mmd.Ids) (r : Fin 4096) (t : Fin cfg0.N) :
    tsum P T s r (t.val % 8) = ∑ l : Fin 512, Cert.Mmd.entry P T s r (Cert.Mmd.col (tj t) l) := by
  unfold tsum
  rw [dif_pos (Nat.mod_lt _ (by decide))]
  rfl

/-- After point `n` the accumulator holds, at row `p`, that row's entries over the column tiles `0 … n % 8`. -/
theorem accAt_apply (c : Dev nD) (s : Cert.Mmd.Ids) (hsc : ∀ r : Fin 4096, idsC V c (ix2 r 0) = s (ix1 r))
    (hsr : ∀ k : Fin 4096, idsR V c (ix2 0 k) = s (ix1 k)) : ∀ (n : ℕ) (hn : n < cfg0.N) (p : Fin 512) (u : Fin 1),
    accAt V c n hn (ix2 p u)
      = ∑ j ∈ Finset.range (n % 8 + 1), tsum (matP V c) (matT V c) s (rowAt ⟨n, hn⟩ p) j
  | 0, hn, p, u => by
    have e : accAt V c 0 hn = tileAt V c ⟨0, hn⟩ (acc0 (F := Ideal)) := rfl
    rw [e, tileAt_apply V c s hsc hsr, acc0_apply, zero_add]
    show _ = ∑ j ∈ Finset.range 1, _
    rw [Finset.sum_range_one]
    exact (tsum_tj _ _ s _ ⟨0, hn⟩).symm
  | n + 1, hn, p, u => by
    by_cases h : (n + 1) % 8 = 0
    · have e : accAt V c (n + 1) hn = tileAt V c ⟨n + 1, hn⟩ (acc0 (F := Ideal)) := if_pos h
      rw [e, tileAt_apply V c s hsc hsr, acc0_apply, zero_add, h]
      show _ = ∑ j ∈ Finset.range 1, _
      rw [Finset.sum_range_one, ← tsum_tj _ _ s _ ⟨n + 1, hn⟩]
      exact congrArg _ h
    · have e : accAt V c (n + 1) hn = tileAt V c ⟨n + 1, hn⟩ (accAt V c n (Nat.lt_of_succ_lt hn)) := if_neg h
      have hm : (n + 1) % 8 = n % 8 + 1 := by omega
      have hrow : rowAt ⟨n, Nat.lt_of_succ_lt hn⟩ p = rowAt ⟨n + 1, hn⟩ p :=
        Fin.ext (by show 512 * (n / 8) + p.val = 512 * ((n + 1) / 8) + p.val; omega)
      rw [e, tileAt_apply V c s hsc hsr, accAt_apply c s hsc hsr n (Nat.lt_of_succ_lt hn) p u,
        ← tsum_tj _ _ s _ ⟨n + 1, hn⟩, Finset.sum_range_succ _ ((n + 1) % 8), hrow]
      show _ + tsum _ _ s _ ((n + 1) % 8) = _
      rw [hm]

/-- After the last column tile the accumulator holds the row's whole sum. -/
theorem accAt_last (c : Dev nD) (s : Cert.Mmd.Ids) (hsc : ∀ r : Fin 4096, idsC V c (ix2 r 0) = s (ix1 r))
    (hsr : ∀ k : Fin 4096, idsR V c (ix2 0 k) = s (ix1 k)) (t : Fin cfg0.N) (h7 : t.val % 8 = 7) (p : Fin 512) (u : Fin 1) :
    accAt V c t.val t.isLt (ix2 p u) = Cert.Mmd.rowSum (matP V c) (matT V c) s (rowAt t p) := by
  rw [accAt_apply V c s hsc hsr t.val t.isLt p u, h7, Cert.Mmd.rowSum_tiles, Finset.sum_range]
  refine Finset.sum_congr rfl fun j _ => ?_
  unfold tsum
  rw [dif_pos j.isLt]

end Cert.KernelIdeal.Hand

end
-- ==== Proof.KI.ValueArr.lean ====
/-
  What the pairwise pipeline leaves in its output array: the row sums of the masked kernel matrix.

  The output window's block `(i, 0)` is written back only at the points `8 i + 7`; what is written there is the
  accumulator after the last column tile, the row sums of rows `512 i … 512 i + 511`. Those eight blocks cover the
  `[4096, 1]` array, so it ends at the row sums.
-/
import proofs.«178334_j34394098106946_1_alg».proof.Proof.KI.ValueAcc
import Idealize.ShloMosaic.Lib.Pipeline.Value

noncomputable section

namespace Cert.KernelIdeal.Hand

open Idealize.ShloMosaic Idealize.ShloMosaic.ValueIdx Idealize.ShloMosaic.TcCoe
open Idealize.ShloMosaic.Pipeline (Dat Cfg Window)
open Cert.KernelIdeal Cert.KernelIdeal.Gen

variable (V : EntryV (F := Ideal))

/-- The output array's contents after the run, index by index: the row sum of the index's row. -/
def outG (c : Dev nD) (s : Cert.Mmd.Ids) : FVec Ideal S4096x1 .f32 :=
  fun i => Cert.Mmd.rowSum (matP V c) (matT V c) s (i 0)

/-- What a point that writes back writes: its block of the row sums. -/
theorem out_blk_eq (c : Dev nD) (s : Cert.Mmd.Ids) (hsc : ∀ r : Fin 4096, idsC V c (ix2 r 0) = s (ix1 r))
    (hsr : ∀ k : Fin 4096, idsR V c (ix2 0 k) = s (ix1 k)) (t : Fin cfg0.N) (hf : (cfg0.win 6).flush t = true) :
    (dats (F := Ideal) V c).flushed 6 t = ((cfg0.win 6).blk t).view.read (Elt Ideal) (outG V c s) := by
  have h7 : t.val % 8 = 7 := (flush0_6 t).mp hf
  show (cfg0.win 6).cut (grid0.coords t) ((dats (F := Ideal) V c).after 6 t) = _
  rw [after6]
  refine funext fun (y : S512x1.Idx) => ?_
  obtain ⟨p, u, rfl⟩ : ∃ (p : Fin 512) (u : Fin 1), y = ix2 p u := ⟨y 0, y 1, eq_ix2 y⟩
  show accAt V c t.val t.isLt (ix2 p u) = outG V c s (((cfg0.win 6).blk t).view.emb (ix2 p u))
  rw [accAt_last V c s hsc hsr t h7 p u]
  show _ = Cert.Mmd.rowSum (matP V c) (matT V c) s ((((cfg0.win 6).blk t).view.emb (ix2 p u)) 0)
  refine congrArg (Cert.Mmd.rowSum (matP V c) (matT V c) s) (Fin.ext ?_)
  show 512 * (t.val / 8) + p.val = win0_6.index t 0 * 512 + 1 * p.val
  rw [(idx6 t).1]
  omega

/-- An index of the output array is in point `t`'s block iff each coordinate is in the block's range on its axis. -/
theorem mem_out_blk (t : Fin cfg0.N) (i : S4096x1.Idx) :
    i ∈ ((cfg0.win 6).blk t).view.set
      ↔ ∀ a : Fin 2, win0_6.index t a * S512x1.size a ≤ (i a).val ∧ (i a).val < win0_6.index t a * S512x1.size a + S512x1.size a := by
  show i ∈ ((View.whole main_v18).slice (win0_6.rect t)).set ↔ _
  rw [View.set_slice_whole, Rect.mem_set_unit]
  exact Iff.rfl

/-- Row `r` lies in the block written back at the last column tile of its row tile, point `8 (r / 512) + 7`. -/
theorem out_cover (i : S4096x1.Idx) :
    ∃ t : Fin cfg0.N, (cfg0.win 6).flush t = true ∧ i ∈ ((cfg0.win 6).blk t).view.set := by
  have hi0 : (i 0).val < 4096 := (i 0).isLt
  have hi1 : (i 1).val < 1 := (i 1).isLt
  have hN : cfg0.N = 64 := N_0
  obtain ⟨t, ht⟩ : ∃ t : Fin cfg0.N, t.val = 8 * ((i 0).val / 512) + 7 := ⟨⟨8 * ((i 0).val / 512) + 7, by omega⟩, rfl⟩
  refine ⟨t, (flush0_6 t).mpr (by omega), ?_⟩
  rw [mem_out_blk]
  obtain ⟨e0, e1⟩ := idx6 t
  intro a
  match a with
  | ⟨0, _⟩ =>
    show win0_6.index t (0 : Fin 2) * 512 ≤ (i 0).val ∧ (i 0).val < win0_6.index t (0 : Fin 2) * 512 + 512
    rw [e0]; omega
  | ⟨1, _⟩ =>
    show win0_6.index t (1 : Fin 2) * 1 ≤ (i 1).val ∧ (i 1).val < win0_6.index t (1 : Fin 2) * 1 + 1
    rw [e1]; omega

/-- The output array after the run holds the row sums. -/
theorem out_arr (c : Dev nD) (s : Cert.Mmd.Ids) (hsc : ∀ r : Fin 4096, idsC V c (ix2 r 0) = s (ix1 r))
    (hsr : ∀ k : Fin 4096, idsR V c (ix2 0 k) = s (ix1 k)) :
    (dats (F := Ideal) V c).arrAt 6 cfg0.N = outG V c s :=
  (dats (F := Ideal) V c).arrAt_eq_of_cover 6 (outG V c s) (fun t hf => out_blk_eq V c s hsc hsr t hf) (fun i => out_cover i)

/-- What the pipeline leaves in the output array: at every row, the row sum of the masked kernel matrix of the
    two matrices as the region finds them. -/
theorem out_eq (c : Dev nD) (s : Cert.Mmd.Ids) (hsc : ∀ r : Fin 4096, idsC V c (ix2 r 0) = s (ix1 r))
    (hsr : ∀ k : Fin 4096, idsR V c (ix2 0 k) = s (ix1 k)) (r : Fin 4096) (u : Fin 1) :
    ((dats (F := Ideal) V c).arrAt 6 cfg0.N : FVec Ideal S4096x1 .f32) (ix2 r u)
      = Cert.Mmd.rowSum (matP V c) (matT V c) s r :=
  congrFun (out_arr V c s hsc hsr) (ix2 r u)

end Cert.KernelIdeal.Hand

end
-- ==== Proof.KI.Value.lean ====
/-
  The output of the pairwise pipeline as the specification's row sums: the body at an index (`ValueTile`), the
  accumulator along a row tile (`ValueAcc`), the output array (`ValueArr`).
-/
import proofs.«178334_j34394098106946_1_alg».proof.Proof.KI.ValueArr
-- ==== Proof.Ref.Stages.lean ====
import proofs.«178334_j34394098106946_1_alg».proof.ReferenceIdeal
import proofs.«178334_j34394098106946_1_alg».proof.Proof.Gen.ReferenceIdeal

/-! # The reference's value as five pure stages

The reference program computes, from two feature maps and an integer label map, a mean over the
label segments of a maximum-mean-discrepancy-like quantity.  Each definition below is the composition of
the pure operations the program's lines carry, in program order, one `let` per line:

* `pf`: a feature map `[1,128,64,64]` re-laid as `4096` points of `128` coordinates;
* `seg`: the segment number of each of the `4096` positions: a running count of the places where the
  flattened label changes, a zero put in front;
* `counts`: how many positions each of the `16` segments holds (a scatter-add of ones);
* `rows`: for each position, the sum over the positions of the same segment of the six-bandwidth Gaussian
  kernel combination `k(P,P) + k(T,T) - 2 k(P,T)`, the kernels read off three squared-distance matrices;
* `tail`: the per-segment sums of `rows`, normalised by `max (2 n²) 1`, clamped, square-rooted, and averaged
  over the non-empty segments.
-/

noncomputable section

namespace Cert.ReferenceIdeal.Hand

open Idealize.ShloMosaic Idealize.SL.Sem
open Cert.ReferenceIdeal
open Cert.ReferenceIdeal.Facts₀ Cert.ReferenceIdeal.Facts

variable {F : FTy → Type} [FloatOps F]

/-- A scalar float constant, by its bits. -/
abbrev cst (b : BitVec 32) : FVec F S_ .f32 := constant S_ .f32 b

/-- A scalar spread over the `[4096,4096]` matrix. -/
abbrev fill (b : BitVec 32) : FVec F S4096x4096 .f32 :=
  broadcastInDim S4096x4096 ![] bcast_S_S4096x4096 (cst (F := F) b)

/-- A scalar spread over the `16` segments. -/
abbrev fill16 (b : BitVec 32) : FVec F S16 .f32 :=
  broadcastInDim S16 ![] bcast_S_S16 (cst (F := F) b)

/-- %0, %1 (and %2, %3): channels last, then the `64 × 64` positions flattened. -/
def pf (a : FVec F S1x128x64x64 .f32) : FVec F S4096x128 .f32 :=
  let t : FVec F S1x64x64x128 .f32 := transpose S1x64x64x128 [0, 2, 3, 1] a transposes_S1x128x64x64_S1x64x64x128_0_2_3_1
  shapeCast S4096x128 t shapeCasts_S1x64x64x128_S4096x128

/-- %4 … %11: the labels flattened; where a label differs from the one before it, a one; the running sum of those
    ones (a window of 4095 ending at each place, padded in front); a zero put in front. -/
def seg (g : IVec S1x64x64 32) : IVec S4096 32 :=
  let v4 : IVec S4096 32 := shapeCast S4096 g shapeCasts_S1x64x64_S4096
  let v5 : IVec S4095 32 := extractStridedSlice S4095 ![1] v4 slices_S4096_S4095_1
  let v6 : IVec S4095 32 := extractStridedSlice S4095 ![0] v4 slices_S4096_S4095_0
  let v7 : IVec S4095 1 := cmpi .ne v5 v6
  let v8 : IVec S4095 32 := extui 32 v7 natLt_1_32
  let v9 : IVec S1 32 := broadcastInDim S1 ![] bcast_S_S1 (constantI S_ 32 0#32)
  let z : IVec S_ 32 := broadcastInDim S_ ![] bcast_S_S_ (constantI S_ 32 0#32)
  let v10 : IVec S4095 32 :=
    Host.reduceWindow IntOp.addi ![4095] ![1] ![4094] ![0] v8 z reduceWindows_S4095_S4095_w4095s1p4094_0 h_S_
  concatenate S4096 0 [⟨S1, v9⟩, ⟨S4095, v10⟩] concatenates_S1_S4095_S4096_d0

/-- %cst, %12, %cst_0, %13, %14, %15: a one added into its segment's cell for every position. -/
def counts (s : IVec S4096 32) : FVec F S16 .f32 :=
  let v12 : FVec F S4096 .f32 := broadcastInDim S4096 ![] bcast_S_S4096 (cst (F := F) 0x3F800000#32)
  let v13 : FVec F S16 .f32 := fill16 0x00000000#32
  let v14 : IVec S4096x1 32 := broadcastInDim S4096x1 ![0] bcast_S4096_S4096x1_0 s
  Host.scatterAdd scatter_S16_S4096x1_S4096_n_0_0_1 v13 v14 v12

/-- %16 … %29 (and %30 … %43 at `T T`, %44 … %57 at `P T`): the matrix of squared distances
    `|X i|² + |Y j|² - 2 ⟨X i, Y j⟩`, the squared norms spread along rows and along columns. -/
def sqdist (X Y : FVec F S4096x128 .f32) : FVec F S4096x4096 .f32 :=
  let xx : FVec F S4096x128 .f32 := mulf X X
  let nx : FVec F S4096 .f32 := Host.reduceAdd xx (cst (F := F) 0x00000000#32) reducesTo_S4096x128_S4096_d1 h_S_
  let yy : FVec F S4096x128 .f32 := mulf Y Y
  let ny : FVec F S4096 .f32 := Host.reduceAdd yy (cst (F := F) 0x00000000#32) reducesTo_S4096x128_S4096_d1 h_S_
  let cx : FVec F S4096x1 .f32 := broadcastInDim S4096x1 ![0] bcast_S4096_S4096x1_0 nx
  let ry : FVec F S1x4096 .f32 := broadcastInDim S1x4096 ![1] bcast_S4096_S1x4096_1 ny
  let a : FVec F S4096x4096 .f32 := broadcastInDim S4096x4096 ![0, 1] bcast_S4096x1_S4096x4096_0_1 cx
  let b : FVec F S4096x4096 .f32 := broadcastInDim S4096x4096 ![0, 1] bcast_S1x4096_S4096x4096_0_1 ry
  let ab : FVec F S4096x4096 .f32 := addf a b
  let yt : FVec F S128x4096 .f32 := transpose S128x4096 [1, 0] Y transposes_S4096x128_S128x4096_1_0
  let d : FVec F S4096x4096 .f32 := Host.dotGeneral dot_S4096x128_S128x4096_S4096x4096_1_0_0_1_n_n none X yt
  subf ab (mulf (fill (F := F) 0x40000000#32) d)

/-- One bandwidth's step of %58 … %142: to the running sum add `exp (c · Dxx)` and `exp (c · Dyy)`, take off
    `2 · exp (c · Dxy)`; `c` is the bandwidth's negative reciprocal, given by its bits. -/
def band (c : BitVec 32) (acc Dxx Dyy Dxy : FVec F S4096x4096 .f32) : FVec F S4096x4096 .f32 :=
  let exx : FVec F S4096x4096 .f32 := Host.exp (mulf (fill (F := F) c) Dxx)
  let a1 : FVec F S4096x4096 .f32 := addf acc exx
  let eyy : FVec F S4096x4096 .f32 := Host.exp (mulf (fill (F := F) c) Dyy)
  let a2 : FVec F S4096x4096 .f32 := addf a1 eyy
  let exy : FVec F S4096x4096 .f32 := Host.exp (mulf (fill (F := F) c) Dxy)
  subf a2 (mulf (fill (F := F) 0x40000000#32) exy)

/-- %58 … %142: the six bandwidths `-1/4, -1/10, -1/20, -1/40, -1/80, -1/120` in turn, from zero. -/
def kern (Dxx Dyy Dxy : FVec F S4096x4096 .f32) : FVec F S4096x4096 .f32 :=
  let k0 : FVec F S4096x4096 .f32 := fill 0x00000000#32
  let k1 := band 0xBE800000#32 k0 Dxx Dyy Dxy
  let k2 := band 0xBDCCCCCD#32 k1 Dxx Dyy Dxy
  let k3 := band 0xBD4CCCCD#32 k2 Dxx Dyy Dxy
  let k4 := band 0xBCCCCCCD#32 k3 Dxx Dyy Dxy
  let k5 := band 0xBC4CCCCD#32 k4 Dxx Dyy Dxy
  band 0xBC088889#32 k5 Dxx Dyy Dxy

/-- %143 … %148: the entry kept where the row's and the column's positions lie in one segment, zero elsewhere. -/
def masked (s : IVec S4096 32) (K : FVec F S4096x4096 .f32) : FVec F S4096x4096 .f32 :=
  let v143 : IVec S4096x1 32 := broadcastInDim S4096x1 ![0] bcast_S4096_S4096x1_0 s
  let v144 : IVec S1x4096 32 := broadcastInDim S1x4096 ![1] bcast_S4096_S1x4096_1 s
  let v145 : IVec S4096x4096 32 := broadcastInDim S4096x4096 ![0, 1] bcast_S4096x1_S4096x4096_0_1 v143
  let v146 : IVec S4096x4096 32 := broadcastInDim S4096x4096 ![0, 1] bcast_S1x4096_S4096x4096_0_1 v144
  let v147 : IVec S4096x4096 1 := cmpi .eq v145 v146
  select v147 K (fill (F := F) 0x00000000#32)

/-- %16 … %149: the three squared-distance matrices, the kernel combination, the same-segment mask, the sum along
    each row. -/
def rows (P T : FVec F S4096x128 .f32) (s : IVec S4096 32) : FVec F S4096 .f32 :=
  let K : FVec F S4096x4096 .f32 := kern (sqdist P P) (sqdist T T) (sqdist P T)
  Host.reduceAdd (masked s K) (cst (F := F) 0x00000000#32) reducesTo_S4096x4096_S4096_d1 h_S_

/-- %cst_37 … %173: the row sums added up per segment; divided by `max (2 n²) 1` where the segment is not empty (zero
    elsewhere); its square root where that is positive (zero elsewhere); the sum of these over the number of
    non-empty segments. -/
def tail (s : IVec S4096 32) (cnt : FVec F S16 .f32) (r : FVec F S4096 .f32) : FVec F S_ .f32 :=
  let v151 : IVec S4096x1 32 := broadcastInDim S4096x1 ![0] bcast_S4096_S4096x1_0 s
  let v152 : FVec F S16 .f32 := Host.scatterAdd scatter_S16_S4096x1_S4096_n_0_0_1 (fill16 (F := F) 0x00000000#32) v151 r
  let v154 : FVec F S16 .f32 := mulf (fill16 (F := F) 0x40000000#32) cnt
  let v155 : FVec F S16 .f32 := mulf v154 cnt
  let v157 : FVec F S16 .f32 := maximumf v155 (fill16 (F := F) 0x3F800000#32)
  let v159 : IVec S16 1 := cmpf .ogt cnt (fill16 (F := F) 0x00000000#32)
  let v160 : FVec F S16 .f32 := Host.divf v152 v157
  let v161 : FVec F S16 .f32 := select v159 v160 (fill16 (F := F) 0x00000000#32)
  let v163 : IVec S16 1 := cmpf .ogt v161 (fill16 (F := F) 0x00000000#32)
  let v164 : FVec F S16 .f32 := select v163 v161 (fill16 (F := F) 0x3F800000#32)
  let v165 : FVec F S16 .f32 := Host.sqrt v164
  let v166 : FVec F S16 .f32 := select v163 v165 (fill16 (F := F) 0x00000000#32)
  let v168 : IVec S16 1 := cmpf .ogt cnt (fill16 (F := F) 0x00000000#32)
  let v169 : IVec S16 32 := extui 32 v168 natLt_1_32
  let v170 : IVec S_ 32 := Host.reduce IntOp.addi v169 (constantI S_ 32 0#32) reducesTo_S16_S_d0 h_S_
  let v171 : FVec F S_ .f32 := sitofp .f32 v170
  let v172 : FVec F S_ .f32 := Host.reduceAdd v166 (cst (F := F) 0x00000000#32) reducesTo_S16_S_d0 h_S_
  Host.divf v172 v171

/-- The reference's result from its three live arguments (the fourth, a boolean map, is read by no line). -/
def refOut (a0 a1 : FVec F S1x128x64x64 .f32) (g : IVec S1x64x64 32) : FVec F S_ .f32 :=
  tail (seg g) (counts (seg g)) (rows (pf a0) (pf a1) (seg g))

end Cert.ReferenceIdeal.Hand

end
-- ==== Proof.Ref.Value.lean ====
import proofs.«178334_j34394098106946_1_alg».proof.Proof.Ref.Stages
import proofs.«178334_j34394098106946_1_alg».proof.Proof.Mmd.Spec
import proofs.«178334_j34394098106946_1_alg».proof.Proof.LibRowwise
import Idealize.ShloMosaic.Lib.IdealHost
import Idealize.ShloMosaic.Lib.Pipeline.Value

/-! # The reference's row sums, entry by entry

At the extended reals every stage of the reference's `rows` reads, at one index, as the formula the specification
`Cert.Mmd` writes: a squared-distance matrix at `(i, k)` is `|X i|² + |Y k|² − 2 ⟨X i, Y k⟩`, one bandwidth's step adds
its three exponentials at that entry, the six steps from zero are the kernel combination, the mask keeps the entry
where the two positions carry one segment word, and the sum along row `i` is the specification's `rowSum`. -/

noncomputable section

namespace Cert.ReferenceIdeal.Hand

open Idealize.ShloMosaic Idealize.ShloMosaic.ValueIdx Idealize.SL.Sem
open Cert.ReferenceIdeal
open Cert.ReferenceIdeal.Facts₀ Cert.ReferenceIdeal.Facts

/-! ## Spreading a vector over the square -/

section Spread
variable {α : Type}

/-- A length-`4096` vector made a column and spread along the rows reads, at `(i, k)`, the vector at `i`. -/
theorem alongRows_apply (v : S4096.Idx → α) (i k : Fin 4096) :
    broadcastInDim S4096x4096 ![0, 1] bcast_S4096x1_S4096x4096_0_1
        (broadcastInDim S4096x1 ![0] bcast_S4096_S4096x1_0 v) (ix2 i k) = v (ix1 i) := by
  refine (broadcastInDim_apply _ _ _ (ix2 i k) (ix2 i (0 : Fin 1)) fun a => ?_).trans ?_
  · match a with
    | ⟨0, _⟩ => exact (if_neg (show ¬((4096 : Nat) = 1) by decide)).symm
    | ⟨1, _⟩ => exact (if_pos rfl).symm
  · refine broadcastInDim_apply _ _ v (ix2 i (0 : Fin 1)) (ix1 i) fun a => ?_
    match a with
    | ⟨0, _⟩ => exact (if_neg (show ¬((4096 : Nat) = 1) by decide)).symm

/-- A length-`4096` vector made a row and spread along the columns reads, at `(i, k)`, the vector at `k`. -/
theorem alongCols_apply (v : S4096.Idx → α) (i k : Fin 4096) :
    broadcastInDim S4096x4096 ![0, 1] bcast_S1x4096_S4096x4096_0_1
        (broadcastInDim S1x4096 ![1] bcast_S4096_S1x4096_1 v) (ix2 i k) = v (ix1 k) := by
  refine (broadcastInDim_apply _ _ _ (ix2 i k) (ix2 (0 : Fin 1) k) fun a => ?_).trans ?_
  · match a with
    | ⟨0, _⟩ => exact (if_pos rfl).symm
    | ⟨1, _⟩ => exact (if_neg (show ¬((4096 : Nat) = 1) by decide)).symm
  · refine broadcastInDim_apply _ _ v (ix2 (0 : Fin 1) k) (ix1 k) fun a => ?_
    match a with
    | ⟨0, _⟩ => exact (if_neg (show ¬((4096 : Nat) = 1) by decide)).symm

end Spread

/-- A word spread over the square reads the word's value everywhere. -/
theorem fill_apply (b : BitVec 32) (j : S4096x4096.Idx) : fill (F := Ideal) b j = Ideal.ofBits .f32 b := rfl

/-! ## Sums along a row, and the product with a transpose -/

/-- The host's sum over axis 1 of an `[A, B]` array from the zero word, at row `p`: the sum of the row's entries. -/
theorem rowTotal_apply {A B : Nat} (x : FVec Ideal ⟨2, ![A, B]⟩ .f32)
    (h' : (⟨2, ![A, B]⟩ : Shape).ReducesTo [1] ⟨1, ![A]⟩) (h : (⟨2, ![A, B]⟩ : Shape).Reduces [1] ⟨1, ![A]⟩) (p : Fin A) :
    Host.reduceAdd (F := Ideal) x (cst (F := Ideal) 0x00000000#32) h' h_S_ (ix1 p) = ∑ k : Fin B, x (ix2 p k) := by
  rw [hostReduceAdd_apply, Ideal.hostReduceAdd_single h' h]
  show Ideal.ofBits .f32 0x00000000#32 + _ = _
  rw [Ideal.ofBits_zero_f32, zero_add]
  exact Finset.sum_congr rfl fun k _ => congrArg x (Cert.Lib.Rowwise.lift_row h p k)

/-- The squared norm of row `i`: the row total of the entrywise squares. -/
theorem norms_apply (X : FVec Ideal S4096x128 .f32) (i : Fin 4096) :
    Host.reduceAdd (F := Ideal) (mulf X X) (cst (F := Ideal) 0x00000000#32) reducesTo_S4096x128_S4096_d1 h_S_ (ix1 i)
      = Cert.Mmd.sq X i :=
  rowTotal_apply (mulf X X) reducesTo_S4096x128_S4096_d1 (by decide) i

/-- The host's plain product `[M, K] × [K, N]` at `(p, q)`: a product into the zero accumulator. -/
theorem plain_dotGeneral_apply {M K N : Nat} {φ₁ φ₂ : FTy} (prec : Option ContractPrecision) (a : FVec Ideal ⟨2, ![M, K]⟩ φ₁)
    (b : FVec Ideal ⟨2, ![K, N]⟩ φ₂) (p : Fin M) (q : Fin N) :
    Host.dotGeneral (F := Ideal) (DotDims.plain M K N) prec a b (ix2 p q) = ∑ k : Fin K, a (ix2 p k) * b (ix2 k q) := by
  rw [← Cert.Lib.Rowwise.plain_matmul_zero_apply prec a b p q]
  show Ideal.matmul (DotDims.plain M K N) a b (fun _ => 0) (ix2 p q)
    = Ideal.matmul (DotDims.plain M K N) a b (fun _ => Ideal.ofBits .f32 0x00000000#32) (ix2 p q)
  rw [Ideal.ofBits_zero_f32]

/-- The program's product record is the plain one. -/
theorem dot_eq_plain : dot_S4096x128_S128x4096_S4096x4096_1_0_0_1_n_n = DotDims.plain 4096 128 4096 :=
  Cert.Lib.Rowwise.eq_plain _ rfl rfl rfl rfl rfl rfl

/-- The transpose of `Y` at `(d, k)` is `Y` at `(k, d)`. -/
theorem transposed_apply (Y : FVec Ideal S4096x128 .f32) (d : Fin 128) (k : Fin 4096) :
    transpose S128x4096 [1, 0] Y transposes_S4096x128_S128x4096_1_0 (ix2 d k) = Y (ix2 k d) := by
  refine transpose_apply _ Y _ (ix2 d k) (ix2 k d) fun b => ?_
  match b with
  | ⟨0, _⟩ => rfl
  | ⟨1, _⟩ => rfl

/-- The product of `X` with the transpose of `Y` at `(i, k)`: the inner product of row `i` of `X` with row `k` of `Y`. -/
theorem cross_apply (X Y : FVec Ideal S4096x128 .f32) (i k : Fin 4096) :
    Host.dotGeneral (F := Ideal) dot_S4096x128_S128x4096_S4096x4096_1_0_0_1_n_n none X
        (transpose S128x4096 [1, 0] Y transposes_S4096x128_S128x4096_1_0) (ix2 i k) = Cert.Mmd.gram X Y i k := by
  rw [dot_eq_plain, plain_dotGeneral_apply]
  exact Finset.sum_congr rfl fun d _ => congrArg (X (ix2 i d) * ·) (transposed_apply Y d k)

/-- The squared-distance matrix at `(i, k)`: the two squared norms, spread along rows and along columns, less twice the
    inner product. -/
theorem sqdist_apply (X Y : FVec Ideal S4096x128 .f32) (i k : Fin 4096) :
    sqdist (F := Ideal) X Y (ix2 i k) = Cert.Mmd.dist X Y i k := by
  show
    (broadcastInDim S4096x4096 ![0, 1] bcast_S4096x1_S4096x4096_0_1 (broadcastInDim S4096x1 ![0] bcast_S4096_S4096x1_0
        (Host.reduceAdd (F := Ideal) (mulf X X) (cst (F := Ideal) 0x00000000#32) reducesTo_S4096x128_S4096_d1 h_S_)) (ix2 i k)
      + broadcastInDim S4096x4096 ![0, 1] bcast_S1x4096_S4096x4096_0_1 (broadcastInDim S1x4096 ![1] bcast_S4096_S1x4096_1
        (Host.reduceAdd (F := Ideal) (mulf Y Y) (cst (F := Ideal) 0x00000000#32) reducesTo_S4096x128_S4096_d1 h_S_)) (ix2 i k))
      - fill (F := Ideal) 0x40000000#32 (ix2 i k)
        * Host.dotGeneral (F := Ideal) dot_S4096x128_S128x4096_S4096x4096_1_0_0_1_n_n none X
            (transpose S128x4096 [1, 0] Y transposes_S4096x128_S128x4096_1_0) (ix2 i k) = _
  rw [alongRows_apply, alongCols_apply, norms_apply, norms_apply, cross_apply, fill_apply]
  rfl

/-- One bandwidth's step at `(i, k)`: every operation of it is entrywise, the exponential the extended reals'. -/
theorem band_apply (c : BitVec 32) (acc Dxx Dyy Dxy : FVec Ideal S4096x4096 .f32) (i k : Fin 4096) :
    band (F := Ideal) c acc Dxx Dyy Dxy (ix2 i k)
      = Cert.Mmd.band (Ideal.ofBits .f32 c) (acc (ix2 i k)) (Dxx (ix2 i k)) (Dyy (ix2 i k)) (Dxy (ix2 i k)) := rfl

/-- The six steps from zero at `(i, k)`. -/
theorem kern_apply (Dxx Dyy Dxy : FVec Ideal S4096x4096 .f32) (i k : Fin 4096) :
    kern (F := Ideal) Dxx Dyy Dxy (ix2 i k) = Cert.Mmd.kern (Dxx (ix2 i k)) (Dyy (ix2 i k)) (Dxy (ix2 i k)) := by
  simp only [kern, band_apply, fill_apply, Ideal.ofBits_zero_f32]
  rfl

/-- The mask at `(i, k)`: the row's word against the column's. -/
theorem masked_apply (s : IVec S4096 32) (K : FVec Ideal S4096x4096 .f32) (i k : Fin 4096) :
    masked (F := Ideal) s K (ix2 i k) = Scalar.select (IntOp.cmpi .eq (s (ix1 i)) (s (ix1 k))) (K (ix2 i k)) 0 := by
  show Scalar.select (IntOp.cmpi .eq
      (broadcastInDim S4096x4096 ![0, 1] bcast_S4096x1_S4096x4096_0_1 (broadcastInDim S4096x1 ![0] bcast_S4096_S4096x1_0 s) (ix2 i k))
      (broadcastInDim S4096x4096 ![0, 1] bcast_S1x4096_S4096x4096_0_1 (broadcastInDim S1x4096 ![1] bcast_S4096_S1x4096_1 s) (ix2 i k)))
    (K (ix2 i k)) (fill (F := Ideal) 0x00000000#32 (ix2 i k)) = _
  rw [alongRows_apply, alongCols_apply, fill_apply, Ideal.ofBits_zero_f32]

/-- The sum along row `i` is the specification's row sum. -/
theorem rows_apply (P T : FVec Ideal S4096x128 .f32) (s : IVec S4096 32) (i : Fin 4096) :
    rows (F := Ideal) P T s (ix1 i) = Cert.Mmd.rowSum P T s i := by
  refine (rowTotal_apply (masked (F := Ideal) s (kern (F := Ideal) (sqdist P P) (sqdist T T) (sqdist P T)))
    reducesTo_S4096x4096_S4096_d1 (by decide) i).trans ?_
  refine Finset.sum_congr rfl fun k _ => ?_
  rw [masked_apply, kern_apply, sqdist_apply, sqdist_apply, sqdist_apply]
  rfl

end Cert.ReferenceIdeal.Hand

end
-- ==== Proof.KI.Host.lean ====
import proofs.«178334_j34394098106946_1_alg».proof.Proof.Gen.KernelIdeal.Launch
import proofs.«178334_j34394098106946_1_alg».proof.Proof.Ref.Stages
import proofs.«178334_j34394098106946_1_alg».proof.Proof.Ref.Value
import Idealize.ShloMosaic.Lib.StableHlo.Run
import Idealize.ShloMosaic.Lib.Pipeline.Value
import proofs.«178334_j34394098106946_1_alg».proof.Proof.LibRowwise

/-! # What the kernel program's host operations compute

Before its grid the kernel program re-lays the two feature maps as `4096` points of `128` coordinates, numbers the
segments of the label map, counts each segment's positions, and re-lays the segment numbers as a column and as a row;
after the grid it casts the column of row sums to a vector and reduces it per segment to one number. Line by line these
are the operations of the reference's stages `pf`, `seg`, `counts` and `tail`, so each array they leave is that stage's
value of the arrays they read. -/

noncomputable section

namespace Cert.KernelIdeal.Hand

open Idealize.ShloMosaic Idealize.ShloMosaic.ValueIdx Idealize.SL.Sem
open Cert.KernelIdeal
open Cert.KernelIdeal.Facts₀ Cert.KernelIdeal.Facts

variable {F : FTy → Type} [FloatOps F]

/-- The arrays as the grid finds them: the three stretches of operations before it, run from `W`. -/
abbrev entryOf (W : Valuation τ sig (Elt F)) : Valuation τ sig (Elt F) :=
  StableHlo.after Gen.hostOps0_2 (StableHlo.after Gen.hostOps0_1 (StableHlo.after Gen.hostOps0 W))

/-- The arrays at the program's end: the seven stretches of operations after the grid, run from `W`. -/
abbrev exitOf (W : Valuation τ sig (Elt F)) : Valuation τ sig (Elt F) :=
  StableHlo.after Gen.hostOps1_6 (StableHlo.after Gen.hostOps1_5 (StableHlo.after Gen.hostOps1_4 (StableHlo.after Gen.hostOps1_3
    (StableHlo.after Gen.hostOps1_2 (StableHlo.after Gen.hostOps1_1 (StableHlo.after Gen.hostOps1 W))))))

/-! ## Before the grid -/

/-- The first feature map as points. -/
theorem entry_v1 (W : Valuation τ sig (Elt F)) :
    entryOf W (Proc.devRef .tc main_v1) = Cert.ReferenceIdeal.Hand.pf (F := F) (W (Proc.devRef .tc main_arg0)) := by
  dsimp only [entryOf, Gen.hostOps0, Gen.hostOps0_1, Gen.hostOps0_2]
  after_results
  rfl

/-- The second feature map as points. -/
theorem entry_v3 (W : Valuation τ sig (Elt F)) :
    entryOf W (Proc.devRef .tc main_v3) = Cert.ReferenceIdeal.Hand.pf (F := F) (W (Proc.devRef .tc main_arg1)) := by
  dsimp only [entryOf, Gen.hostOps0, Gen.hostOps0_1, Gen.hostOps0_2]
  after_results
  rfl

/-- The segment numbers. -/
theorem entry_v11 (W : Valuation τ sig (Elt F)) :
    entryOf W (Proc.devRef .tc main_v11) = Cert.ReferenceIdeal.Hand.seg (W (Proc.devRef .tc main_arg2)) := by
  dsimp only [entryOf, Gen.hostOps0, Gen.hostOps0_1, Gen.hostOps0_2]
  after_results
  simp only [cast_eq]
  rfl

/-- The number of positions of each segment. -/
theorem entry_v15 (W : Valuation τ sig (Elt F)) :
    entryOf W (Proc.devRef .tc main_v15)
      = Cert.ReferenceIdeal.Hand.counts (F := F) (Cert.ReferenceIdeal.Hand.seg (W (Proc.devRef .tc main_arg2))) := by
  dsimp only [entryOf, Gen.hostOps0, Gen.hostOps0_1, Gen.hostOps0_2]
  after_results
  simp only [cast_eq]
  rfl

/-- The segment numbers re-laid as a column … -/
theorem entry_v16_cast (W : Valuation τ sig (Elt F)) :
    (entryOf W (Proc.devRef .tc main_v16) : IVec S4096x1 32)
      = shapeCast S4096x1 (Cert.ReferenceIdeal.Hand.seg (W (Proc.devRef .tc main_arg2))) shapeCasts_S4096_S4096x1 := by
  dsimp only [entryOf, Gen.hostOps0, Gen.hostOps0_1, Gen.hostOps0_2]
  after_results
  simp only [cast_eq]
  rfl

/-- … and as a row. -/
theorem entry_v17_cast (W : Valuation τ sig (Elt F)) :
    (entryOf W (Proc.devRef .tc main_v17) : IVec S1x4096 32)
      = shapeCast S1x4096 (Cert.ReferenceIdeal.Hand.seg (W (Proc.devRef .tc main_arg2))) shapeCasts_S4096_S1x4096 := by
  dsimp only [entryOf, Gen.hostOps0, Gen.hostOps0_1, Gen.hostOps0_2]
  after_results
  simp only [cast_eq]
  rfl

/-- The column at row `r` is the segment number of position `r`. -/
theorem entry_v16 (W : Valuation τ sig (Elt F)) (r : Fin 4096) :
    (entryOf W (Proc.devRef .tc main_v16) : IVec S4096x1 32) (ix2 r 0)
      = Cert.ReferenceIdeal.Hand.seg (W (Proc.devRef .tc main_arg2)) (ix1 r) := by
  rw [entry_v16_cast]
  exact Cert.Lib.Rowwise.column_apply _ _ r 0

/-- The row at column `k` is the segment number of position `k`. -/
theorem entry_v17 (W : Valuation τ sig (Elt F)) (k : Fin 4096) :
    (entryOf W (Proc.devRef .tc main_v17) : IVec S1x4096 32) (ix2 0 k)
      = Cert.ReferenceIdeal.Hand.seg (W (Proc.devRef .tc main_arg2)) (ix1 k) := by
  rw [entry_v17_cast]
  refine shapeCast_apply _ _ (ix2 (0 : Fin 1) k) (ix1 k) ?_
  rw [Shape.rowMajor_val_one, Shape.rowMajor_val_two]
  show k.val = 0 * 4096 + k.val
  omega

/-! ## After the grid -/

/-- The program's result: the reference's `tail` of the segment numbers, the counts and the column of row sums cast to
    a vector, read where the grid left them. -/
theorem exit_v43 (W : Valuation τ sig (Elt F)) :
    exitOf W (Proc.devRef .tc main_v43)
      = Cert.ReferenceIdeal.Hand.tail (F := F) (W (Proc.devRef .tc main_v11)) (W (Proc.devRef .tc main_v15))
          (shapeCast S4096 (W (Proc.devRef .tc main_v18)) shapeCasts_S4096x1_S4096) := by
  dsimp only [exitOf, Gen.hostOps1, Gen.hostOps1_1, Gen.hostOps1_2, Gen.hostOps1_3, Gen.hostOps1_4, Gen.hostOps1_5, Gen.hostOps1_6]
  after_results_simp
  simp only [cast_eq]
  rfl

/-- A column of row sums cast to a vector whose every entry is the specification's row sum is the reference's `rows`. -/
theorem rows_of_out (out : FVec Ideal S4096x1 .f32) (P T : FVec Ideal S4096x128 .f32) (s : IVec S4096 32)
    (h : ∀ (r : Fin 4096) (u : Fin 1), out (ix2 r u) = Cert.Mmd.rowSum P T s r) :
    shapeCast S4096 out shapeCasts_S4096x1_S4096 = Cert.ReferenceIdeal.Hand.rows (F := Ideal) P T s := by
  funext j
  obtain ⟨r, rfl⟩ : ∃ r : Fin 4096, j = ix1 r := ⟨j 0, eq_ix1 j⟩
  rw [Cert.ReferenceIdeal.Hand.rows_apply, ← h r 0]
  refine shapeCast_apply out _ (ix1 r) (ix2 r (0 : Fin 1)) ?_
  rw [Shape.rowMajor_val_two, Shape.rowMajor_val_one]
  show r.val * 1 + 0 = r.val
  omega

end Cert.KernelIdeal.Hand

end
-- ==== Proof.KI.Result.lean ====
/-
  The idealized kernel program's result, on the extended reals: the last valuation of the fold through @main, read at
  the result buffer, is the reference's function of the three arguments it reads.

  The host lines after the region are the reference's closing lines applied to the segment ids, the segment sizes and
  the region's output array; the lines before the region are the reference's opening lines; and the region's output is,
  row by row, the row sum of the masked kernel matrix — which is what the reference's own matrix sums to along its rows.
-/
import proofs.«178334_j34394098106946_1_alg».proof.Proof.KI.Frame
import proofs.«178334_j34394098106946_1_alg».proof.Proof.KI.Value
import proofs.«178334_j34394098106946_1_alg».proof.Proof.KI.Host

noncomputable section

namespace Cert.KernelIdeal.Hand

open Idealize.ShloMosaic Idealize.ShloMosaic.TcCoe Idealize.ShloMosaic.ValueIdx
open Idealize.SL Idealize.SL.Sem
open Cert.KernelIdeal

variable (m : (ℓ : Loc nD τ sig) → Buf (Elt Ideal) ℓ) (ρ : Dev nD → PrngReg)

/-- The last valuation at the result buffer is the reference's function of the three arguments it reads. -/
theorem result (c : Dev nD) :
    W11 m (fun V c => dats V c) c (Proc.devRef .tc main_v43)
      = Cert.ReferenceIdeal.Hand.refOut (F := Ideal) (m ((c.tc : Thread nD τ).loc main_arg0)) (m ((c.tc : Thread nD τ).loc main_arg1))
          (m ((c.tc : Thread nD τ).loc main_arg2)) := by
  have hx := exit_v43 (F := Ideal) (W4 m (fun V c => dats V c) c)
  dsimp only [exitOf] at hx
  dsimp only [W11, W10, W9, W8, W7, W6, W5]
  refine hx.trans ?_
  rw [W4_of_ne m _ c main_v11 (by decide), W4_of_ne m _ c main_v15 (by decide), W4_main_v18]
  have e1 := entry_v1 (F := Ideal) (W0 m c)
  have e3 := entry_v3 (F := Ideal) (W0 m c)
  have e11 := entry_v11 (F := Ideal) (W0 m c)
  have e15 := entry_v15 (F := Ideal) (W0 m c)
  have e16 := entry_v16 (F := Ideal) (W0 m c)
  have e17 := entry_v17 (F := Ideal) (W0 m c)
  dsimp only [entryOf] at e1 e3 e11 e15 e16 e17
  have hrow : ∀ (r : Fin 4096) (u : Fin 1),
      ((dats (F := Ideal) (V3 m) c).arrAt 6 cfg0.N : FVec Ideal S4096x1 .f32) (ix2 r u)
        = Cert.Mmd.rowSum (Cert.ReferenceIdeal.Hand.pf (F := Ideal) (W0 m c (Proc.devRef .tc main_arg0)))
            (Cert.ReferenceIdeal.Hand.pf (F := Ideal) (W0 m c (Proc.devRef .tc main_arg1)))
            (Cert.ReferenceIdeal.Hand.seg (W0 m c (Proc.devRef .tc main_arg2))) r := fun r u => by
    rw [← e1, ← e3]
    exact out_eq (V3 m) c _ (fun r => e16 r) (fun k => e17 k) r u
  dsimp only [W3, W2, W1]
  rw [e11, e15, rows_of_out _ _ _ _ hrow]
  rfl

end Cert.KernelIdeal.Hand

end
-- ==== Proof.Ref.Ops.lean ====
import proofs.«178334_j34394098106946_1_alg».proof.ReferenceIdeal
import proofs.«178334_j34394098106946_1_alg».proof.Proof.Gen.ReferenceIdeal
import Idealize.ShloMosaic.Lib.StableHlo.Run

/-! # The reference's @main as a list of host operations

@main's four printed windows, read as one straight line of 234 host operations: the lines of the outlined
functions (the running sum inside the segment numbering; the four selects) stand at their call sites, over
the call's own buffers.  The line is cut into seventeen stretches, each the lines of one stage of the
computation (or the part of a stage that one printed window holds); for each stretch: it touches only
TensorCore buffers, none of its lines leaves a result undetermined, and the list of buffers it writes, so
that any other buffer is known to keep its contents through it. -/

noncomputable section

namespace Cert.ReferenceIdeal.Hand

open Idealize.ShloMosaic Idealize.ShloMosaic.TcCoe Idealize.SL.Sem Idealize.ShloMosaic.StableHlo
open Cert.ReferenceIdeal
open Cert.ReferenceIdeal.Facts₀ Cert.ReferenceIdeal.Facts

variable {F : FTy → Type} [FloatOps F]

/-- %0 … %3: the two feature maps re-laid. -/
def cA : List (HloOp τ sig (Elt F)) :=
  [
    StableHlo.unary main_arg0 main_v0 ((transpose S1x64x64x128 [0, 2, 3, 1] · transposes_S1x128x64x64_S1x64x64x128_0_2_3_1) : (⟨S1x128x64x64, .f32⟩ : BufTy).Contents (Elt F) → (⟨S1x64x64x128, .f32⟩ : BufTy).Contents (Elt F)),
    StableHlo.reshape main_v0 main_v1 rfl shapeCasts_S1x64x64x128_S4096x128,
    StableHlo.unary main_arg1 main_v2 ((transpose S1x64x64x128 [0, 2, 3, 1] · transposes_S1x128x64x64_S1x64x64x128_0_2_3_1) : (⟨S1x128x64x64, .f32⟩ : BufTy).Contents (Elt F) → (⟨S1x64x64x128, .f32⟩ : BufTy).Contents (Elt F)),
    StableHlo.reshape main_v2 main_v3 rfl shapeCasts_S1x64x64x128_S4096x128 ]

/-- %4 … %10: the flattened labels, their change marks and the running count of those (the count's three lines at the call's buffers). -/
def cB1 : List (HloOp τ sig (Elt F)) :=
  [
    StableHlo.reshape main_arg2 main_v4 rfl shapeCasts_S1x64x64_S4096,
    StableHlo.unary main_v4 main_v5 ((extractStridedSlice S4095 ![1] · slices_S4096_S4095_1) : (⟨S4096, .i32⟩ : BufTy).Contents (Elt F) → (⟨S4095, .i32⟩ : BufTy).Contents (Elt F)),
    StableHlo.unary main_v4 main_v6 ((extractStridedSlice S4095 ![0] · slices_S4096_S4095_0) : (⟨S4096, .i32⟩ : BufTy).Contents (Elt F) → (⟨S4095, .i32⟩ : BufTy).Contents (Elt F)),
    StableHlo.binary main_v5 main_v6 main_v7 (cmpi .ne : (⟨S4095, .i32⟩ : BufTy).Contents (Elt F) → (⟨S4095, .i32⟩ : BufTy).Contents (Elt F) → (⟨S4095, .i1⟩ : BufTy).Contents (Elt F)),
    StableHlo.unary main_v7 main_v8 ((extui 32 · natLt_1_32) : (⟨S4095, .i1⟩ : BufTy).Contents (Elt F) → (⟨S4095, .i32⟩ : BufTy).Contents (Elt F)),
    StableHlo.nullary main_c (constantI S_ 32 0#32),
    StableHlo.unary main_c main_v9 (broadcastInDim S1 ![] bcast_S_S1 : (⟨S_, .i32⟩ : BufTy).Contents (Elt F) → (⟨S1, .i32⟩ : BufTy).Contents (Elt F)),
    StableHlo.TRef.nullary main_call0.call0.c (constantI S_ 32 0#32),
    StableHlo.TRef.unary main_call0.call0.c main_call0.call0.v0 (broadcastInDim S_ ![] bcast_S_S_),
    StableHlo.TRef.binary (StableHlo.TRef.of main_v8 : StableHlo.TRef sig ⟨S4095, .i32⟩) main_call0.call0.v0 main_call0.call0.v1 (fun x v => Host.reduceWindow IntOp.addi ![4095] ![1] ![4094] ![0] x v reduceWindows_S4095_S4095_w4095s1p4094_0 h_S_) ]

/-- %11: the zero put in front of the running count. -/
def cB2 : List (HloOp τ sig (Elt F)) :=
  [
    StableHlo.binary main_v9 main_v10 main_v11 ((fun a b => concatenate S4096 0 [⟨S1, a⟩, ⟨S4095, b⟩] concatenates_S1_S4095_S4096_d0) : (⟨S1, .i32⟩ : BufTy).Contents (Elt F) → (⟨S4095, .i32⟩ : BufTy).Contents (Elt F) → (⟨S4096, .i32⟩ : BufTy).Contents (Elt F)) ]

/-- %cst … %15: the segment sizes. -/
def cC : List (HloOp τ sig (Elt F)) :=
  [
    StableHlo.nullary main_cst (constant S_ .f32 0x3F800000#32),
    StableHlo.unary main_cst main_v12 (broadcastInDim S4096 ![] bcast_S_S4096 : (⟨S_, .f32⟩ : BufTy).Contents (Elt F) → (⟨S4096, .f32⟩ : BufTy).Contents (Elt F)),
    StableHlo.nullary main_cst_0 (constant S_ .f32 0x00000000#32),
    StableHlo.unary main_cst_0 main_v13 (broadcastInDim S16 ![] bcast_S_S16 : (⟨S_, .f32⟩ : BufTy).Contents (Elt F) → (⟨S16, .f32⟩ : BufTy).Contents (Elt F)),
    StableHlo.unary main_v11 main_v14 (broadcastInDim S4096x1 ![0] bcast_S4096_S4096x1_0 : (⟨S4096, .i32⟩ : BufTy).Contents (Elt F) → (⟨S4096x1, .i32⟩ : BufTy).Contents (Elt F)),
    StableHlo.ternary main_v13 main_v14 main_v12 main_v15 ((fun x i u => Host.scatterAdd scatter_S16_S4096x1_S4096_n_0_0_1 x i u) : (⟨S16, .f32⟩ : BufTy).Contents (Elt F) → (⟨S4096x1, .i32⟩ : BufTy).Contents (Elt F) → (⟨S4096, .f32⟩ : BufTy).Contents (Elt F) → (⟨S16, .f32⟩ : BufTy).Contents (Elt F)) ]

/-- %16 … %29: the squared distances among the first map's points. -/
def cD1 : List (HloOp τ sig (Elt F)) :=
  [
    StableHlo.binary main_v1 main_v1 main_v16 (mulf : (⟨S4096x128, .f32⟩ : BufTy).Contents (Elt F) → (⟨S4096x128, .f32⟩ : BufTy).Contents (Elt F) → (⟨S4096x128, .f32⟩ : BufTy).Contents (Elt F)),
    StableHlo.nullary main_cst_1 (constant S_ .f32 0x00000000#32),
    StableHlo.binary main_v16 main_cst_1 main_v17 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.binary main_v1 main_v1 main_v18 (mulf : (⟨S4096x128, .f32⟩ : BufTy).Contents (Elt F) → (⟨S4096x128, .f32⟩ : BufTy).Contents (Elt F) → (⟨S4096x128, .f32⟩ : BufTy).Contents (Elt F)),
    StableHlo.nullary main_cst_2 (constant S_ .f32 0x00000000#32),
    StableHlo.binary main_v18 main_cst_2 main_v19 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v17 main_v20 (broadcastInDim S4096x1 ![0] bcast_S4096_S4096x1_0 : (⟨S4096, .f32⟩ : BufTy).Contents (Elt F) → (⟨S4096x1, .f32⟩ : BufTy).Contents (Elt F)),
    StableHlo.unary main_v19 main_v21 (broadcastInDim S1x4096 ![1] bcast_S4096_S1x4096_1 : (⟨S4096, .f32⟩ : BufTy).Contents (Elt F) → (⟨S1x4096, .f32⟩ : BufTy).Contents (Elt F)),
    StableHlo.unary main_v20 main_v22 (broadcastInDim S4096x4096 ![0, 1] bcast_S4096x1_S4096x4096_0_1 : (⟨S4096x1, .f32⟩ : BufTy).Contents (Elt F) → (⟨S4096x4096, .f32⟩ : BufTy).Contents (Elt F)),
    StableHlo.unary main_v21 main_v23 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v22 main_v23 main_v24 (addf : (⟨S4096x4096, .f32⟩ : BufTy).Contents (Elt F) → (⟨S4096x4096, .f32⟩ : BufTy).Contents (Elt F) → (⟨S4096x4096, .f32⟩ : BufTy).Contents (Elt F)),
    StableHlo.unary main_v1 main_v25 ((transpose S128x4096 [1, 0] · transposes_S4096x128_S128x4096_1_0) : (⟨S4096x128, .f32⟩ : BufTy).Contents (Elt F) → (⟨S128x4096, .f32⟩ : BufTy).Contents (Elt F)),
    StableHlo.binary main_v1 main_v25 main_v26 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    StableHlo.nullary main_cst_3 (constant S_ .f32 0x40000000#32),
    StableHlo.unary main_cst_3 main_v27 (broadcastInDim S4096x4096 ![] bcast_S_S4096x4096 : (⟨S_, .f32⟩ : BufTy).Contents (Elt F) → (⟨S4096x4096, .f32⟩ : BufTy).Contents (Elt F)),
    StableHlo.binary main_v27 main_v26 main_v28 (mulf : (⟨S4096x4096, .f32⟩ : BufTy).Contents (Elt F) → (⟨S4096x4096, .f32⟩ : BufTy).Contents (Elt F) → (⟨S4096x4096, .f32⟩ : BufTy).Contents (Elt F)),
    StableHlo.binary main_v24 main_v28 main_v29 (subf : (⟨S4096x4096, .f32⟩ : BufTy).Contents (Elt F) → (⟨S4096x4096, .f32⟩ : BufTy).Contents (Elt F) → (⟨S4096x4096, .f32⟩ : BufTy).Contents (Elt F)) ]

/-- %30 … %43: the squared distances among the second map's points. -/
def cD2 : List (HloOp τ sig (Elt F)) :=
  [
    StableHlo.binary main_v3 main_v3 main_v30 (mulf : (⟨S4096x128, .f32⟩ : BufTy).Contents (Elt F) → (⟨S4096x128, .f32⟩ : BufTy).Contents (Elt F) → (⟨S4096x128, .f32⟩ : BufTy).Contents (Elt F)),
    StableHlo.nullary main_cst_4 (constant S_ .f32 0x00000000#32),
    StableHlo.binary main_v30 main_cst_4 main_v31 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.binary main_v3 main_v3 main_v32 (mulf : (⟨S4096x128, .f32⟩ : BufTy).Contents (Elt F) → (⟨S4096x128, .f32⟩ : BufTy).Contents (Elt F) → (⟨S4096x128, .f32⟩ : BufTy).Contents (Elt F)),
    StableHlo.nullary main_cst_5 (constant S_ .f32 0x00000000#32),
    StableHlo.binary main_v32 main_cst_5 main_v33 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v31 main_v34 (broadcastInDim S4096x1 ![0] bcast_S4096_S4096x1_0 : (⟨S4096, .f32⟩ : BufTy).Contents (Elt F) → (⟨S4096x1, .f32⟩ : BufTy).Contents (Elt F)),
    StableHlo.unary main_v33 main_v35 (broadcastInDim S1x4096 ![1] bcast_S4096_S1x4096_1 : (⟨S4096, .f32⟩ : BufTy).Contents (Elt F) → (⟨S1x4096, .f32⟩ : BufTy).Contents (Elt F)),
    StableHlo.unary main_v34 main_v36 (broadcastInDim S4096x4096 ![0, 1] bcast_S4096x1_S4096x4096_0_1 : (⟨S4096x1, .f32⟩ : BufTy).Contents (Elt F) → (⟨S4096x4096, .f32⟩ : BufTy).Contents (Elt F)),
    StableHlo.unary main_v35 main_v37 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v36 main_v37 main_v38 (addf : (⟨S4096x4096, .f32⟩ : BufTy).Contents (Elt F) → (⟨S4096x4096, .f32⟩ : BufTy).Contents (Elt F) → (⟨S4096x4096, .f32⟩ : BufTy).Contents (Elt F)),
    StableHlo.unary main_v3 main_v39 ((transpose S128x4096 [1, 0] · transposes_S4096x128_S128x4096_1_0) : (⟨S4096x128, .f32⟩ : BufTy).Contents (Elt F) → (⟨S128x4096, .f32⟩ : BufTy).Contents (Elt F)),
    StableHlo.binary main_v3 main_v39 main_v40 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    StableHlo.nullary main_cst_6 (constant S_ .f32 0x40000000#32),
    StableHlo.unary main_cst_6 main_v41 (broadcastInDim S4096x4096 ![] bcast_S_S4096x4096 : (⟨S_, .f32⟩ : BufTy).Contents (Elt F) → (⟨S4096x4096, .f32⟩ : BufTy).Contents (Elt F)),
    StableHlo.binary main_v41 main_v40 main_v42 (mulf : (⟨S4096x4096, .f32⟩ : BufTy).Contents (Elt F) → (⟨S4096x4096, .f32⟩ : BufTy).Contents (Elt F) → (⟨S4096x4096, .f32⟩ : BufTy).Contents (Elt F)),
    StableHlo.binary main_v38 main_v42 main_v43 (subf : (⟨S4096x4096, .f32⟩ : BufTy).Contents (Elt F) → (⟨S4096x4096, .f32⟩ : BufTy).Contents (Elt F) → (⟨S4096x4096, .f32⟩ : BufTy).Contents (Elt F)) ]

/-- %44 … %48: the squared norms for the cross distances (the first window of @main ends here). -/
def cD3a : List (HloOp τ sig (Elt F)) :=
  [
    StableHlo.binary main_v1 main_v1 main_v44 (mulf : (⟨S4096x128, .f32⟩ : BufTy).Contents (Elt F) → (⟨S4096x128, .f32⟩ : BufTy).Contents (Elt F) → (⟨S4096x128, .f32⟩ : BufTy).Contents (Elt F)),
    StableHlo.nullary main_cst_7 (constant S_ .f32 0x00000000#32),
    StableHlo.binary main_v44 main_cst_7 main_v45 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.binary main_v3 main_v3 main_v46 (mulf : (⟨S4096x128, .f32⟩ : BufTy).Contents (Elt F) → (⟨S4096x128, .f32⟩ : BufTy).Contents (Elt F) → (⟨S4096x128, .f32⟩ : BufTy).Contents (Elt F)),
    StableHlo.nullary main_cst_8 (constant S_ .f32 0x00000000#32),
    StableHlo.binary main_v46 main_cst_8 main_v47 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v45 main_v48 (broadcastInDim S4096x1 ![0] bcast_S4096_S4096x1_0 : (⟨S4096, .f32⟩ : BufTy).Contents (Elt F) → (⟨S4096x1, .f32⟩ : BufTy).Contents (Elt F)) ]

/-- %49 … %57: the cross distances. -/
def cD3b : List (HloOp τ sig (Elt F)) :=
  [
    StableHlo.unary main_v47 main_v49 (broadcastInDim S1x4096 ![1] bcast_S4096_S1x4096_1 : (⟨S4096, .f32⟩ : BufTy).Contents (Elt F) → (⟨S1x4096, .f32⟩ : BufTy).Contents (Elt F)),
    StableHlo.unary main_v48 main_v50 (broadcastInDim S4096x4096 ![0, 1] bcast_S4096x1_S4096x4096_0_1 : (⟨S4096x1, .f32⟩ : BufTy).Contents (Elt F) → (⟨S4096x4096, .f32⟩ : BufTy).Contents (Elt F)),
    StableHlo.unary main_v49 main_v51 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v50 main_v51 main_v52 (addf : (⟨S4096x4096, .f32⟩ : BufTy).Contents (Elt F) → (⟨S4096x4096, .f32⟩ : BufTy).Contents (Elt F) → (⟨S4096x4096, .f32⟩ : BufTy).Contents (Elt F)),
    StableHlo.unary main_v3 main_v53 ((transpose S128x4096 [1, 0] · transposes_S4096x128_S128x4096_1_0) : (⟨S4096x128, .f32⟩ : BufTy).Contents (Elt F) → (⟨S128x4096, .f32⟩ : BufTy).Contents (Elt F)),
    StableHlo.binary main_v1 main_v53 main_v54 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    StableHlo.nullary main_cst_9 (constant S_ .f32 0x40000000#32),
    StableHlo.unary main_cst_9 main_v55 (broadcastInDim S4096x4096 ![] bcast_S_S4096x4096 : (⟨S_, .f32⟩ : BufTy).Contents (Elt F) → (⟨S4096x4096, .f32⟩ : BufTy).Contents (Elt F)),
    StableHlo.binary main_v55 main_v54 main_v56 (mulf : (⟨S4096x4096, .f32⟩ : BufTy).Contents (Elt F) → (⟨S4096x4096, .f32⟩ : BufTy).Contents (Elt F) → (⟨S4096x4096, .f32⟩ : BufTy).Contents (Elt F)),
    StableHlo.binary main_v52 main_v56 main_v57 (subf : (⟨S4096x4096, .f32⟩ : BufTy).Contents (Elt F) → (⟨S4096x4096, .f32⟩ : BufTy).Contents (Elt F) → (⟨S4096x4096, .f32⟩ : BufTy).Contents (Elt F)) ]

/-- %cst_10 … %72: the zero matrix and the first bandwidth. -/
def cE1 : List (HloOp τ sig (Elt F)) :=
  [
    StableHlo.nullary main_cst_10 (constant S_ .f32 0x00000000#32),
    StableHlo.unary main_cst_10 main_v58 (broadcastInDim S4096x4096 ![] bcast_S_S4096x4096 : (⟨S_, .f32⟩ : BufTy).Contents (Elt F) → (⟨S4096x4096, .f32⟩ : BufTy).Contents (Elt F)),
    StableHlo.nullary main_cst_11 (constant S_ .f32 0xBE800000#32),
    StableHlo.unary main_cst_11 main_v59 (broadcastInDim S4096x4096 ![] bcast_S_S4096x4096 : (⟨S_, .f32⟩ : BufTy).Contents (Elt F) → (⟨S4096x4096, .f32⟩ : BufTy).Contents (Elt F)),
    StableHlo.binary main_v59 main_v29 main_v60 (mulf : (⟨S4096x4096, .f32⟩ : BufTy).Contents (Elt F) → (⟨S4096x4096, .f32⟩ : BufTy).Contents (Elt F) → (⟨S4096x4096, .f32⟩ : BufTy).Contents (Elt F)),
    StableHlo.unary main_v60 main_v61 (Host.exp : (⟨S4096x4096, .f32⟩ : BufTy).Contents (Elt F) → (⟨S4096x4096, .f32⟩ : BufTy).Contents (Elt F)),
    StableHlo.binary main_v58 main_v61 main_v62 (addf : (⟨S4096x4096, .f32⟩ : BufTy).Contents (Elt F) → (⟨S4096x4096, .f32⟩ : BufTy).Contents (Elt F) → (⟨S4096x4096, .f32⟩ : BufTy).Contents (Elt F)),
    StableHlo.nullary main_cst_12 (constant S_ .f32 0xBE800000#32),
    StableHlo.unary main_cst_12 main_v63 (broadcastInDim S4096x4096 ![] bcast_S_S4096x4096 : (⟨S_, .f32⟩ : BufTy).Contents (Elt F) → (⟨S4096x4096, .f32⟩ : BufTy).Contents (Elt F)),
    StableHlo.binary main_v63 main_v43 main_v64 (mulf : (⟨S4096x4096, .f32⟩ : BufTy).Contents (Elt F) → (⟨S4096x4096, .f32⟩ : BufTy).Contents (Elt F) → (⟨S4096x4096, .f32⟩ : BufTy).Contents (Elt F)),
    StableHlo.unary main_v64 main_v65 (Host.exp : (⟨S4096x4096, .f32⟩ : BufTy).Contents (Elt F) → (⟨S4096x4096, .f32⟩ : BufTy).Contents (Elt F)),
    StableHlo.binary main_v62 main_v65 main_v66 (addf : (⟨S4096x4096, .f32⟩ : BufTy).Contents (Elt F) → (⟨S4096x4096, .f32⟩ : BufTy).Contents (Elt F) → (⟨S4096x4096, .f32⟩ : BufTy).Contents (Elt F)),
    StableHlo.nullary main_cst_13 (constant S_ .f32 0xBE800000#32),
    StableHlo.unary main_cst_13 main_v67 (broadcastInDim S4096x4096 ![] bcast_S_S4096x4096 : (⟨S_, .f32⟩ : BufTy).Contents (Elt F) → (⟨S4096x4096, .f32⟩ : BufTy).Contents (Elt F)),
    StableHlo.binary main_v67 main_v57 main_v68 (mulf : (⟨S4096x4096, .f32⟩ : BufTy).Contents (Elt F) → (⟨S4096x4096, .f32⟩ : BufTy).Contents (Elt F) → (⟨S4096x4096, .f32⟩ : BufTy).Contents (Elt F)),
    StableHlo.unary main_v68 main_v69 (Host.exp : (⟨S4096x4096, .f32⟩ : BufTy).Contents (Elt F) → (⟨S4096x4096, .f32⟩ : BufTy).Contents (Elt F)),
    StableHlo.nullary main_cst_14 (constant S_ .f32 0x40000000#32),
    StableHlo.unary main_cst_14 main_v70 (broadcastInDim S4096x4096 ![] bcast_S_S4096x4096 : (⟨S_, .f32⟩ : BufTy).Contents (Elt F) → (⟨S4096x4096, .f32⟩ : BufTy).Contents (Elt F)),
    StableHlo.binary main_v70 main_v69 main_v71 (mulf : (⟨S4096x4096, .f32⟩ : BufTy).Contents (Elt F) → (⟨S4096x4096, .f32⟩ : BufTy).Contents (Elt F) → (⟨S4096x4096, .f32⟩ : BufTy).Contents (Elt F)),
    StableHlo.binary main_v66 main_v71 main_v72 (subf : (⟨S4096x4096, .f32⟩ : BufTy).Contents (Elt F) → (⟨S4096x4096, .f32⟩ : BufTy).Contents (Elt F) → (⟨S4096x4096, .f32⟩ : BufTy).Contents (Elt F)) ]

/-- %cst_15 … %86: the second bandwidth. -/
def cE2 : List (HloOp τ sig (Elt F)) :=
  [
    StableHlo.nullary main_cst_15 (constant S_ .f32 0xBDCCCCCD#32),
    StableHlo.unary main_cst_15 main_v73 (broadcastInDim S4096x4096 ![] bcast_S_S4096x4096 : (⟨S_, .f32⟩ : BufTy).Contents (Elt F) → (⟨S4096x4096, .f32⟩ : BufTy).Contents (Elt F)),
    StableHlo.binary main_v73 main_v29 main_v74 (mulf : (⟨S4096x4096, .f32⟩ : BufTy).Contents (Elt F) → (⟨S4096x4096, .f32⟩ : BufTy).Contents (Elt F) → (⟨S4096x4096, .f32⟩ : BufTy).Contents (Elt F)),
    StableHlo.unary main_v74 main_v75 (Host.exp : (⟨S4096x4096, .f32⟩ : BufTy).Contents (Elt F) → (⟨S4096x4096, .f32⟩ : BufTy).Contents (Elt F)),
    StableHlo.binary main_v72 main_v75 main_v76 (addf : (⟨S4096x4096, .f32⟩ : BufTy).Contents (Elt F) → (⟨S4096x4096, .f32⟩ : BufTy).Contents (Elt F) → (⟨S4096x4096, .f32⟩ : BufTy).Contents (Elt F)),
    StableHlo.nullary main_cst_16 (constant S_ .f32 0xBDCCCCCD#32),
    StableHlo.unary main_cst_16 main_v77 (broadcastInDim S4096x4096 ![] bcast_S_S4096x4096 : (⟨S_, .f32⟩ : BufTy).Contents (Elt F) → (⟨S4096x4096, .f32⟩ : BufTy).Contents (Elt F)),
    StableHlo.binary main_v77 main_v43 main_v78 (mulf : (⟨S4096x4096, .f32⟩ : BufTy).Contents (Elt F) → (⟨S4096x4096, .f32⟩ : BufTy).Contents (Elt F) → (⟨S4096x4096, .f32⟩ : BufTy).Contents (Elt F)),
    StableHlo.unary main_v78 main_v79 (Host.exp : (⟨S4096x4096, .f32⟩ : BufTy).Contents (Elt F) → (⟨S4096x4096, .f32⟩ : BufTy).Contents (Elt F)),
    StableHlo.binary main_v76 main_v79 main_v80 (addf : (⟨S4096x4096, .f32⟩ : BufTy).Contents (Elt F) → (⟨S4096x4096, .f32⟩ : BufTy).Contents (Elt F) → (⟨S4096x4096, .f32⟩ : BufTy).Contents (Elt F)),
    StableHlo.nullary main_cst_17 (constant S_ .f32 0xBDCCCCCD#32),
    StableHlo.unary main_cst_17 main_v81 (broadcastInDim S4096x4096 ![] bcast_S_S4096x4096 : (⟨S_, .f32⟩ : BufTy).Contents (Elt F) → (⟨S4096x4096, .f32⟩ : BufTy).Contents (Elt F)),
    StableHlo.binary main_v81 main_v57 main_v82 (mulf : (⟨S4096x4096, .f32⟩ : BufTy).Contents (Elt F) → (⟨S4096x4096, .f32⟩ : BufTy).Contents (Elt F) → (⟨S4096x4096, .f32⟩ : BufTy).Contents (Elt F)),
    StableHlo.unary main_v82 main_v83 (Host.exp : (⟨S4096x4096, .f32⟩ : BufTy).Contents (Elt F) → (⟨S4096x4096, .f32⟩ : BufTy).Contents (Elt F)),
    StableHlo.nullary main_cst_18 (constant S_ .f32 0x40000000#32),
    StableHlo.unary main_cst_18 main_v84 (broadcastInDim S4096x4096 ![] bcast_S_S4096x4096 : (⟨S_, .f32⟩ : BufTy).Contents (Elt F) → (⟨S4096x4096, .f32⟩ : BufTy).Contents (Elt F)),
    StableHlo.binary main_v84 main_v83 main_v85 (mulf : (⟨S4096x4096, .f32⟩ : BufTy).Contents (Elt F) → (⟨S4096x4096, .f32⟩ : BufTy).Contents (Elt F) → (⟨S4096x4096, .f32⟩ : BufTy).Contents (Elt F)),
    StableHlo.binary main_v80 main_v85 main_v86 (subf : (⟨S4096x4096, .f32⟩ : BufTy).Contents (Elt F) → (⟨S4096x4096, .f32⟩ : BufTy).Contents (Elt F) → (⟨S4096x4096, .f32⟩ : BufTy).Contents (Elt F)) ]

/-- %cst_19 … %95: the third bandwidth's two additions and its constant spread (the second window of @main ends here). -/
def cE3a : List (HloOp τ sig (Elt F)) :=
  [
    StableHlo.nullary main_cst_19 (constant S_ .f32 0xBD4CCCCD#32),
    StableHlo.unary main_cst_19 main_v87 (broadcastInDim S4096x4096 ![] bcast_S_S4096x4096 : (⟨S_, .f32⟩ : BufTy).Contents (Elt F) → (⟨S4096x4096, .f32⟩ : BufTy).Contents (Elt F)),
    StableHlo.binary main_v87 main_v29 main_v88 (mulf : (⟨S4096x4096, .f32⟩ : BufTy).Contents (Elt F) → (⟨S4096x4096, .f32⟩ : BufTy).Contents (Elt F) → (⟨S4096x4096, .f32⟩ : BufTy).Contents (Elt F)),
    StableHlo.unary main_v88 main_v89 (Host.exp : (⟨S4096x4096, .f32⟩ : BufTy).Contents (Elt F) → (⟨S4096x4096, .f32⟩ : BufTy).Contents (Elt F)),
    StableHlo.binary main_v86 main_v89 main_v90 (addf : (⟨S4096x4096, .f32⟩ : BufTy).Contents (Elt F) → (⟨S4096x4096, .f32⟩ : BufTy).Contents (Elt F) → (⟨S4096x4096, .f32⟩ : BufTy).Contents (Elt F)),
    StableHlo.nullary main_cst_20 (constant S_ .f32 0xBD4CCCCD#32),
    StableHlo.unary main_cst_20 main_v91 (broadcastInDim S4096x4096 ![] bcast_S_S4096x4096 : (⟨S_, .f32⟩ : BufTy).Contents (Elt F) → (⟨S4096x4096, .f32⟩ : BufTy).Contents (Elt F)),
    StableHlo.binary main_v91 main_v43 main_v92 (mulf : (⟨S4096x4096, .f32⟩ : BufTy).Contents (Elt F) → (⟨S4096x4096, .f32⟩ : BufTy).Contents (Elt F) → (⟨S4096x4096, .f32⟩ : BufTy).Contents (Elt F)),
    StableHlo.unary main_v92 main_v93 (Host.exp : (⟨S4096x4096, .f32⟩ : BufTy).Contents (Elt F) → (⟨S4096x4096, .f32⟩ : BufTy).Contents (Elt F)),
    StableHlo.binary main_v90 main_v93 main_v94 (addf : (⟨S4096x4096, .f32⟩ : BufTy).Contents (Elt F) → (⟨S4096x4096, .f32⟩ : BufTy).Contents (Elt F) → (⟨S4096x4096, .f32⟩ : BufTy).Contents (Elt F)),
    StableHlo.nullary main_cst_21 (constant S_ .f32 0xBD4CCCCD#32),
    StableHlo.unary main_cst_21 main_v95 (broadcastInDim S4096x4096 ![] bcast_S_S4096x4096 : (⟨S_, .f32⟩ : BufTy).Contents (Elt F) → (⟨S4096x4096, .f32⟩ : BufTy).Contents (Elt F)) ]

/-- %96 … %100: the third bandwidth's subtraction. -/
def cE3b : List (HloOp τ sig (Elt F)) :=
  [
    StableHlo.binary main_v95 main_v57 main_v96 (mulf : (⟨S4096x4096, .f32⟩ : BufTy).Contents (Elt F) → (⟨S4096x4096, .f32⟩ : BufTy).Contents (Elt F) → (⟨S4096x4096, .f32⟩ : BufTy).Contents (Elt F)),
    StableHlo.unary main_v96 main_v97 (Host.exp : (⟨S4096x4096, .f32⟩ : BufTy).Contents (Elt F) → (⟨S4096x4096, .f32⟩ : BufTy).Contents (Elt F)),
    StableHlo.nullary main_cst_22 (constant S_ .f32 0x40000000#32),
    StableHlo.unary main_cst_22 main_v98 (broadcastInDim S4096x4096 ![] bcast_S_S4096x4096 : (⟨S_, .f32⟩ : BufTy).Contents (Elt F) → (⟨S4096x4096, .f32⟩ : BufTy).Contents (Elt F)),
    StableHlo.binary main_v98 main_v97 main_v99 (mulf : (⟨S4096x4096, .f32⟩ : BufTy).Contents (Elt F) → (⟨S4096x4096, .f32⟩ : BufTy).Contents (Elt F) → (⟨S4096x4096, .f32⟩ : BufTy).Contents (Elt F)),
    StableHlo.binary main_v94 main_v99 main_v100 (subf : (⟨S4096x4096, .f32⟩ : BufTy).Contents (Elt F) → (⟨S4096x4096, .f32⟩ : BufTy).Contents (Elt F) → (⟨S4096x4096, .f32⟩ : BufTy).Contents (Elt F)) ]

/-- %cst_23 … %114: the fourth bandwidth. -/
def cE4 : List (HloOp τ sig (Elt F)) :=
  [
    StableHlo.nullary main_cst_23 (constant S_ .f32 0xBCCCCCCD#32),
    StableHlo.unary main_cst_23 main_v101 (broadcastInDim S4096x4096 ![] bcast_S_S4096x4096 : (⟨S_, .f32⟩ : BufTy).Contents (Elt F) → (⟨S4096x4096, .f32⟩ : BufTy).Contents (Elt F)),
    StableHlo.binary main_v101 main_v29 main_v102 (mulf : (⟨S4096x4096, .f32⟩ : BufTy).Contents (Elt F) → (⟨S4096x4096, .f32⟩ : BufTy).Contents (Elt F) → (⟨S4096x4096, .f32⟩ : BufTy).Contents (Elt F)),
    StableHlo.unary main_v102 main_v103 (Host.exp : (⟨S4096x4096, .f32⟩ : BufTy).Contents (Elt F) → (⟨S4096x4096, .f32⟩ : BufTy).Contents (Elt F)),
    StableHlo.binary main_v100 main_v103 main_v104 (addf : (⟨S4096x4096, .f32⟩ : BufTy).Contents (Elt F) → (⟨S4096x4096, .f32⟩ : BufTy).Contents (Elt F) → (⟨S4096x4096, .f32⟩ : BufTy).Contents (Elt F)),
    StableHlo.nullary main_cst_24 (constant S_ .f32 0xBCCCCCCD#32),
    StableHlo.unary main_cst_24 main_v105 (broadcastInDim S4096x4096 ![] bcast_S_S4096x4096 : (⟨S_, .f32⟩ : BufTy).Contents (Elt F) → (⟨S4096x4096, .f32⟩ : BufTy).Contents (Elt F)),
    StableHlo.binary main_v105 main_v43 main_v106 (mulf : (⟨S4096x4096, .f32⟩ : BufTy).Contents (Elt F) → (⟨S4096x4096, .f32⟩ : BufTy).Contents (Elt F) → (⟨S4096x4096, .f32⟩ : BufTy).Contents (Elt F)),
    StableHlo.unary main_v106 main_v107 (Host.exp : (⟨S4096x4096, .f32⟩ : BufTy).Contents (Elt F) → (⟨S4096x4096, .f32⟩ : BufTy).Contents (Elt F)),
    StableHlo.binary main_v104 main_v107 main_v108 (addf : (⟨S4096x4096, .f32⟩ : BufTy).Contents (Elt F) → (⟨S4096x4096, .f32⟩ : BufTy).Contents (Elt F) → (⟨S4096x4096, .f32⟩ : BufTy).Contents (Elt F)),
    StableHlo.nullary main_cst_25 (constant S_ .f32 0xBCCCCCCD#32),
    StableHlo.unary main_cst_25 main_v109 (broadcastInDim S4096x4096 ![] bcast_S_S4096x4096 : (⟨S_, .f32⟩ : BufTy).Contents (Elt F) → (⟨S4096x4096, .f32⟩ : BufTy).Contents (Elt F)),
    StableHlo.binary main_v109 main_v57 main_v110 (mulf : (⟨S4096x4096, .f32⟩ : BufTy).Contents (Elt F) → (⟨S4096x4096, .f32⟩ : BufTy).Contents (Elt F) → (⟨S4096x4096, .f32⟩ : BufTy).Contents (Elt F)),
    StableHlo.unary main_v110 main_v111 (Host.exp : (⟨S4096x4096, .f32⟩ : BufTy).Contents (Elt F) → (⟨S4096x4096, .f32⟩ : BufTy).Contents (Elt F)),
    StableHlo.nullary main_cst_26 (constant S_ .f32 0x40000000#32),
    StableHlo.unary main_cst_26 main_v112 (broadcastInDim S4096x4096 ![] bcast_S_S4096x4096 : (⟨S_, .f32⟩ : BufTy).Contents (Elt F) → (⟨S4096x4096, .f32⟩ : BufTy).Contents (Elt F)),
    StableHlo.binary main_v112 main_v111 main_v113 (mulf : (⟨S4096x4096, .f32⟩ : BufTy).Contents (Elt F) → (⟨S4096x4096, .f32⟩ : BufTy).Contents (Elt F) → (⟨S4096x4096, .f32⟩ : BufTy).Contents (Elt F)),
    StableHlo.binary main_v108 main_v113 main_v114 (subf : (⟨S4096x4096, .f32⟩ : BufTy).Contents (Elt F) → (⟨S4096x4096, .f32⟩ : BufTy).Contents (Elt F) → (⟨S4096x4096, .f32⟩ : BufTy).Contents (Elt F)) ]

/-- %cst_27 … %128: the fifth bandwidth. -/
def cE5 : List (HloOp τ sig (Elt F)) :=
  [
    StableHlo.nullary main_cst_27 (constant S_ .f32 0xBC4CCCCD#32),
    StableHlo.unary main_cst_27 main_v115 (broadcastInDim S4096x4096 ![] bcast_S_S4096x4096 : (⟨S_, .f32⟩ : BufTy).Contents (Elt F) → (⟨S4096x4096, .f32⟩ : BufTy).Contents (Elt F)),
    StableHlo.binary main_v115 main_v29 main_v116 (mulf : (⟨S4096x4096, .f32⟩ : BufTy).Contents (Elt F) → (⟨S4096x4096, .f32⟩ : BufTy).Contents (Elt F) → (⟨S4096x4096, .f32⟩ : BufTy).Contents (Elt F)),
    StableHlo.unary main_v116 main_v117 (Host.exp : (⟨S4096x4096, .f32⟩ : BufTy).Contents (Elt F) → (⟨S4096x4096, .f32⟩ : BufTy).Contents (Elt F)),
    StableHlo.binary main_v114 main_v117 main_v118 (addf : (⟨S4096x4096, .f32⟩ : BufTy).Contents (Elt F) → (⟨S4096x4096, .f32⟩ : BufTy).Contents (Elt F) → (⟨S4096x4096, .f32⟩ : BufTy).Contents (Elt F)),
    StableHlo.nullary main_cst_28 (constant S_ .f32 0xBC4CCCCD#32),
    StableHlo.unary main_cst_28 main_v119 (broadcastInDim S4096x4096 ![] bcast_S_S4096x4096 : (⟨S_, .f32⟩ : BufTy).Contents (Elt F) → (⟨S4096x4096, .f32⟩ : BufTy).Contents (Elt F)),
    StableHlo.binary main_v119 main_v43 main_v120 (mulf : (⟨S4096x4096, .f32⟩ : BufTy).Contents (Elt F) → (⟨S4096x4096, .f32⟩ : BufTy).Contents (Elt F) → (⟨S4096x4096, .f32⟩ : BufTy).Contents (Elt F)),
    StableHlo.unary main_v120 main_v121 (Host.exp : (⟨S4096x4096, .f32⟩ : BufTy).Contents (Elt F) → (⟨S4096x4096, .f32⟩ : BufTy).Contents (Elt F)),
    StableHlo.binary main_v118 main_v121 main_v122 (addf : (⟨S4096x4096, .f32⟩ : BufTy).Contents (Elt F) → (⟨S4096x4096, .f32⟩ : BufTy).Contents (Elt F) → (⟨S4096x4096, .f32⟩ : BufTy).Contents (Elt F)),
    StableHlo.nullary main_cst_29 (constant S_ .f32 0xBC4CCCCD#32),
    StableHlo.unary main_cst_29 main_v123 (broadcastInDim S4096x4096 ![] bcast_S_S4096x4096 : (⟨S_, .f32⟩ : BufTy).Contents (Elt F) → (⟨S4096x4096, .f32⟩ : BufTy).Contents (Elt F)),
    StableHlo.binary main_v123 main_v57 main_v124 (mulf : (⟨S4096x4096, .f32⟩ : BufTy).Contents (Elt F) → (⟨S4096x4096, .f32⟩ : BufTy).Contents (Elt F) → (⟨S4096x4096, .f32⟩ : BufTy).Contents (Elt F)),
    StableHlo.unary main_v124 main_v125 (Host.exp : (⟨S4096x4096, .f32⟩ : BufTy).Contents (Elt F) → (⟨S4096x4096, .f32⟩ : BufTy).Contents (Elt F)),
    StableHlo.nullary main_cst_30 (constant S_ .f32 0x40000000#32),
    StableHlo.unary main_cst_30 main_v126 (broadcastInDim S4096x4096 ![] bcast_S_S4096x4096 : (⟨S_, .f32⟩ : BufTy).Contents (Elt F) → (⟨S4096x4096, .f32⟩ : BufTy).Contents (Elt F)),
    StableHlo.binary main_v126 main_v125 main_v127 (mulf : (⟨S4096x4096, .f32⟩ : BufTy).Contents (Elt F) → (⟨S4096x4096, .f32⟩ : BufTy).Contents (Elt F) → (⟨S4096x4096, .f32⟩ : BufTy).Contents (Elt F)),
    StableHlo.binary main_v122 main_v127 main_v128 (subf : (⟨S4096x4096, .f32⟩ : BufTy).Contents (Elt F) → (⟨S4096x4096, .f32⟩ : BufTy).Contents (Elt F) → (⟨S4096x4096, .f32⟩ : BufTy).Contents (Elt F)) ]

/-- %cst_31 … %142: the sixth bandwidth (the third window of @main ends here). -/
def cE6 : List (HloOp τ sig (Elt F)) :=
  [
    StableHlo.nullary main_cst_31 (constant S_ .f32 0xBC088889#32),
    StableHlo.unary main_cst_31 main_v129 (broadcastInDim S4096x4096 ![] bcast_S_S4096x4096 : (⟨S_, .f32⟩ : BufTy).Contents (Elt F) → (⟨S4096x4096, .f32⟩ : BufTy).Contents (Elt F)),
    StableHlo.binary main_v129 main_v29 main_v130 (mulf : (⟨S4096x4096, .f32⟩ : BufTy).Contents (Elt F) → (⟨S4096x4096, .f32⟩ : BufTy).Contents (Elt F) → (⟨S4096x4096, .f32⟩ : BufTy).Contents (Elt F)),
    StableHlo.unary main_v130 main_v131 (Host.exp : (⟨S4096x4096, .f32⟩ : BufTy).Contents (Elt F) → (⟨S4096x4096, .f32⟩ : BufTy).Contents (Elt F)),
    StableHlo.binary main_v128 main_v131 main_v132 (addf : (⟨S4096x4096, .f32⟩ : BufTy).Contents (Elt F) → (⟨S4096x4096, .f32⟩ : BufTy).Contents (Elt F) → (⟨S4096x4096, .f32⟩ : BufTy).Contents (Elt F)),
    StableHlo.nullary main_cst_32 (constant S_ .f32 0xBC088889#32),
    StableHlo.unary main_cst_32 main_v133 (broadcastInDim S4096x4096 ![] bcast_S_S4096x4096 : (⟨S_, .f32⟩ : BufTy).Contents (Elt F) → (⟨S4096x4096, .f32⟩ : BufTy).Contents (Elt F)),
    StableHlo.binary main_v133 main_v43 main_v134 (mulf : (⟨S4096x4096, .f32⟩ : BufTy).Contents (Elt F) → (⟨S4096x4096, .f32⟩ : BufTy).Contents (Elt F) → (⟨S4096x4096, .f32⟩ : BufTy).Contents (Elt F)),
    StableHlo.unary main_v134 main_v135 (Host.exp : (⟨S4096x4096, .f32⟩ : BufTy).Contents (Elt F) → (⟨S4096x4096, .f32⟩ : BufTy).Contents (Elt F)),
    StableHlo.binary main_v132 main_v135 main_v136 (addf : (⟨S4096x4096, .f32⟩ : BufTy).Contents (Elt F) → (⟨S4096x4096, .f32⟩ : BufTy).Contents (Elt F) → (⟨S4096x4096, .f32⟩ : BufTy).Contents (Elt F)),
    StableHlo.nullary main_cst_33 (constant S_ .f32 0xBC088889#32),
    StableHlo.unary main_cst_33 main_v137 (broadcastInDim S4096x4096 ![] bcast_S_S4096x4096 : (⟨S_, .f32⟩ : BufTy).Contents (Elt F) → (⟨S4096x4096, .f32⟩ : BufTy).Contents (Elt F)),
    StableHlo.binary main_v137 main_v57 main_v138 (mulf : (⟨S4096x4096, .f32⟩ : BufTy).Contents (Elt F) → (⟨S4096x4096, .f32⟩ : BufTy).Contents (Elt F) → (⟨S4096x4096, .f32⟩ : BufTy).Contents (Elt F)),
    StableHlo.unary main_v138 main_v139 (Host.exp : (⟨S4096x4096, .f32⟩ : BufTy).Contents (Elt F) → (⟨S4096x4096, .f32⟩ : BufTy).Contents (Elt F)),
    StableHlo.nullary main_cst_34 (constant S_ .f32 0x40000000#32),
    StableHlo.unary main_cst_34 main_v140 (broadcastInDim S4096x4096 ![] bcast_S_S4096x4096 : (⟨S_, .f32⟩ : BufTy).Contents (Elt F) → (⟨S4096x4096, .f32⟩ : BufTy).Contents (Elt F)),
    StableHlo.binary main_v140 main_v139 main_v141 (mulf : (⟨S4096x4096, .f32⟩ : BufTy).Contents (Elt F) → (⟨S4096x4096, .f32⟩ : BufTy).Contents (Elt F) → (⟨S4096x4096, .f32⟩ : BufTy).Contents (Elt F)),
    StableHlo.binary main_v136 main_v141 main_v142 (subf : (⟨S4096x4096, .f32⟩ : BufTy).Contents (Elt F) → (⟨S4096x4096, .f32⟩ : BufTy).Contents (Elt F) → (⟨S4096x4096, .f32⟩ : BufTy).Contents (Elt F)) ]

/-- %143 … %149: the same-segment mask (the select's three lines at the call's buffers) and the row sums. -/
def cM : List (HloOp τ sig (Elt F)) :=
  [
    StableHlo.unary main_v11 main_v143 (broadcastInDim S4096x1 ![0] bcast_S4096_S4096x1_0 : (⟨S4096, .i32⟩ : BufTy).Contents (Elt F) → (⟨S4096x1, .i32⟩ : BufTy).Contents (Elt F)),
    StableHlo.unary main_v11 main_v144 (broadcastInDim S1x4096 ![1] bcast_S4096_S1x4096_1 : (⟨S4096, .i32⟩ : BufTy).Contents (Elt F) → (⟨S1x4096, .i32⟩ : BufTy).Contents (Elt F)),
    StableHlo.unary main_v143 main_v145 (broadcastInDim S4096x4096 ![0, 1] bcast_S4096x1_S4096x4096_0_1 : (⟨S4096x1, .i32⟩ : BufTy).Contents (Elt F) → (⟨S4096x4096, .i32⟩ : BufTy).Contents (Elt F)),
    StableHlo.unary main_v144 main_v146 (broadcastInDim S4096x4096 ![0, 1] bcast_S1x4096_S4096x4096_0_1 : (⟨S1x4096, .i32⟩ : BufTy).Contents (Elt F) → (⟨S4096x4096, .i32⟩ : BufTy).Contents (Elt F)),
    StableHlo.binary main_v145 main_v146 main_v147 (cmpi .eq : (⟨S4096x4096, .i32⟩ : BufTy).Contents (Elt F) → (⟨S4096x4096, .i32⟩ : BufTy).Contents (Elt F) → (⟨S4096x4096, .i1⟩ : BufTy).Contents (Elt F)),
    StableHlo.nullary main_cst_35 (constant S_ .f32 0x00000000#32),
    StableHlo.TRef.unary (StableHlo.TRef.of main_cst_35 : StableHlo.TRef sig ⟨S_, .f32⟩) main_call1.v0 id,
    StableHlo.TRef.unary main_call1.v0 main_call1.v1 (broadcastInDim S4096x4096 ![] bcast_S_S4096x4096),
    StableHlo.TRef.ternary (StableHlo.TRef.of main_v147 : StableHlo.TRef sig ⟨S4096x4096, .i1⟩) (StableHlo.TRef.of main_v142 : StableHlo.TRef sig ⟨S4096x4096, .f32⟩) main_call1.v1 main_call1.v2 select,
    StableHlo.nullary main_cst_36 (constant S_ .f32 0x00000000#32),
    StableHlo.binary main_v148 main_cst_36 main_v149 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)) ]

/-- %cst_37 … %173: the per-segment sums, their normalisation and the mean over the non-empty segments. -/
def cT : List (HloOp τ sig (Elt F)) :=
  [
    StableHlo.nullary main_cst_37 (constant S_ .f32 0x00000000#32),
    StableHlo.unary main_cst_37 main_v150 (broadcastInDim S16 ![] bcast_S_S16 : (⟨S_, .f32⟩ : BufTy).Contents (Elt F) → (⟨S16, .f32⟩ : BufTy).Contents (Elt F)),
    StableHlo.unary main_v11 main_v151 (broadcastInDim S4096x1 ![0] bcast_S4096_S4096x1_0 : (⟨S4096, .i32⟩ : BufTy).Contents (Elt F) → (⟨S4096x1, .i32⟩ : BufTy).Contents (Elt F)),
    StableHlo.ternary main_v150 main_v151 main_v149 main_v152 ((fun x i u => Host.scatterAdd scatter_S16_S4096x1_S4096_n_0_0_1 x i u) : (⟨S16, .f32⟩ : BufTy).Contents (Elt F) → (⟨S4096x1, .i32⟩ : BufTy).Contents (Elt F) → (⟨S4096, .f32⟩ : BufTy).Contents (Elt F) → (⟨S16, .f32⟩ : BufTy).Contents (Elt F)),
    StableHlo.nullary main_cst_38 (constant S_ .f32 0x40000000#32),
    StableHlo.unary main_cst_38 main_v153 (broadcastInDim S16 ![] bcast_S_S16 : (⟨S_, .f32⟩ : BufTy).Contents (Elt F) → (⟨S16, .f32⟩ : BufTy).Contents (Elt F)),
    StableHlo.binary main_v153 main_v15 main_v154 (mulf : (⟨S16, .f32⟩ : BufTy).Contents (Elt F) → (⟨S16, .f32⟩ : BufTy).Contents (Elt F) → (⟨S16, .f32⟩ : BufTy).Contents (Elt F)),
    StableHlo.binary main_v154 main_v15 main_v155 (mulf : (⟨S16, .f32⟩ : BufTy).Contents (Elt F) → (⟨S16, .f32⟩ : BufTy).Contents (Elt F) → (⟨S16, .f32⟩ : BufTy).Contents (Elt F)),
    StableHlo.nullary main_cst_39 (constant S_ .f32 0x3F800000#32),
    StableHlo.unary main_cst_39 main_v156 (broadcastInDim S16 ![] bcast_S_S16 : (⟨S_, .f32⟩ : BufTy).Contents (Elt F) → (⟨S16, .f32⟩ : BufTy).Contents (Elt F)),
    StableHlo.binary main_v155 main_v156 main_v157 (maximumf : (⟨S16, .f32⟩ : BufTy).Contents (Elt F) → (⟨S16, .f32⟩ : BufTy).Contents (Elt F) → (⟨S16, .f32⟩ : BufTy).Contents (Elt F)),
    StableHlo.nullary main_cst_40 (constant S_ .f32 0x00000000#32),
    StableHlo.unary main_cst_40 main_v158 (broadcastInDim S16 ![] bcast_S_S16 : (⟨S_, .f32⟩ : BufTy).Contents (Elt F) → (⟨S16, .f32⟩ : BufTy).Contents (Elt F)),
    StableHlo.binary main_v15 main_v158 main_v159 (cmpf .ogt : (⟨S16, .f32⟩ : BufTy).Contents (Elt F) → (⟨S16, .f32⟩ : BufTy).Contents (Elt F) → (⟨S16, .i1⟩ : BufTy).Contents (Elt F)),
    StableHlo.binary main_v152 main_v157 main_v160 (Host.divf : (⟨S16, .f32⟩ : BufTy).Contents (Elt F) → (⟨S16, .f32⟩ : BufTy).Contents (Elt F) → (⟨S16, .f32⟩ : BufTy).Contents (Elt F)),
    StableHlo.nullary main_cst_41 (constant S_ .f32 0x00000000#32),
    StableHlo.TRef.unary (StableHlo.TRef.of main_cst_41 : StableHlo.TRef sig ⟨S_, .f32⟩) main_call2.v0 id,
    StableHlo.TRef.unary main_call2.v0 main_call2.v1 (broadcastInDim S16 ![] bcast_S_S16),
    StableHlo.TRef.ternary (StableHlo.TRef.of main_v159 : StableHlo.TRef sig ⟨S16, .i1⟩) (StableHlo.TRef.of main_v160 : StableHlo.TRef sig ⟨S16, .f32⟩) main_call2.v1 main_call2.v2 select,
    StableHlo.nullary main_cst_42 (constant S_ .f32 0x00000000#32),
    StableHlo.unary main_cst_42 main_v162 (broadcastInDim S16 ![] bcast_S_S16 : (⟨S_, .f32⟩ : BufTy).Contents (Elt F) → (⟨S16, .f32⟩ : BufTy).Contents (Elt F)),
    StableHlo.binary main_v161 main_v162 main_v163 (cmpf .ogt : (⟨S16, .f32⟩ : BufTy).Contents (Elt F) → (⟨S16, .f32⟩ : BufTy).Contents (Elt F) → (⟨S16, .i1⟩ : BufTy).Contents (Elt F)),
    StableHlo.nullary main_cst_43 (constant S_ .f32 0x3F800000#32),
    StableHlo.TRef.unary (StableHlo.TRef.of main_cst_43 : StableHlo.TRef sig ⟨S_, .f32⟩) main_call3.v0 id,
    StableHlo.TRef.unary main_call3.v0 main_call3.v1 (broadcastInDim S16 ![] bcast_S_S16),
    StableHlo.TRef.ternary (StableHlo.TRef.of main_v163 : StableHlo.TRef sig ⟨S16, .i1⟩) (StableHlo.TRef.of main_v161 : StableHlo.TRef sig ⟨S16, .f32⟩) main_call3.v1 main_call3.v2 select,
    StableHlo.unary main_v164 main_v165 (Host.sqrt : (⟨S16, .f32⟩ : BufTy).Contents (Elt F) → (⟨S16, .f32⟩ : BufTy).Contents (Elt F)),
    StableHlo.nullary main_cst_44 (constant S_ .f32 0x00000000#32),
    StableHlo.TRef.unary (StableHlo.TRef.of main_cst_44 : StableHlo.TRef sig ⟨S_, .f32⟩) main_call4.v0 id,
    StableHlo.TRef.unary main_call4.v0 main_call4.v1 (broadcastInDim S16 ![] bcast_S_S16),
    StableHlo.TRef.ternary (StableHlo.TRef.of main_v163 : StableHlo.TRef sig ⟨S16, .i1⟩) (StableHlo.TRef.of main_v165 : StableHlo.TRef sig ⟨S16, .f32⟩) main_call4.v1 main_call4.v2 select,
    StableHlo.nullary main_cst_45 (constant S_ .f32 0x00000000#32),
    StableHlo.unary main_cst_45 main_v167 (broadcastInDim S16 ![] bcast_S_S16 : (⟨S_, .f32⟩ : BufTy).Contents (Elt F) → (⟨S16, .f32⟩ : BufTy).Contents (Elt F)),
    StableHlo.binary main_v15 main_v167 main_v168 (cmpf .ogt : (⟨S16, .f32⟩ : BufTy).Contents (Elt F) → (⟨S16, .f32⟩ : BufTy).Contents (Elt F) → (⟨S16, .i1⟩ : BufTy).Contents (Elt F)),
    StableHlo.unary main_v168 main_v169 ((extui 32 · natLt_1_32) : (⟨S16, .i1⟩ : BufTy).Contents (Elt F) → (⟨S16, .i32⟩ : BufTy).Contents (Elt F)),
    StableHlo.nullary main_c_46 (constantI S_ 32 0#32),
    StableHlo.binary main_v169 main_c_46 main_v170 ((fun x v => Host.reduce IntOp.addi x v reducesTo_S16_S_d0 h_S_) : (⟨S16, .i32⟩ : BufTy).Contents (Elt F) → (⟨S_, .i32⟩ : BufTy).Contents (Elt F) → (⟨S_, .i32⟩ : BufTy).Contents (Elt F)),
    StableHlo.unary main_v170 main_v171 (sitofp .f32 : (⟨S_, .i32⟩ : BufTy).Contents (Elt F) → (⟨S_, .f32⟩ : BufTy).Contents (Elt F)),
    StableHlo.nullary main_cst_47 (constant S_ .f32 0x00000000#32),
    StableHlo.binary main_v166 main_cst_47 main_v172 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    StableHlo.binary main_v172 main_v171 main_v173 (Host.divf : (⟨S_, .f32⟩ : BufTy).Contents (Elt F) → (⟨S_, .f32⟩ : BufTy).Contents (Elt F) → (⟨S_, .f32⟩ : BufTy).Contents (Elt F)) ]

/-! ## The printed windows are these stretches -/

theorem main_part0_eq (d : Dev nD) : main_part0 (F := F) d = seq (cA ++ cB1 ++ cB2 ++ cC ++ cD1 ++ cD2 ++ cD3a) := by
  rfl
theorem main_part1_eq (d : Dev nD) : main_part1 (F := F) d = seq (cD3b ++ cE1 ++ cE2 ++ cE3a) := by
  rfl
theorem main_part2_eq (d : Dev nD) : main_part2 (F := F) d = seq (cE3b ++ cE4 ++ cE5 ++ cE6) := by
  rfl
theorem main_part3_eq (d : Dev nD) : main_part3 (F := F) d = seq (cM ++ cT) := by
  rfl

/-- @main's 234 operations, the calls' lines at their sites, as seventeen stretches in a row. -/
def ops : List (HloOp τ sig (Elt F)) :=
  cA ++ (cB1 ++ (cB2 ++ (cC ++ (cD1 ++ (cD2 ++ (cD3a ++ (cD3b ++ (cE1 ++ (cE2 ++ (cE3a ++ (cE3b ++ (cE4 ++ (cE5 ++ (cE6 ++ (cM ++ cT)))))))))))))))

/-- @main is that line: its windows in a row are the stretches in a row, appending being associative. -/
theorem main_eq (d : Dev nD) : main (F := F) d = seq ops := by
  have e : (ops : List (HloOp τ sig (Elt F)))
      = (cA ++ cB1 ++ cB2 ++ cC ++ cD1 ++ cD2 ++ cD3a) ++ ((cD3b ++ cE1 ++ cE2 ++ cE3a) ++ ((cE3b ++ cE4 ++ cE5 ++ cE6) ++ (cM ++ cT))) := by
    simp only [ops, List.append_assoc]
  rw [e, seq_append (cA ++ cB1 ++ cB2 ++ cC ++ cD1 ++ cD2 ++ cD3a), seq_append (cD3b ++ cE1 ++ cE2 ++ cE3a),
    seq_append (cE3b ++ cE4 ++ cE5 ++ cE6), ← main_part0_eq d, ← main_part1_eq d, ← main_part2_eq d, ← main_part3_eq d]
  rfl

/-! ## Each stretch: its buffers, its results determined, what it writes -/

theorem cA_sub : (cA : List (HloOp τ sig (Elt F))).Forall fun op => op.bufs ⊆ tcRefs τ sig := by
  unfold cA; exact ⟨unary_bufs_sub .., reshape_bufs_sub .., unary_bufs_sub .., reshape_bufs_sub ..⟩
theorem cA_fresh : (cA : List (HloOp τ sig (Elt F))).Forall fun op => op.fresh = ∅ := by
  unfold cA; exact ⟨rfl, rfl, rfl, rfl⟩
/-- The buffers the stretch writes. -/
abbrev cA_W : List (Ref sig .tc) := [main_v0, main_v1, main_v2, main_v3]
theorem cA_writes : (cA : List (HloOp τ sig (Elt F))).Forall fun op =>
    op.writes ⊆ (cA_W.map (Proc.devRef (τ := τ) .tc)).toFinset := by
  unfold cA; simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
/-- A buffer the stretch does not write keeps its contents through it. -/
theorem cA_keep (W : Valuation τ sig (Elt F)) (r : Ref sig .tc) (h : r ∉ cA_W) :
    after cA W (no_index (Proc.devRef .tc r)) = W (Proc.devRef .tc r) :=
  after_of_writes_sub cA W cA_writes h

theorem cB1_sub : (cB1 : List (HloOp τ sig (Elt F))).Forall fun op => op.bufs ⊆ tcRefs τ sig := by
  unfold cB1; exact ⟨reshape_bufs_sub .., unary_bufs_sub .., unary_bufs_sub .., binary_bufs_sub .., unary_bufs_sub .., nullary_bufs_sub .., unary_bufs_sub .., nullary_bufs_sub .., unary_bufs_sub .., binary_bufs_sub ..⟩
theorem cB1_fresh : (cB1 : List (HloOp τ sig (Elt F))).Forall fun op => op.fresh = ∅ := by
  unfold cB1; exact ⟨rfl, rfl, rfl, rfl, rfl, rfl, rfl, rfl, rfl, rfl⟩
/-- The buffers the stretch writes. -/
abbrev cB1_W : List (Ref sig .tc) := [main_v4, main_v5, main_v6, main_v7, main_v8, main_c, main_v9, main_call0_call0_c, main_call0_call0_v0, main_v10]
theorem cB1_writes : (cB1 : List (HloOp τ sig (Elt F))).Forall fun op =>
    op.writes ⊆ (cB1_W.map (Proc.devRef (τ := τ) .tc)).toFinset := by
  unfold cB1; simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
/-- A buffer the stretch does not write keeps its contents through it. -/
theorem cB1_keep (W : Valuation τ sig (Elt F)) (r : Ref sig .tc) (h : r ∉ cB1_W) :
    after cB1 W (no_index (Proc.devRef .tc r)) = W (Proc.devRef .tc r) :=
  after_of_writes_sub cB1 W cB1_writes h

theorem cB2_sub : (cB2 : List (HloOp τ sig (Elt F))).Forall fun op => op.bufs ⊆ tcRefs τ sig := by
  unfold cB2; exact binary_bufs_sub ..
theorem cB2_fresh : (cB2 : List (HloOp τ sig (Elt F))).Forall fun op => op.fresh = ∅ := by
  unfold cB2; exact rfl
/-- The buffers the stretch writes. -/
abbrev cB2_W : List (Ref sig .tc) := [main_v11]
theorem cB2_writes : (cB2 : List (HloOp τ sig (Elt F))).Forall fun op =>
    op.writes ⊆ (cB2_W.map (Proc.devRef (τ := τ) .tc)).toFinset := by
  unfold cB2; simp only [List.Forall]
  exact (by simp only [nullary_writes, unary_writes, binary_writes, ternary_writes, reshape_writes, Finset.singleton_subset_iff, List.mem_toFinset]; exact List.mem_map_of_mem (by decide))
/-- A buffer the stretch does not write keeps its contents through it. -/
theorem cB2_keep (W : Valuation τ sig (Elt F)) (r : Ref sig .tc) (h : r ∉ cB2_W) :
    after cB2 W (no_index (Proc.devRef .tc r)) = W (Proc.devRef .tc r) :=
  after_of_writes_sub cB2 W cB2_writes h

theorem cC_sub : (cC : List (HloOp τ sig (Elt F))).Forall fun op => op.bufs ⊆ tcRefs τ sig := by
  unfold cC; exact ⟨nullary_bufs_sub .., unary_bufs_sub .., nullary_bufs_sub .., unary_bufs_sub .., unary_bufs_sub .., ternary_bufs_sub ..⟩
theorem cC_fresh : (cC : List (HloOp τ sig (Elt F))).Forall fun op => op.fresh = ∅ := by
  unfold cC; exact ⟨rfl, rfl, rfl, rfl, rfl, rfl⟩
/-- The buffers the stretch writes. -/
abbrev cC_W : List (Ref sig .tc) := [main_cst, main_v12, main_cst_0, main_v13, main_v14, main_v15]
theorem cC_writes : (cC : List (HloOp τ sig (Elt F))).Forall fun op =>
    op.writes ⊆ (cC_W.map (Proc.devRef (τ := τ) .tc)).toFinset := by
  unfold cC; simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
/-- A buffer the stretch does not write keeps its contents through it. -/
theorem cC_keep (W : Valuation τ sig (Elt F)) (r : Ref sig .tc) (h : r ∉ cC_W) :
    after cC W (no_index (Proc.devRef .tc r)) = W (Proc.devRef .tc r) :=
  after_of_writes_sub cC W cC_writes h

theorem cD1_sub : (cD1 : List (HloOp τ sig (Elt F))).Forall fun op => op.bufs ⊆ tcRefs τ sig := by
  unfold cD1; exact ⟨binary_bufs_sub .., nullary_bufs_sub .., binary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub ..⟩
theorem cD1_fresh : (cD1 : List (HloOp τ sig (Elt F))).Forall fun op => op.fresh = ∅ := by
  unfold cD1; exact ⟨rfl, rfl, rfl, rfl, rfl, rfl, rfl, rfl, rfl, rfl, rfl, rfl, rfl, rfl, rfl, rfl, rfl⟩
/-- The buffers the stretch writes. -/
abbrev cD1_W : List (Ref sig .tc) := [main_v16, main_cst_1, main_v17, main_v18, main_cst_2, main_v19, main_v20, main_v21, main_v22, main_v23, main_v24, main_v25, main_v26, main_cst_3, main_v27, main_v28, main_v29]
theorem cD1_writes : (cD1 : List (HloOp τ sig (Elt F))).Forall fun op =>
    op.writes ⊆ (cD1_W.map (Proc.devRef (τ := τ) .tc)).toFinset := by
  unfold cD1; simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
/-- A buffer the stretch does not write keeps its contents through it. -/
theorem cD1_keep (W : Valuation τ sig (Elt F)) (r : Ref sig .tc) (h : r ∉ cD1_W) :
    after cD1 W (no_index (Proc.devRef .tc r)) = W (Proc.devRef .tc r) :=
  after_of_writes_sub cD1 W cD1_writes h

theorem cD2_sub : (cD2 : List (HloOp τ sig (Elt F))).Forall fun op => op.bufs ⊆ tcRefs τ sig := by
  unfold cD2; exact ⟨binary_bufs_sub .., nullary_bufs_sub .., binary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub ..⟩
theorem cD2_fresh : (cD2 : List (HloOp τ sig (Elt F))).Forall fun op => op.fresh = ∅ := by
  unfold cD2; exact ⟨rfl, rfl, rfl, rfl, rfl, rfl, rfl, rfl, rfl, rfl, rfl, rfl, rfl, rfl, rfl, rfl, rfl⟩
/-- The buffers the stretch writes. -/
abbrev cD2_W : List (Ref sig .tc) := [main_v30, main_cst_4, main_v31, main_v32, main_cst_5, main_v33, main_v34, main_v35, main_v36, main_v37, main_v38, main_v39, main_v40, main_cst_6, main_v41, main_v42, main_v43]
theorem cD2_writes : (cD2 : List (HloOp τ sig (Elt F))).Forall fun op =>
    op.writes ⊆ (cD2_W.map (Proc.devRef (τ := τ) .tc)).toFinset := by
  unfold cD2; simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
/-- A buffer the stretch does not write keeps its contents through it. -/
theorem cD2_keep (W : Valuation τ sig (Elt F)) (r : Ref sig .tc) (h : r ∉ cD2_W) :
    after cD2 W (no_index (Proc.devRef .tc r)) = W (Proc.devRef .tc r) :=
  after_of_writes_sub cD2 W cD2_writes h

theorem cD3a_sub : (cD3a : List (HloOp τ sig (Elt F))).Forall fun op => op.bufs ⊆ tcRefs τ sig := by
  unfold cD3a; exact ⟨binary_bufs_sub .., nullary_bufs_sub .., binary_bufs_sub .., binary_bufs_sub .., nullary_bufs_sub .., binary_bufs_sub .., unary_bufs_sub ..⟩
theorem cD3a_fresh : (cD3a : List (HloOp τ sig (Elt F))).Forall fun op => op.fresh = ∅ := by
  unfold cD3a; exact ⟨rfl, rfl, rfl, rfl, rfl, rfl, rfl⟩
/-- The buffers the stretch writes. -/
abbrev cD3a_W : List (Ref sig .tc) := [main_v44, main_cst_7, main_v45, main_v46, main_cst_8, main_v47, main_v48]
theorem cD3a_writes : (cD3a : List (HloOp τ sig (Elt F))).Forall fun op =>
    op.writes ⊆ (cD3a_W.map (Proc.devRef (τ := τ) .tc)).toFinset := by
  unfold cD3a; simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
/-- A buffer the stretch does not write keeps its contents through it. -/
theorem cD3a_keep (W : Valuation τ sig (Elt F)) (r : Ref sig .tc) (h : r ∉ cD3a_W) :
    after cD3a W (no_index (Proc.devRef .tc r)) = W (Proc.devRef .tc r) :=
  after_of_writes_sub cD3a W cD3a_writes h

theorem cD3b_sub : (cD3b : List (HloOp τ sig (Elt F))).Forall fun op => op.bufs ⊆ tcRefs τ sig := by
  unfold cD3b; exact ⟨unary_bufs_sub .., unary_bufs_sub .., unary_bufs_sub .., binary_bufs_sub .., unary_bufs_sub .., binary_bufs_sub .., nullary_bufs_sub .., unary_bufs_sub .., binary_bufs_sub .., binary_bufs_sub ..⟩
theorem cD3b_fresh : (cD3b : List (HloOp τ sig (Elt F))).Forall fun op => op.fresh = ∅ := by
  unfold cD3b; exact ⟨rfl, rfl, rfl, rfl, rfl, rfl, rfl, rfl, rfl, rfl⟩
/-- The buffers the stretch writes. -/
abbrev cD3b_W : List (Ref sig .tc) := [main_v49, main_v50, main_v51, main_v52, main_v53, main_v54, main_cst_9, main_v55, main_v56, main_v57]
theorem cD3b_writes : (cD3b : List (HloOp τ sig (Elt F))).Forall fun op =>
    op.writes ⊆ (cD3b_W.map (Proc.devRef (τ := τ) .tc)).toFinset := by
  unfold cD3b; simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
/-- A buffer the stretch does not write keeps its contents through it. -/
theorem cD3b_keep (W : Valuation τ sig (Elt F)) (r : Ref sig .tc) (h : r ∉ cD3b_W) :
    after cD3b W (no_index (Proc.devRef .tc r)) = W (Proc.devRef .tc r) :=
  after_of_writes_sub cD3b W cD3b_writes h

theorem cE1_sub : (cE1 : List (HloOp τ sig (Elt F))).Forall fun op => op.bufs ⊆ tcRefs τ sig := by
  unfold cE1; exact ⟨nullary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., binary_bufs_sub ..⟩
theorem cE1_fresh : (cE1 : List (HloOp τ sig (Elt F))).Forall fun op => op.fresh = ∅ := by
  unfold cE1; exact ⟨rfl, rfl, rfl, rfl, rfl, rfl, rfl, rfl, rfl, rfl, rfl, rfl, rfl, rfl, rfl, rfl, rfl, rfl, rfl, rfl⟩
/-- The buffers the stretch writes. -/
abbrev cE1_W : List (Ref sig .tc) := [main_cst_10, main_v58, main_cst_11, main_v59, main_v60, main_v61, main_v62, main_cst_12, main_v63, main_v64, main_v65, main_v66, main_cst_13, main_v67, main_v68, main_v69, main_cst_14, main_v70, main_v71, main_v72]
theorem cE1_writes : (cE1 : List (HloOp τ sig (Elt F))).Forall fun op =>
    op.writes ⊆ (cE1_W.map (Proc.devRef (τ := τ) .tc)).toFinset := by
  unfold cE1; simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
/-- A buffer the stretch does not write keeps its contents through it. -/
theorem cE1_keep (W : Valuation τ sig (Elt F)) (r : Ref sig .tc) (h : r ∉ cE1_W) :
    after cE1 W (no_index (Proc.devRef .tc r)) = W (Proc.devRef .tc r) :=
  after_of_writes_sub cE1 W cE1_writes h

theorem cE2_sub : (cE2 : List (HloOp τ sig (Elt F))).Forall fun op => op.bufs ⊆ tcRefs τ sig := by
  unfold cE2; exact ⟨nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., binary_bufs_sub ..⟩
theorem cE2_fresh : (cE2 : List (HloOp τ sig (Elt F))).Forall fun op => op.fresh = ∅ := by
  unfold cE2; exact ⟨rfl, rfl, rfl, rfl, rfl, rfl, rfl, rfl, rfl, rfl, rfl, rfl, rfl, rfl, rfl, rfl, rfl, rfl⟩
/-- The buffers the stretch writes. -/
abbrev cE2_W : List (Ref sig .tc) := [main_cst_15, main_v73, main_v74, main_v75, main_v76, main_cst_16, main_v77, main_v78, main_v79, main_v80, main_cst_17, main_v81, main_v82, main_v83, main_cst_18, main_v84, main_v85, main_v86]
theorem cE2_writes : (cE2 : List (HloOp τ sig (Elt F))).Forall fun op =>
    op.writes ⊆ (cE2_W.map (Proc.devRef (τ := τ) .tc)).toFinset := by
  unfold cE2; simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
/-- A buffer the stretch does not write keeps its contents through it. -/
theorem cE2_keep (W : Valuation τ sig (Elt F)) (r : Ref sig .tc) (h : r ∉ cE2_W) :
    after cE2 W (no_index (Proc.devRef .tc r)) = W (Proc.devRef .tc r) :=
  after_of_writes_sub cE2 W cE2_writes h

theorem cE3a_sub : (cE3a : List (HloOp τ sig (Elt F))).Forall fun op => op.bufs ⊆ tcRefs τ sig := by
  unfold cE3a; exact ⟨nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub ..⟩
theorem cE3a_fresh : (cE3a : List (HloOp τ sig (Elt F))).Forall fun op => op.fresh = ∅ := by
  unfold cE3a; exact ⟨rfl, rfl, rfl, rfl, rfl, rfl, rfl, rfl, rfl, rfl, rfl, rfl⟩
/-- The buffers the stretch writes. -/
abbrev cE3a_W : List (Ref sig .tc) := [main_cst_19, main_v87, main_v88, main_v89, main_v90, main_cst_20, main_v91, main_v92, main_v93, main_v94, main_cst_21, main_v95]
theorem cE3a_writes : (cE3a : List (HloOp τ sig (Elt F))).Forall fun op =>
    op.writes ⊆ (cE3a_W.map (Proc.devRef (τ := τ) .tc)).toFinset := by
  unfold cE3a; simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
/-- A buffer the stretch does not write keeps its contents through it. -/
theorem cE3a_keep (W : Valuation τ sig (Elt F)) (r : Ref sig .tc) (h : r ∉ cE3a_W) :
    after cE3a W (no_index (Proc.devRef .tc r)) = W (Proc.devRef .tc r) :=
  after_of_writes_sub cE3a W cE3a_writes h

theorem cE3b_sub : (cE3b : List (HloOp τ sig (Elt F))).Forall fun op => op.bufs ⊆ tcRefs τ sig := by
  unfold cE3b; exact ⟨binary_bufs_sub .., unary_bufs_sub .., nullary_bufs_sub .., unary_bufs_sub .., binary_bufs_sub .., binary_bufs_sub ..⟩
theorem cE3b_fresh : (cE3b : List (HloOp τ sig (Elt F))).Forall fun op => op.fresh = ∅ := by
  unfold cE3b; exact ⟨rfl, rfl, rfl, rfl, rfl, rfl⟩
/-- The buffers the stretch writes. -/
abbrev cE3b_W : List (Ref sig .tc) := [main_v96, main_v97, main_cst_22, main_v98, main_v99, main_v100]
theorem cE3b_writes : (cE3b : List (HloOp τ sig (Elt F))).Forall fun op =>
    op.writes ⊆ (cE3b_W.map (Proc.devRef (τ := τ) .tc)).toFinset := by
  unfold cE3b; simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
/-- A buffer the stretch does not write keeps its contents through it. -/
theorem cE3b_keep (W : Valuation τ sig (Elt F)) (r : Ref sig .tc) (h : r ∉ cE3b_W) :
    after cE3b W (no_index (Proc.devRef .tc r)) = W (Proc.devRef .tc r) :=
  after_of_writes_sub cE3b W cE3b_writes h

theorem cE4_sub : (cE4 : List (HloOp τ sig (Elt F))).Forall fun op => op.bufs ⊆ tcRefs τ sig := by
  unfold cE4; exact ⟨nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., binary_bufs_sub ..⟩
theorem cE4_fresh : (cE4 : List (HloOp τ sig (Elt F))).Forall fun op => op.fresh = ∅ := by
  unfold cE4; exact ⟨rfl, rfl, rfl, rfl, rfl, rfl, rfl, rfl, rfl, rfl, rfl, rfl, rfl, rfl, rfl, rfl, rfl, rfl⟩
/-- The buffers the stretch writes. -/
abbrev cE4_W : List (Ref sig .tc) := [main_cst_23, main_v101, main_v102, main_v103, main_v104, main_cst_24, main_v105, main_v106, main_v107, main_v108, main_cst_25, main_v109, main_v110, main_v111, main_cst_26, main_v112, main_v113, main_v114]
theorem cE4_writes : (cE4 : List (HloOp τ sig (Elt F))).Forall fun op =>
    op.writes ⊆ (cE4_W.map (Proc.devRef (τ := τ) .tc)).toFinset := by
  unfold cE4; simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
/-- A buffer the stretch does not write keeps its contents through it. -/
theorem cE4_keep (W : Valuation τ sig (Elt F)) (r : Ref sig .tc) (h : r ∉ cE4_W) :
    after cE4 W (no_index (Proc.devRef .tc r)) = W (Proc.devRef .tc r) :=
  after_of_writes_sub cE4 W cE4_writes h

theorem cE5_sub : (cE5 : List (HloOp τ sig (Elt F))).Forall fun op => op.bufs ⊆ tcRefs τ sig := by
  unfold cE5; exact ⟨nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., binary_bufs_sub ..⟩
theorem cE5_fresh : (cE5 : List (HloOp τ sig (Elt F))).Forall fun op => op.fresh = ∅ := by
  unfold cE5; exact ⟨rfl, rfl, rfl, rfl, rfl, rfl, rfl, rfl, rfl, rfl, rfl, rfl, rfl, rfl, rfl, rfl, rfl, rfl⟩
/-- The buffers the stretch writes. -/
abbrev cE5_W : List (Ref sig .tc) := [main_cst_27, main_v115, main_v116, main_v117, main_v118, main_cst_28, main_v119, main_v120, main_v121, main_v122, main_cst_29, main_v123, main_v124, main_v125, main_cst_30, main_v126, main_v127, main_v128]
theorem cE5_writes : (cE5 : List (HloOp τ sig (Elt F))).Forall fun op =>
    op.writes ⊆ (cE5_W.map (Proc.devRef (τ := τ) .tc)).toFinset := by
  unfold cE5; simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
/-- A buffer the stretch does not write keeps its contents through it. -/
theorem cE5_keep (W : Valuation τ sig (Elt F)) (r : Ref sig .tc) (h : r ∉ cE5_W) :
    after cE5 W (no_index (Proc.devRef .tc r)) = W (Proc.devRef .tc r) :=
  after_of_writes_sub cE5 W cE5_writes h

theorem cE6_sub : (cE6 : List (HloOp τ sig (Elt F))).Forall fun op => op.bufs ⊆ tcRefs τ sig := by
  unfold cE6; exact ⟨nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., binary_bufs_sub ..⟩
theorem cE6_fresh : (cE6 : List (HloOp τ sig (Elt F))).Forall fun op => op.fresh = ∅ := by
  unfold cE6; exact ⟨rfl, rfl, rfl, rfl, rfl, rfl, rfl, rfl, rfl, rfl, rfl, rfl, rfl, rfl, rfl, rfl, rfl, rfl⟩
/-- The buffers the stretch writes. -/
abbrev cE6_W : List (Ref sig .tc) := [main_cst_31, main_v129, main_v130, main_v131, main_v132, main_cst_32, main_v133, main_v134, main_v135, main_v136, main_cst_33, main_v137, main_v138, main_v139, main_cst_34, main_v140, main_v141, main_v142]
theorem cE6_writes : (cE6 : List (HloOp τ sig (Elt F))).Forall fun op =>
    op.writes ⊆ (cE6_W.map (Proc.devRef (τ := τ) .tc)).toFinset := by
  unfold cE6; simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
/-- A buffer the stretch does not write keeps its contents through it. -/
theorem cE6_keep (W : Valuation τ sig (Elt F)) (r : Ref sig .tc) (h : r ∉ cE6_W) :
    after cE6 W (no_index (Proc.devRef .tc r)) = W (Proc.devRef .tc r) :=
  after_of_writes_sub cE6 W cE6_writes h

theorem cM_sub : (cM : List (HloOp τ sig (Elt F))).Forall fun op => op.bufs ⊆ tcRefs τ sig := by
  unfold cM; exact ⟨unary_bufs_sub .., unary_bufs_sub .., unary_bufs_sub .., unary_bufs_sub .., binary_bufs_sub .., nullary_bufs_sub .., unary_bufs_sub .., unary_bufs_sub .., ternary_bufs_sub .., nullary_bufs_sub .., binary_bufs_sub ..⟩
theorem cM_fresh : (cM : List (HloOp τ sig (Elt F))).Forall fun op => op.fresh = ∅ := by
  unfold cM; exact ⟨rfl, rfl, rfl, rfl, rfl, rfl, rfl, rfl, rfl, rfl, rfl⟩
/-- The buffers the stretch writes. -/
abbrev cM_W : List (Ref sig .tc) := [main_v143, main_v144, main_v145, main_v146, main_v147, main_cst_35, main_call1_v0, main_call1_v1, main_v148, main_cst_36, main_v149]
theorem cM_writes : (cM : List (HloOp τ sig (Elt F))).Forall fun op =>
    op.writes ⊆ (cM_W.map (Proc.devRef (τ := τ) .tc)).toFinset := by
  unfold cM; simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
/-- A buffer the stretch does not write keeps its contents through it. -/
theorem cM_keep (W : Valuation τ sig (Elt F)) (r : Ref sig .tc) (h : r ∉ cM_W) :
    after cM W (no_index (Proc.devRef .tc r)) = W (Proc.devRef .tc r) :=
  after_of_writes_sub cM W cM_writes h

theorem cT_sub : (cT : List (HloOp τ sig (Elt F))).Forall fun op => op.bufs ⊆ tcRefs τ sig := by
  unfold cT; exact ⟨nullary_bufs_sub .., unary_bufs_sub .., unary_bufs_sub .., ternary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., unary_bufs_sub .., nullary_bufs_sub .., binary_bufs_sub .., unary_bufs_sub .., nullary_bufs_sub .., binary_bufs_sub .., binary_bufs_sub ..⟩
theorem cT_fresh : (cT : List (HloOp τ sig (Elt F))).Forall fun op => op.fresh = ∅ := by
  unfold cT; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers the stretch writes. -/
abbrev cT_W : List (Ref sig .tc) := [main_cst_37, main_v150, main_v151, main_v152, main_cst_38, main_v153, main_v154, main_v155, main_cst_39, main_v156, main_v157, main_cst_40, main_v158, main_v159, main_v160, main_cst_41, main_call2_v0, main_call2_v1, main_v161, main_cst_42, main_v162, main_v163, main_cst_43, main_call3_v0, main_call3_v1, main_v164, main_v165, main_cst_44, main_call4_v0, main_call4_v1, main_v166, main_cst_45, main_v167, main_v168, main_v169, main_c_46, main_v170, main_v171, main_cst_47, main_v172, main_v173]
theorem cT_writes : (cT : List (HloOp τ sig (Elt F))).Forall fun op =>
    op.writes ⊆ (cT_W.map (Proc.devRef (τ := τ) .tc)).toFinset := by
  unfold cT; simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
/-- A buffer the stretch does not write keeps its contents through it. -/
theorem cT_keep (W : Valuation τ sig (Elt F)) (r : Ref sig .tc) (h : r ∉ cT_W) :
    after cT W (no_index (Proc.devRef .tc r)) = W (Proc.devRef .tc r) :=
  after_of_writes_sub cT W cT_writes h

/-! ## The whole line -/

theorem ops_sub : (ops : List (HloOp τ sig (Elt F))).Forall fun op => op.bufs ⊆ tcRefs τ sig := by
  simp only [ops, List.forall_append]
  exact ⟨cA_sub, cB1_sub, cB2_sub, cC_sub, cD1_sub, cD2_sub, cD3a_sub, cD3b_sub, cE1_sub, cE2_sub, cE3a_sub, cE3b_sub, cE4_sub,
    cE5_sub, cE6_sub, cM_sub, cT_sub⟩

theorem ops_fresh : ∀ op ∈ (ops : List (HloOp τ sig (Elt F))), op.fresh = ∅ := by
  have h : (ops : List (HloOp τ sig (Elt F))).Forall fun op => op.fresh = ∅ := by
    simp only [ops, List.forall_append]
    exact ⟨cA_fresh, cB1_fresh, cB2_fresh, cC_fresh, cD1_fresh, cD2_fresh, cD3a_fresh, cD3b_fresh, cE1_fresh, cE2_fresh, cE3a_fresh,
      cE3b_fresh, cE4_fresh, cE5_fresh, cE6_fresh, cM_fresh, cT_fresh⟩
  exact List.forall_iff_forall_mem.mp h

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.Ref.Run.lean ====
import proofs.«178334_j34394098106946_1_alg».proof.ReferenceIdeal
import proofs.«178334_j34394098106946_1_alg».proof.Proof.Gen.ReferenceIdeal
import proofs.«178334_j34394098106946_1_alg».proof.Proof.Ref.Stages
import proofs.«178334_j34394098106946_1_alg».proof.Proof.Ref.Ops
import Idealize.ShloMosaic.Lib.StableHlo.Run
import Idealize.ShloMosaic.Lib.Pipeline.Frame

/-! # The reference's run

What the reference program leaves in its result buffer, as the five stages' composition `refOut` of its three live
arguments.  Each of the seventeen stretches of @main's line of operations is read from ANY contents `W` before it: the
buffer it is there to produce holds the stage's pure function of the buffers it reads.  The whole line is then read
by nesting: a buffer is followed back through the stretches that do not write it to the one that does.  A straight
line of host operations terminates with every buffer at the fold of the operations' results, which gives the run. -/

noncomputable section

namespace Cert.ReferenceIdeal.Hand

open Idealize.ShloMosaic Idealize.ShloMosaic.TcCoe Idealize.SL.Sem Idealize.ShloMosaic.StableHlo
open Cert.ReferenceIdeal
open Cert.ReferenceIdeal.Facts₀ Cert.ReferenceIdeal.Facts

variable {F : FTy → Type} [FloatOps F]

/-! ## What each stretch leaves, from any contents `W` before it -/

/-- The running count of the label changes (%4 … %10), before the zero is put in front. -/
def segRun (g : IVec S1x64x64 32) : IVec S4095 32 :=
  let v4 : IVec S4096 32 := shapeCast S4096 g shapeCasts_S1x64x64_S4096
  let v5 : IVec S4095 32 := extractStridedSlice S4095 ![1] v4 slices_S4096_S4095_1
  let v6 : IVec S4095 32 := extractStridedSlice S4095 ![0] v4 slices_S4096_S4095_0
  Host.reduceWindow IntOp.addi ![4095] ![1] ![4094] ![0] (extui 32 (cmpi .ne v5 v6) natLt_1_32)
    (broadcastInDim S_ ![] bcast_S_S_ (constantI S_ 32 0#32)) reduceWindows_S4095_S4095_w4095s1p4094_0 h_S_

theorem cA_v1 (W : Valuation τ sig (Elt F)) :
    after cA W (no_index (Proc.devRef .tc main_v1)) = pf (W (Proc.devRef .tc main_arg0)) := by
  unfold cA; after_results_simp <;> rfl
theorem cA_v3 (W : Valuation τ sig (Elt F)) :
    after cA W (no_index (Proc.devRef .tc main_v3)) = pf (W (Proc.devRef .tc main_arg1)) := by
  unfold cA; after_results_simp <;> rfl

theorem cB1_v9 (W : Valuation τ sig (Elt F)) :
    after cB1 W (no_index (Proc.devRef .tc main_v9)) = broadcastInDim S1 ![] bcast_S_S1 (constantI S_ 32 0#32) := by
  unfold cB1; after_results_simp <;> rfl
theorem cB1_v10 (W : Valuation τ sig (Elt F)) :
    after cB1 W (no_index (Proc.devRef .tc main_v10)) = segRun (W (Proc.devRef .tc main_arg2)) := by
  unfold cB1; after_results_simp <;> (try simp only [TRef.ofBuf, TRef.toBuf, cast_eq]) <;> rfl
theorem cB2_v11 (W : Valuation τ sig (Elt F)) :
    after cB2 W (no_index (Proc.devRef .tc main_v11))
      = concatenate S4096 0 [⟨S1, W (Proc.devRef .tc main_v9)⟩, ⟨S4095, W (Proc.devRef .tc main_v10)⟩] concatenates_S1_S4095_S4096_d0 := by
  unfold cB2; after_results_simp <;> rfl
/-- The two stretches together leave the segment numbers. -/
theorem cB_v11 (W : Valuation τ sig (Elt F)) :
    after cB2 (after cB1 W) (no_index (Proc.devRef .tc main_v11)) = seg (W (Proc.devRef .tc main_arg2)) := by
  rw [cB2_v11, cB1_v9, cB1_v10]; rfl

theorem cC_v15 (W : Valuation τ sig (Elt F)) :
    after cC W (no_index (Proc.devRef .tc main_v15)) = counts (W (Proc.devRef .tc main_v11)) := by
  unfold cC; after_results_simp <;> rfl

theorem cD1_v29 (W : Valuation τ sig (Elt F)) :
    after cD1 W (no_index (Proc.devRef .tc main_v29)) = sqdist (W (Proc.devRef .tc main_v1)) (W (Proc.devRef .tc main_v1)) := by
  unfold cD1; after_results_simp <;> rfl
theorem cD2_v43 (W : Valuation τ sig (Elt F)) :
    after cD2 W (no_index (Proc.devRef .tc main_v43)) = sqdist (W (Proc.devRef .tc main_v3)) (W (Proc.devRef .tc main_v3)) := by
  unfold cD2; after_results_simp <;> rfl
theorem cD3_v57 (W : Valuation τ sig (Elt F)) :
    after cD3b (after cD3a W) (no_index (Proc.devRef .tc main_v57)) = sqdist (W (Proc.devRef .tc main_v1)) (W (Proc.devRef .tc main_v3)) := by
  unfold cD3a cD3b; after_results_simp <;> rfl

theorem cE1_v72 (W : Valuation τ sig (Elt F)) :
    after cE1 W (no_index (Proc.devRef .tc main_v72))
      = band 0xBE800000#32 (fill 0x00000000#32) (W (Proc.devRef .tc main_v29)) (W (Proc.devRef .tc main_v43)) (W (Proc.devRef .tc main_v57)) := by
  unfold cE1; after_results_simp <;> rfl

theorem cE2_v86 (W : Valuation τ sig (Elt F)) :
    after cE2 W (no_index (Proc.devRef .tc main_v86))
      = band 0xBDCCCCCD#32 (W (Proc.devRef .tc main_v72)) (W (Proc.devRef .tc main_v29)) (W (Proc.devRef .tc main_v43)) (W (Proc.devRef .tc main_v57)) := by
  unfold cE2; after_results_simp <;> rfl

theorem cE3_v100 (W : Valuation τ sig (Elt F)) :
    after cE3b (after cE3a W) (no_index (Proc.devRef .tc main_v100))
      = band 0xBD4CCCCD#32 (W (Proc.devRef .tc main_v86)) (W (Proc.devRef .tc main_v29)) (W (Proc.devRef .tc main_v43)) (W (Proc.devRef .tc main_v57)) := by
  unfold cE3a cE3b; after_results_simp <;> rfl

theorem cE4_v114 (W : Valuation τ sig (Elt F)) :
    after cE4 W (no_index (Proc.devRef .tc main_v114))
      = band 0xBCCCCCCD#32 (W (Proc.devRef .tc main_v100)) (W (Proc.devRef .tc main_v29)) (W (Proc.devRef .tc main_v43)) (W (Proc.devRef .tc main_v57)) := by
  unfold cE4; after_results_simp <;> rfl

theorem cE5_v128 (W : Valuation τ sig (Elt F)) :
    after cE5 W (no_index (Proc.devRef .tc main_v128))
      = band 0xBC4CCCCD#32 (W (Proc.devRef .tc main_v114)) (W (Proc.devRef .tc main_v29)) (W (Proc.devRef .tc main_v43)) (W (Proc.devRef .tc main_v57)) := by
  unfold cE5; after_results_simp <;> rfl

theorem cE6_v142 (W : Valuation τ sig (Elt F)) :
    after cE6 W (no_index (Proc.devRef .tc main_v142))
      = band 0xBC088889#32 (W (Proc.devRef .tc main_v128)) (W (Proc.devRef .tc main_v29)) (W (Proc.devRef .tc main_v43)) (W (Proc.devRef .tc main_v57)) := by
  unfold cE6; after_results_simp <;> rfl

theorem cM_v149 (W : Valuation τ sig (Elt F)) :
    after cM W (no_index (Proc.devRef .tc main_v149))
      = Host.reduceAdd (masked (W (Proc.devRef .tc main_v11)) (W (Proc.devRef .tc main_v142))) (cst 0x00000000#32) reducesTo_S4096x4096_S4096_d1 h_S_ := by
  unfold cM; after_results_simp <;> (try simp only [TRef.ofBuf, TRef.toBuf, cast_eq]) <;> rfl

theorem cT_v173 (W : Valuation τ sig (Elt F)) :
    after cT W (no_index (Proc.devRef .tc main_v173)) = tail (W (Proc.devRef .tc main_v11)) (W (Proc.devRef .tc main_v15)) (W (Proc.devRef .tc main_v149)) := by
  unfold cT; after_results_simp <;> (try simp only [TRef.ofBuf, TRef.toBuf, cast_eq]) <;> rfl

/-! ## The whole line

From any contents `V`: the stretches' valuations nest (`after_append`); each buffer read is followed back, through
the stretches that do not write it, to the stretch that does, and that one's lemma says what it left. -/

theorem out_eq (V : Valuation τ sig (Elt F)) :
    after ops V (Proc.devRef .tc main_v173)
      = refOut (V (Proc.devRef .tc main_arg0)) (V (Proc.devRef .tc main_arg1)) (V (Proc.devRef .tc main_arg2)) := by
  simp only [ops, Idealize.ShloMosaic.StableHlo.after_append]
  simp (disch := decide) only [cT_v173, cM_v149, cE6_v142, cE5_v128, cE4_v114, cE3_v100, cE2_v86, cE1_v72, cD3_v57, cD2_v43,
    cD1_v29, cC_v15, cB_v11, cA_v1, cA_v3, cA_keep, cB1_keep, cB2_keep, cC_keep, cD1_keep, cD2_keep, cD3a_keep, cD3b_keep, cE1_keep, cE2_keep, cE3a_keep, cE3b_keep, cE4_keep, cE5_keep, cE6_keep, cM_keep, cT_keep]
  rfl

/-- No line writes an argument. -/
theorem arg_eq (V : Valuation τ sig (Elt F)) (r : Ref sig .tc)
    (h : r ∉ cA_W ++ (cB1_W ++ (cB2_W ++ (cC_W ++ (cD1_W ++ (cD2_W ++ (cD3a_W ++ (cD3b_W ++ (cE1_W ++ (cE2_W ++ (cE3a_W ++ (cE3b_W
      ++ (cE4_W ++ (cE5_W ++ (cE6_W ++ (cM_W ++ cT_W)))))))))))))))) :
    after ops V (Proc.devRef .tc r) = V (Proc.devRef .tc r) := by
  simp only [List.mem_append, not_or] at h
  obtain ⟨hA, hB1, hB2, hC, hD1, hD2, hD3a, hD3b, hE1, hE2, hE3a, hE3b, hE4, hE5, hE6, hM, hT⟩ := h
  simp only [ops, Idealize.ShloMosaic.StableHlo.after_append]
  rw [cT_keep _ r hT, cM_keep _ r hM, cE6_keep _ r hE6, cE5_keep _ r hE5, cE4_keep _ r hE4, cE3b_keep _ r hE3b, cE3a_keep _ r hE3a,
    cE2_keep _ r hE2, cE1_keep _ r hE1, cD3b_keep _ r hD3b, cD3a_keep _ r hD3a, cD2_keep _ r hD2, cD1_keep _ r hD1, cC_keep _ r hC,
    cB2_keep _ r hB2, cB1_keep _ r hB1, cA_keep _ r hA]

/-- On every device, for any float values, from any memory with zero counters: every weakly fair execution of @main
    terminates with the result at `refOut` of the three live arguments, and the four arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v173)
          = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := run_seq scopedRefs_eq scopedSems_eq (defs (F := F)) main (fun _ => ops) main_eq (fun _ => ops_sub) m ρ (fun _ => ops_fresh)
  refine (θ_run defs _ _).mono (fun r hr c => ?_) h
  refine ⟨(hr c main_v173).trans (out_eq _), (hr c main_arg0).trans (arg_eq _ _ (by decide)), (hr c main_arg1).trans (arg_eq _ _ (by decide)),
    (hr c main_arg2).trans (arg_eq _ _ (by decide)), (hr c main_arg3).trans (arg_eq _ _ (by decide))⟩

end Cert.ReferenceIdeal.Hand

end
-- ==== Proof.lean ====
/-
  The certificate of the pairwise kernel-matrix row sums: a TensorCore kernel that tiles the 4096 × 4096 masked kernel
  matrix into 8 × 8 blocks of 512 × 512, summing each block along its lanes into an accumulator carried along a row of
  blocks, against the reference that forms the whole matrix and sums its rows.

  The frames: each program runs to the end from any memory and leaves its four argument arrays as launched — the kernel
  program's by the launch of its one region between its host lines (the same text at both float instances), the
  reference's by its host lines' run. The ideal pass rewrote no operation, so there is nothing to preserve. Equivalence on
  the extended reals: both programs end with the reference's closing lines applied to the same segment ids, segment sizes
  and row sums; the kernel's row sums are the specification's row sums tile by tile (a sum over 4096 columns is the sum
  over 8 tiles of each tile's 512), the reference's are the same sums taken whole, and addition on the extended reals is
  commutative and associative, so no finiteness is used.
-/
import proofs.«178334_j34394098106946_1_alg».proof.Defs
import proofs.«178334_j34394098106946_1_alg».proof.Proof.Gen.Kernel
import proofs.«178334_j34394098106946_1_alg».proof.Proof.Gen.KernelIdeal
import proofs.«178334_j34394098106946_1_alg».proof.Proof.Gen.ReferenceIdeal
import proofs.«178334_j34394098106946_1_alg».proof.Proof.Gen.Pre_finite_inputs
import proofs.«178334_j34394098106946_1_alg».proof.Proof.K.Frame
import proofs.«178334_j34394098106946_1_alg».proof.Proof.KI.Result
import proofs.«178334_j34394098106946_1_alg».proof.Proof.Ref.Run

noncomputable section

namespace Cert.Proof

open Idealize.ShloMosaic Idealize.ShloMosaic.TcCoe Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Hand.frame m ρ

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The idealized reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- From memories that agree on the arguments both idealized programs end with the reference's function of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Hand.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Hand.run m ρ)
    refine ⟨(h c _ (Cert.KernelIdeal.Hand.mem_uc Cert.KernelIdeal.main_v43 (by decide))).trans (Cert.KernelIdeal.Hand.result m c), ?_, ?_, ?_, ?_⟩
    · exact (h c _ (Cert.KernelIdeal.Hand.mem_uc Cert.KernelIdeal.main_arg0 (by decide))).trans (Cert.KernelIdeal.Hand.W11_main_arg0 m _ c)
    · exact (h c _ (Cert.KernelIdeal.Hand.mem_uc Cert.KernelIdeal.main_arg1 (by decide))).trans (Cert.KernelIdeal.Hand.W11_main_arg1 m _ c)
    · exact (h c _ (Cert.KernelIdeal.Hand.mem_uc Cert.KernelIdeal.main_arg2 (by decide))).trans (Cert.KernelIdeal.Hand.W11_main_arg2 m _ c)
    · exact (h c _ (Cert.KernelIdeal.Hand.mem_uc Cert.KernelIdeal.main_arg3 (by decide))).trans (Cert.KernelIdeal.Hand.W11_main_arg3 m _ c)
  · refine (θ_run Cert.ReferenceIdeal.defs _ _).mono (fun r h c => ⟨?_, (h c).2⟩) (Cert.ReferenceIdeal.Hand.run (F := Ideal) m' ρ')
    rw [(h c).1, (hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
